-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S192x64 : Shape := ⟨2, ![192, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg2 : IVec S100000 32) (main_arg6 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg2 main_v24
  let main_c_9 : IVec S_ 32 := constantI S_ 32 128#32
  let main_v26 : IVec S100000 32 := broadcastInDim S100000 ![] bcast_S_S100000 main_c_9
  let main_v27 : IVec S100000 1 := cmpi .slt main_arg2 main_v26
  let main_v28 : IVec S100000 1 := andi main_v25 main_v27
  let main_c_10 : IVec S_ 1 := constantI S_ 1 1#1
  let main_v29 : IVec S_ 1 := (fun x v => Host.reduce IntOp.andi x v reducesTo_S100000_S_d0 h_S_) main_v28 main_c_10
  let main_v30 : IVec S_ 1 := andi main_v23 main_v29
  main_v30

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S192x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg2 main_arg6 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S192x64 : Shape := ⟨2, ![192, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S3200000x64 : Shape := ⟨2, ![3200000, 64]⟩
abbrev S1x64 : Shape := ⟨2, ![1, 64]⟩
abbrev S5000x1 : Shape := ⟨2, ![5000, 1]⟩
abbrev S128 : Shape := ⟨1, ![128]⟩
abbrev S128x1 : Shape := ⟨2, ![128, 1]⟩
abbrev S128x128 : Shape := ⟨2, ![128, 128]⟩
abbrev S128x192 : Shape := ⟨2, ![128, 192]⟩
abbrev S100000x192 : Shape := ⟨2, ![100000, 192]⟩
abbrev S5000x192 : Shape := ⟨2, ![5000, 192]⟩

abbrev nBuf : Space → Nat
  | .hbm => 133
  | .vmem => 38
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S192x64, .f32⟩
  | 6 => ⟨S64, .f32⟩
  | 7 => ⟨S1x3200000, .i32⟩
  | 8 => ⟨S3200000, .i32⟩
  | 9 => ⟨S1x3200000, .i32⟩
  | 10 => ⟨S3200000, .i32⟩
  | 11 => ⟨S_, .f32⟩
  | 12 => ⟨S3200000, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S100000, .f32⟩
  | 41 => ⟨S100000x1, .f32⟩
  | 42 => ⟨S100000x64, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x1, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S1x64, .f32⟩
  | 60 => ⟨S100000x64, .f32⟩
  | 61 => ⟨S100000, .i32⟩
  | 62 => ⟨S_, .i32⟩
  | 63 => ⟨S128, .i32⟩
  | 64 => ⟨S100000x1, .i32⟩
  | 65 => ⟨S128, .i32⟩
  | 66 => ⟨S_, .i32⟩
  | 67 => ⟨S128, .i32⟩
  | 68 => ⟨S128, .i32⟩
  | 69 => ⟨S_, .i32⟩
  | 70 => ⟨S128, .i32⟩
  | 71 => ⟨S128, .i1⟩
  | 72 => ⟨S_, .i32⟩
  | 73 => ⟨S128, .i32⟩
  | 74 => ⟨S128, .i32⟩
  | 75 => ⟨S128, .i32⟩
  | 76 => ⟨S128x1, .i32⟩
  | 77 => ⟨S128x128, .f32⟩
  | 78 => ⟨S_, .i32⟩
  | 79 => ⟨S128, .i32⟩
  | 80 => ⟨S128, .i1⟩
  | 81 => ⟨S_, .i32⟩
  | 82 => ⟨S128, .i32⟩
  | 83 => ⟨S128, .i32⟩
  | 84 => ⟨S128, .i32⟩
  | 85 => ⟨S128x1, .i32⟩
  | 86 => ⟨S128x64, .f32⟩
  | 87 => ⟨S128x192, .f32⟩
  | 88 => ⟨S100000x1, .i32⟩
  | 89 => ⟨S100000x192, .f32⟩
  | 90 => ⟨S100000x128, .f32⟩
  | 91 => ⟨S100000x64, .f32⟩
  | 92 => ⟨S100000x192, .f32⟩
  | 93 => ⟨S_, .f32⟩
  | 94 => ⟨S100000x192, .f32⟩
  | 95 => ⟨S100000x192, .f32⟩
  | 96 => ⟨S100000x64, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x64, .f32⟩
  | 106 => ⟨S3200000x1, .f32⟩
  | 107 => ⟨S3200000x64, .f32⟩
  | 108 => ⟨S3200000x64, .f32⟩
  | 109 => ⟨S_, .f32⟩
  | 110 => ⟨S100000x64, .f32⟩
  | 111 => ⟨S3200000x1, .i32⟩
  | 112 => ⟨S100000x64, .f32⟩
  | 113 => ⟨S1x64, .f32⟩
  | 114 => ⟨S100000x64, .f32⟩
  | 115 => ⟨S_, .f32⟩
  | 116 => ⟨S100000x64, .f32⟩
  | 117 => ⟨S100000x64, .f32⟩
  | 118 => ⟨S100000x128, .f32⟩
  | 119 => ⟨S100000x1, .i32⟩
  | 120 => ⟨S128x128, .f32⟩
  | 121 => ⟨S_, .f32⟩
  | 122 => ⟨S100000, .f32⟩
  | 123 => ⟨S_, .f32⟩
  | 124 => ⟨S128, .f32⟩
  | 125 => ⟨S100000x1, .i32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128x1, .f32⟩
  | 3 => ⟨S128x128, .f32⟩
  | 4 => ⟨S128x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x1, .i32⟩
  | .local _ .vmem, ⟨15, _⟩ => ⟨S5000x1, .i32⟩
  | .local _ .vmem, ⟨16, _⟩ => ⟨S128x192, .f32⟩
  | .local _ .vmem, ⟨17, _⟩ => ⟨S5000x192, .f32⟩
  | .local _ .vmem, ⟨18, _⟩ => ⟨S5000x192, .f32⟩
  | .local _ .vmem, ⟨19, _⟩ => ⟨S5000x192, .f32⟩
  | .local _ .vmem, ⟨20, _⟩ => ⟨S5000x192, .f32⟩
  | .local _ .vmem, ⟨21, _⟩ => ⟨S192x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x1, .i32⟩
  | .local _ .vmem, ⟨34, _⟩ => ⟨S5000x1, .i32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call0_cst : Ref sig .tc := ⟨.hbm, 93, rfl⟩
abbrev main_call0_v0 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call1_cst : Ref sig .tc := ⟨.hbm, 115, rfl⟩
abbrev main_call1_v0 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  concatenates_S128x128_S128x64_S128x192_d1 : Shape.Concatenates [S128x128, S128x64] S128x192 1
  iota_S5000x128_d1_w32 : S5000x128.Iotas .tc 32 [1]
  broadcasts_S5000x1_S5000x128 : S5000x1.Broadcasts S5000x128
  natLt_1_32 : 1 < 32
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S5000x192_S5000x192_0_0 : ∀ a, (![0, 0] : Fin 2 → Nat) a + S5000x192.size a ≤ S5000x192.size a
  h_S5000x192 : 0 < S5000x192.numel
  slices_S100000x192_S100000x128_0_0 : S100000x192.Slices ![0, 0] S100000x128
  slices_S100000x192_S100000x64_0_128 : S100000x192.Slices ![0, 128] S100000x64
  concatenates_S100000x64_S100000x128_S100000x192_d1 : Shape.Concatenates [S100000x64, S100000x128] S100000x192 1
  bcast_S_S100000x192 : S_.BroadcastsInDim S100000x192 (![] : Fin 0 → Fin S100000x192.rank)
  shapeCasts_S5000x192_S5000x192 : S5000x192.ShapeCasts S5000x192
  inb_S192x64_S192x64_0_0 : ∀ a, (![0, 0] : Fin 2 → Nat) a + S192x64.size a ≤ S192x64.size a
  h_S192x64 : 0 < S192x64.numel
  concatenates_S100000x64_S100000x64_S100000x128_d1 : Shape.Concatenates [S100000x64, S100000x64] S100000x128 1
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  shapeCasts_S128x128_S128x128 : S128x128.ShapeCasts S128x128
  bcast_S128x1_S128x128_0_1 : S128x1.BroadcastsInDim S128x128 (![0, 1] : Fin 2 → Fin S128x128.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S128_S100000x1_S100000_n_0_0_1_wf : ScatterDims.WF S128 S100000x1 S100000 [] [0] [0] 1
  gather_S100000x128_S128x1_S128x128_1_0_n_n_0_1_1128_wf : GatherDims.WF S100000x128 S128x1 S128x128 [1] [0] [] [0] [] 1 ![1, 128]
  gather_S100000x64_S128x1_S128x64_1_0_n_n_0_1_164_wf : GatherDims.WF S100000x64 S128x1 S128x64 [1] [0] [] [0] [] 1 ![1, 64]
  dot_S5000x128_S128x192_S5000x192_1_0_0_1_n_n_wf : DotDims.WF S5000x128 S128x192 S5000x192 [1] [0] [0] [1] [] []
  dot_S5000x192_S192x64_S5000x64_1_0_0_1_n_n_wf : DotDims.WF S5000x192 S192x64 S5000x64 [1] [0] [0] [1] [] []
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .i32 = 32 ∨ (Rect.block (s := S100000x1) S5000x1.size (cc2_transform_0 i) (hinb2_0 i)).WholeWords (EltTy.packing .i32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x192.size a ≤ S128x192.size a
  hwx2_1 : ∀ i : grid2.Coords, EltTy.bits .f32 = 32 ∨ (Rect.block (s := S128x192) S128x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x192.size a ≤ S100000x192.size a
  hwx2_2 : ∀ i : grid2.Coords, EltTy.bits .f32 = 32 ∨ (Rect.block (s := S100000x192) S5000x192.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S100000x192.size a
  hwx3_0 : ∀ i : grid3.Coords, EltTy.bits .f32 = 32 ∨ (Rect.block (s := S100000x192) S5000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x64.size a ≤ S192x64.size a
  hwx3_1 : ∀ i : grid3.Coords, EltTy.bits .f32 = 32 ∨ (Rect.block (s := S192x64) S192x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .i32 = 32 ∨ (Rect.block (s := S100000x1) S5000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S100000x128_S128x1_S128x128_1_0_n_n_0_1_1128 : GatherDims S100000x128 S128x1 S128x128 where
  offsetDims := [1]
  collapsedSliceDims := [0]
  operandBatchingDims := []
  startIndicesBatchingDims := []
  startIndexMap := [0]
  indexVectorDim := 1
  sliceSizes := ![1, 128]
  wf := gather_S100000x128_S128x1_S128x128_1_0_n_n_0_1_1128_wf
def gather_S100000x64_S128x1_S128x64_1_0_n_n_0_1_164 : GatherDims S100000x64 S128x1 S128x64 where
  offsetDims := [1]
  collapsedSliceDims := [0]
  operandBatchingDims := []
  startIndicesBatchingDims := []
  startIndexMap := [0]
  indexVectorDim := 1
  sliceSizes := ![1, 64]
  wf := gather_S100000x64_S128x1_S128x64_1_0_n_n_0_1_164_wf
def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v65) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v89) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v90) S128x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S192x64 : Shape := ⟨2, ![192, 64]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S128 : Shape := ⟨1, ![128]⟩
abbrev S128x1 : Shape := ⟨2, ![128, 1]⟩
abbrev S128x128 : Shape := ⟨2, ![128, 128]⟩
abbrev S100000x192 : Shape := ⟨2, ![100000, 192]⟩

abbrev nBuf : Space → Nat
  | .hbm => 187
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S192x64, .f32⟩
  | 6 => ⟨S64, .f32⟩
  | 7 => ⟨S1x3200000, .i32⟩
  | 8 => ⟨S3200000, .i32⟩
  | 9 => ⟨S1x3200000, .i32⟩
  | 10 => ⟨S3200000, .i32⟩
  | 11 => ⟨S100000x64, .f32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S3200000, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x64, .f32⟩
  | 50 => ⟨S3200000x1, .f32⟩
  | 51 => ⟨S3200000x64, .f32⟩
  | 52 => ⟨S3200000x64, .f32⟩
  | 53 => ⟨S_, .f32⟩
  | 54 => ⟨S100000x64, .f32⟩
  | 55 => ⟨S3200000x1, .i32⟩
  | 56 => ⟨S100000x64, .f32⟩
  | 57 => ⟨S100000, .f32⟩
  | 58 => ⟨S100000x1, .f32⟩
  | 59 => ⟨S100000x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S100000, .i32⟩
  | 66 => ⟨S_, .i32⟩
  | 67 => ⟨S128, .i32⟩
  | 68 => ⟨S100000x1, .i32⟩
  | 69 => ⟨S128, .i32⟩
  | 70 => ⟨S_, .i32⟩
  | 71 => ⟨S128, .i32⟩
  | 72 => ⟨S128, .i32⟩
  | 73 => ⟨S_, .i32⟩
  | 74 => ⟨S128, .i32⟩
  | 75 => ⟨S128, .i1⟩
  | 76 => ⟨S_, .i32⟩
  | 77 => ⟨S128, .i32⟩
  | 78 => ⟨S128, .i32⟩
  | 79 => ⟨S128, .i32⟩
  | 80 => ⟨S128x1, .i32⟩
  | 81 => ⟨S128x128, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S100000x1, .i32⟩
  | 90 => ⟨S100000x128, .f32⟩
  | 91 => ⟨S100000x192, .f32⟩
  | 92 => ⟨S_, .f32⟩
  | 93 => ⟨S100000x192, .f32⟩
  | 94 => ⟨S100000x192, .f32⟩
  | 95 => ⟨S100000x64, .f32⟩
  | 96 => ⟨S_, .f32⟩
  | 97 => ⟨S3200000, .f32⟩
  | 98 => ⟨S_, .f32⟩
  | 99 => ⟨S100000, .f32⟩
  | 100 => ⟨S3200000x1, .i32⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000, .f32⟩
  | 124 => ⟨S3200000, .f32⟩
  | 125 => ⟨S_, .i32⟩
  | 126 => ⟨S3200000, .i32⟩
  | 127 => ⟨S3200000, .i1⟩
  | _ => ⟨S100000x128, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x64, .f32⟩
  | 6 => ⟨S3200000x1, .f32⟩
  | 7 => ⟨S3200000x64, .f32⟩
  | 8 => ⟨S3200000x64, .f32⟩
  | 9 => ⟨S_, .f32⟩
  | 10 => ⟨S100000x64, .f32⟩
  | 11 => ⟨S3200000x1, .i32⟩
  | 12 => ⟨S100000x64, .f32⟩
  | 13 => ⟨S100000, .f32⟩
  | 14 => ⟨S100000x1, .f32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S_, .i32⟩
  | 25 => ⟨S128, .i32⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S128x64, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x64, .f32⟩
  | 42 => ⟨S100000x128, .f32⟩
  | 43 => ⟨S_, .f32⟩
  | 44 => ⟨S128x128, .f32⟩
  | 45 => ⟨S100000x1, .i32⟩
  | 46 => ⟨S128x128, .f32⟩
  | 47 => ⟨S_, .f32⟩
  | 48 => ⟨S100000, .f32⟩
  | 49 => ⟨S_, .f32⟩
  | 50 => ⟨S128, .f32⟩
  | 51 => ⟨S100000x1, .i32⟩
  | 52 => ⟨S128, .f32⟩
  | 53 => ⟨S_, .f32⟩
  | 54 => ⟨S128, .f32⟩
  | 55 => ⟨S128, .f32⟩
  | 56 => ⟨S128x1, .f32⟩
  | 57 => ⟨S128x128, .f32⟩
  | 58 => ⟨S128x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_12 : Ref sig .tc := ⟨.hbm, 82, rfl⟩
abbrev main_v61 : Ref sig .tc := ⟨.hbm, 83, rfl⟩
abbrev main_v62 : Ref sig .tc := ⟨.hbm, 84, rfl⟩
abbrev main_c_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call0_cst : Ref sig .tc := ⟨.hbm, 92, rfl⟩
abbrev main_call0_v0 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_17 : Ref sig .tc := ⟨.hbm, 106, rfl⟩
abbrev main_v78 : Ref sig .tc := ⟨.hbm, 107, rfl⟩
abbrev main_v79 : Ref sig .tc := ⟨.hbm, 108, rfl⟩
abbrev main_c_18 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_19 : Ref sig .tc := ⟨.hbm, 115, rfl⟩
abbrev main_v85 : Ref sig .tc := ⟨.hbm, 116, rfl⟩
abbrev main_v86 : Ref sig .tc := ⟨.hbm, 117, rfl⟩
abbrev main_c_20 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_21 : Ref sig .tc := ⟨.hbm, 125, rfl⟩
abbrev main_v93 : Ref sig .tc := ⟨.hbm, 126, rfl⟩
abbrev main_v94 : Ref sig .tc := ⟨.hbm, 127, rfl⟩
abbrev main_c_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_23 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_call1_cst : Ref sig .tc := ⟨.hbm, 149, rfl⟩
abbrev main_call1_v0 : Ref sig .tc := ⟨.hbm, 150, rfl⟩
abbrev main_v114 : Ref sig .tc := ⟨.hbm, 151, rfl⟩
abbrev main_c_24 : Ref sig .tc := ⟨.hbm, 152, rfl⟩
abbrev main_v115 : Ref sig .tc := ⟨.hbm, 153, rfl⟩
abbrev main_v116 : Ref sig .tc := ⟨.hbm, 154, rfl⟩
abbrev main_c_25 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_26 : Ref sig .tc := ⟨.hbm, 161, rfl⟩
abbrev main_v122 : Ref sig .tc := ⟨.hbm, 162, rfl⟩
abbrev main_v123 : Ref sig .tc := ⟨.hbm, 163, rfl⟩
abbrev main_c_27 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_28 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_29 : Ref sig .tc := ⟨.hbm, 175, rfl⟩
abbrev main_v133 : Ref sig .tc := ⟨.hbm, 176, rfl⟩
abbrev main_cst_30 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_31 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128 : S_.BroadcastsInDim S128 (![] : Fin 0 → Fin S128.rank)
  bcast_S128_S128x1_0 : S128.BroadcastsInDim S128x1 (![0] : Fin 1 → Fin S128x1.rank)
  concatenates_S100000x64_S100000x128_S100000x192_d1 : Shape.Concatenates [S100000x64, S100000x128] S100000x192 1
  bcast_S_S100000x192 : S_.BroadcastsInDim S100000x192 (![] : Fin 0 → Fin S100000x192.rank)
  concatenates_S100000x64_S100000x64_S100000x128_d1 : Shape.Concatenates [S100000x64, S100000x64] S100000x128 1
  bcast_S_S128x128 : S_.BroadcastsInDim S128x128 (![] : Fin 0 → Fin S128x128.rank)
  bcast_S128x1_S128x128_0_1 : S128x1.BroadcastsInDim S128x128 (![0, 1] : Fin 2 → Fin S128x128.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S128_S100000x1_S100000_n_0_0_1_wf : ScatterDims.WF S128 S100000x1 S100000 [] [0] [0] 1
  gather_S100000x128_S128x1_S128x128_1_0_n_n_0_1_1128_wf : GatherDims.WF S100000x128 S128x1 S128x128 [1] [0] [] [0] [] 1 ![1, 128]
  gather_S128x128_S100000x1_S100000x128_1_0_n_n_0_1_1128_wf : GatherDims.WF S128x128 S100000x1 S100000x128 [1] [0] [] [0] [] 1 ![1, 128]
  dot_S100000x192_S192x64_S100000x64_1_0_0_1_n_n_wf : DotDims.WF S100000x192 S192x64 S100000x64 [1] [0] [0] [1] [] []
  gather_S100000x64_S128x1_S128x64_1_0_n_n_0_1_164_wf : GatherDims.WF S100000x64 S128x1 S128x64 [1] [0] [] [0] [] 1 ![1, 64]
  gather_S128x64_S100000x1_S100000x64_1_0_n_n_0_1_164_wf : GatherDims.WF S128x64 S100000x1 S100000x64 [1] [0] [] [0] [] 1 ![1, 64]
  scatter_S128x128_S100000x1_S100000x128_1_0_0_1_wf : ScatterDims.WF S128x128 S100000x1 S100000x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S100000x128_S128x1_S128x128_1_0_n_n_0_1_1128 : GatherDims S100000x128 S128x1 S128x128 where
  offsetDims := [1]
  collapsedSliceDims := [0]
  operandBatchingDims := []
  startIndicesBatchingDims := []
  startIndexMap := [0]
  indexVectorDim := 1
  sliceSizes := ![1, 128]
  wf := gather_S100000x128_S128x1_S128x128_1_0_n_n_0_1_1128_wf
def gather_S128x128_S100000x1_S100000x128_1_0_n_n_0_1_1128 : GatherDims S128x128 S100000x1 S100000x128 where
  offsetDims := [1]
  collapsedSliceDims := [0]
  operandBatchingDims := []
  startIndicesBatchingDims := []
  startIndexMap := [0]
  indexVectorDim := 1
  sliceSizes := ![1, 128]
  wf := gather_S128x128_S100000x1_S100000x128_1_0_n_n_0_1_1128_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def gather_S100000x64_S128x1_S128x64_1_0_n_n_0_1_164 : GatherDims S100000x64 S128x1 S128x64 where
  offsetDims := [1]
  collapsedSliceDims := [0]
  operandBatchingDims := []
  startIndicesBatchingDims := []
  startIndexMap := [0]
  indexVectorDim := 1
  sliceSizes := ![1, 64]
  wf := gather_S100000x64_S128x1_S128x64_1_0_n_n_0_1_164_wf
def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf

class Facts : Prop extends Facts₀ where

variable [Facts]
-- ==== Proof.RefRunStaged.lean ====
/-
  The reference's run, with its result read as the last stage of the argument arrays.

  The reference is a straight line of 180 array operations. Run from any memory it terminates with every buffer at the
  fold of the operations' results over the launch contents; read at the result buffer, that fold is the last stage
  `val_main_v141` of the argument arrays (each operation's result read at its own buffer, every other buffer passed
  on), and read at an argument's buffer it is the argument, which no operation writes.
-/
import proofs.«426131_j12824772345978_2_alg».proof.Proof.RefRead
import Idealize.ShloMosaic.Lib.StableHlo.Run

set_option maxRecDepth 100000

noncomputable section

namespace Cert.RefValue

open Cert.ReferenceIdeal Cert.ReferenceIdeal.Gen Idealize.ShloMosaic Idealize.ShloMosaic.TcCoe Idealize.SL.Sem Idealize.ShloMosaic.StableHlo
open Cert.ReferenceIdeal.ValueP (ops main_eq ops_sub scopedRefs_eq scopedSems_eq)
open Cert.ReferenceIdeal.ReadP

variable {F : FTy → Type} [FloatOps F]

/-- Two arrays laid side by side along an axis, with the two arrays as plain arguments. -/
def cat2 {α : Type} (S : Shape) (d : Fin S.rank) (S1 S2 : Shape) (h : Shape.Concatenates [S1, S2] S d)
    (a : S1.Idx → α) (b : S2.Idx → α) : S.Idx → α :=
  concatenate S d [⟨S1, a⟩, ⟨S2, b⟩] h

theorem cat2_eq {α : Type} (S : Shape) (d : Fin S.rank) (S1 S2 : Shape) (h : Shape.Concatenates [S1, S2] S d)
    (a : S1.Idx → α) (b : S2.Idx → α) : concatenate S d [⟨S1, a⟩, ⟨S2, b⟩] h = cat2 S d S1 S2 h a b := rfl

/-- No operation of the reference allocates a buffer. -/
theorem ops_fresh : (ops : List (HloOp τ sig (Elt F))).Forall fun op => op.fresh = ∅ := by
  simp only [List.Forall]; repeat' constructor

set_option maxHeartbeats 16000000 in
/-- THE REFERENCE'S RESULT: after the whole line of operations, from any contents, the result buffer holds the last
    stage of the argument arrays. Each operation's result is read at its own buffer and passed on at every other one;
    the two concatenations are carried with their operands as plain arguments so that the reading goes on inside them. -/
theorem after_result (W : Valuation τ sig (Elt F)) : after (ops (F := F)) W (Proc.devRef .tc main_v141)
    = val_main_v141 (F := F) (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_eq]
  try simp only [TRef.ofBuf, TRef.toBuf, cast_eq]
  unfold val_main_v141 val_main_v140 val_main_v139 val_main_v138 val_main_v137 val_main_cst_31 val_main_v136 val_main_v135 val_main_v134 val_main_cst_30 val_main_v133 val_main_cst_29 val_main_v132 val_main_v131 val_main_v130 val_main_cst_28 val_main_v129 val_main_v128 val_main_v127 val_main_v126 val_main_v125 val_main_v124 val_main_c_27 val_main_v123 val_main_v122 val_main_c_26 val_main_v121 val_main_v120 val_main_v119 val_main_v118 val_main_v117 val_main_c_25 val_main_v116 val_main_v115 val_main_c_24 val_main_v114 val_main_call1_v0 val_main_call1_cst val_main_v113 val_main_v112 val_main_v111 val_main_v110 val_main_v109 val_main_v108 val_main_v107 val_main_v106 val_main_v105 val_main_v104 val_main_v103 val_main_cst_23 val_main_v102 val_main_v101 val_main_v100 val_main_v99 val_main_v98 val_main_v97 val_main_v96 val_main_v95 val_main_c_22 val_main_v94 val_main_v93 val_main_c_21 val_main_v92 val_main_v91 val_main_v90 val_main_v89 val_main_v88 val_main_v87 val_main_c_20 val_main_v86 val_main_v85 val_main_c_19 val_main_v84 val_main_v83 val_main_v82 val_main_v81 val_main_v80 val_main_c_18 val_main_v79 val_main_v78 val_main_c_17 val_main_v77 val_main_v76 val_main_v75 val_main_cst_16 val_main_v74 val_main_v73 val_main_v72 val_main_cst_15 val_main_v71 val_main_cst_14 val_main_v70 val_main_v69 val_main_call0_v0 val_main_call0_cst val_main_v68 val_main_v67 val_main_v66 val_main_v65 val_main_v64 val_main_v63 val_main_c_13 val_main_v62 val_main_v61 val_main_c_12 val_main_v60 val_main_v59 val_main_v58 val_main_v57 val_main_v56 val_main_c_11 val_main_v55 val_main_v54 val_main_c_10 val_main_v53 val_main_v52 val_main_c_9 val_main_v51 val_main_v50 val_main_v49 val_main_c_8 val_main_v48 val_main_v47 val_main_v46 val_main_v45 val_main_v44 val_main_v43 val_main_v42 val_main_v41 val_main_v40 val_main_v39 val_main_v38 val_main_v37 val_main_cst_7 val_main_v36 val_main_v35 val_main_v34 val_main_v33 val_main_v32 val_main_v31 val_main_v30 val_main_v29 val_main_c_6 val_main_v28 val_main_v27 val_main_c_5 val_main_v26 val_main_v25 val_main_v24 val_main_v23 val_main_v22 val_main_v21 val_main_c_4 val_main_v20 val_main_v19 val_main_c_3 val_main_v18 val_main_v17 val_main_v16 val_main_v15 val_main_v14 val_main_c_2 val_main_v13 val_main_v12 val_main_c val_main_v11 val_main_v10 val_main_v9 val_main_cst_1 val_main_v8 val_main_v7 val_main_v6 val_main_cst_0 val_main_v5 val_main_cst val_main_v4 val_main_v3 val_main_v2 val_main_v1 val_main_v0
  simp only [cat2_eq]
  rfl

/-! ## No operation writes an argument -/

set_option maxHeartbeats 4000000 in
theorem after_arg0 (W : Valuation τ sig (Elt F)) : after (ops (F := F)) W (Proc.devRef .tc main_arg0) = W (Proc.devRef .tc main_arg0) := by
  after_results_simp
set_option maxHeartbeats 4000000 in
theorem after_arg1 (W : Valuation τ sig (Elt F)) : after (ops (F := F)) W (Proc.devRef .tc main_arg1) = W (Proc.devRef .tc main_arg1) := by
  after_results_simp
set_option maxHeartbeats 4000000 in
theorem after_arg2 (W : Valuation τ sig (Elt F)) : after (ops (F := F)) W (Proc.devRef .tc main_arg2) = W (Proc.devRef .tc main_arg2) := by
  after_results_simp
set_option maxHeartbeats 4000000 in
theorem after_arg3 (W : Valuation τ sig (Elt F)) : after (ops (F := F)) W (Proc.devRef .tc main_arg3) = W (Proc.devRef .tc main_arg3) := by
  after_results_simp
set_option maxHeartbeats 4000000 in
theorem after_arg4 (W : Valuation τ sig (Elt F)) : after (ops (F := F)) W (Proc.devRef .tc main_arg4) = W (Proc.devRef .tc main_arg4) := by
  after_results_simp
set_option maxHeartbeats 4000000 in
theorem after_arg5 (W : Valuation τ sig (Elt F)) : after (ops (F := F)) W (Proc.devRef .tc main_arg5) = W (Proc.devRef .tc main_arg5) := by
  after_results_simp
set_option maxHeartbeats 4000000 in
theorem after_arg6 (W : Valuation τ sig (Elt F)) : after (ops (F := F)) W (Proc.devRef .tc main_arg6) = W (Proc.devRef .tc main_arg6) := by
  after_results_simp

/-! ## The run -/

/-- On every device, from any memory with zero counters: every weakly fair execution of the reference terminates,
    nothing faulting, with the result buffer at the last stage of the argument arrays and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v141)
        = val_main_v141 (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v141).trans (after_result _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _)⟩)
    (run_seq scopedRefs_eq scopedSems_eq defs main (fun _ => ops) main_eq (fun _ => ops_sub) m ρ
      (fun _ => List.forall_iff_forall_mem.mp ops_fresh))

end Cert.RefValue

end
-- ==== Proof.KernelWrites.lean ====
/-
  What each stretch of host operations writes. A host operation writes its one result buffer; so a stretch writes the
  result buffers of its operations, listed here in program order, and no other buffer.
-/
import proofs.«426131_j12824772345978_2_alg».proof.Proof.Gen.KernelIdeal.Launch
import Idealize.ShloMosaic.Lib.StableHlo.Run

set_option maxRecDepth 16384

noncomputable section

namespace Cert.KernelValue

open Idealize.ShloMosaic Cert.KernelIdeal Cert.KernelIdeal.Gen

variable {F : FTy → Type} [FloatOps F]

/-- The buffers the operations of `hostOps0` write. -/
abbrev hostOps0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps1` write. -/
abbrev hostOps1_W : List (Ref sig .tc) := [main_c_5, main_v29, main_v30, main_c_6, main_v31, main_v32, main_v33, main_v34, main_v35, main_v36, main_v37, main_v38, main_cst_7, main_v39, main_v40, main_v41, main_v42]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps2` write. -/
abbrev hostOps2_W : List (Ref sig .tc) := [main_v44, main_c_8, main_v45, main_v46, main_v47, main_c_9, main_v48, main_v49, main_c_10, main_v50, main_v51, main_c_11, main_v52, main_v53, main_v54, main_v55, main_v56, main_c_12, main_v57, main_v58, main_c_13, main_v59, main_v60, main_v61, main_v62, main_v63, main_v64, main_v65]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps3` write. -/
abbrev hostOps3_W : List (Ref sig .tc) := [main_v67, main_v68, main_v69]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps3_1` write. -/
abbrev hostOps3_1_W : List (Ref sig .tc) := [main_call0_cst, main_call0_v0, main_v70]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps4` write. -/
abbrev hostOps4_W : List (Ref sig .tc) := [main_c_14, main_v72, main_v73, main_c_15, main_v74, main_v75, main_v76, main_v77, main_v78, main_v79, main_v80, main_v81, main_cst_16, main_v82, main_v83, main_v84, main_v85]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps5` write. -/
abbrev hostOps5_W : List (Ref sig .tc) := [main_call1_cst, main_call1_v0, main_v87]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps5_1` write. -/
abbrev hostOps5_1_W : List (Ref sig .tc) := [main_v88, main_v89]
theorem hostOps5_1_writes : (hostOps5_1 : List (HloOp τ sig (Elt F))).Forall fun op => op.writes ⊆ (hostOps5_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of `hostOps6` write. -/
abbrev hostOps6_W : List (Ref sig .tc) := [main_cst_17, main_v91, main_cst_18, main_v92, main_v93, main_v94, main_cst_19, main_v95, main_v96, main_v97, main_v98, main_v99]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelValue

end
-- ==== Proof.KernelCarry.lean ====
/-
  Which buffers each stretch of host operations and each kernel region leaves alone.

  A stretch of host operations writes the result buffers of its operations and nothing else; a kernel region writes the
  arrays of its output windows and nothing else. So a buffer that is none of these holds after the item what it held
  before it. The lemmas below say so item by item, for any buffer, with the condition in a form that is decided by
  evaluation; used as rewriting rules they walk a value computed early in the program (the edge structure, an argument
  array) back from the item that reads it to the item that made it.
-/
import proofs.«426131_j12824772345978_2_alg».proof.Proof.Gen.KernelIdeal.Frame
import proofs.«426131_j12824772345978_2_alg».proof.Proof.KernelWrites

set_option maxRecDepth 16384

noncomputable section

namespace Cert.KernelValue

open Idealize.ShloMosaic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg) (c : Dev nD)

/-! ## One item at a time (the buffer is left un-indexed so that the lemmas fire as rewriting rules) -/

theorem W1_of (r : Ref sig .tc) (h : r ∉ hostOps0_W) : W1 m ρ c (no_index (Proc.devRef .tc r)) = W0 m ρ c (Proc.devRef .tc r) :=
  StableHlo.after_of_writes_sub hostOps0 _ hostOps0_writes h
theorem W2_of (r : Ref sig .tc) (h : ∀ w, Pipeline.arrRef spec0 w ≠ r) : W2 m ρ c (no_index (Proc.devRef .tc r)) = W1 m ρ c (Proc.devRef .tc r) :=
  W2_of_ne m ρ c r h
theorem W3_of (r : Ref sig .tc) (h : r ∉ hostOps1_W) : W3 m ρ c (no_index (Proc.devRef .tc r)) = W2 m ρ c (Proc.devRef .tc r) :=
  StableHlo.after_of_writes_sub hostOps1 _ hostOps1_writes h
theorem W4_of (r : Ref sig .tc) (h : ∀ w, Pipeline.arrRef spec1 w ≠ r) : W4 m ρ c (no_index (Proc.devRef .tc r)) = W3 m ρ c (Proc.devRef .tc r) :=
  W4_of_ne m ρ c r h
theorem W5_of (r : Ref sig .tc) (h : r ∉ hostOps2_W) : W5 m ρ c (no_index (Proc.devRef .tc r)) = W4 m ρ c (Proc.devRef .tc r) :=
  StableHlo.after_of_writes_sub hostOps2 _ hostOps2_writes h
theorem W6_of (r : Ref sig .tc) (h : ∀ w, Pipeline.arrRef spec2 w ≠ r) : W6 m ρ c (no_index (Proc.devRef .tc r)) = W5 m ρ c (Proc.devRef .tc r) :=
  W6_of_ne m ρ c r h
theorem W7_of (r : Ref sig .tc) (h : r ∉ hostOps3_W) : W7 m ρ c (no_index (Proc.devRef .tc r)) = W6 m ρ c (Proc.devRef .tc r) :=
  StableHlo.after_of_writes_sub hostOps3 _ hostOps3_writes h
theorem W8_of (r : Ref sig .tc) (h : r ∉ hostOps3_1_W) : W8 m ρ c (no_index (Proc.devRef .tc r)) = W7 m ρ c (Proc.devRef .tc r) :=
  StableHlo.after_of_writes_sub hostOps3_1 _ hostOps3_1_writes h
theorem W9_of (r : Ref sig .tc) (h : ∀ w, Pipeline.arrRef spec3 w ≠ r) : W9 m ρ c (no_index (Proc.devRef .tc r)) = W8 m ρ c (Proc.devRef .tc r) :=
  W9_of_ne m ρ c r h
theorem W10_of (r : Ref sig .tc) (h : r ∉ hostOps4_W) : W10 m ρ c (no_index (Proc.devRef .tc r)) = W9 m ρ c (Proc.devRef .tc r) :=
  StableHlo.after_of_writes_sub hostOps4 _ hostOps4_writes h
theorem W11_of (r : Ref sig .tc) (h : ∀ w, Pipeline.arrRef spec4 w ≠ r) : W11 m ρ c (no_index (Proc.devRef .tc r)) = W10 m ρ c (Proc.devRef .tc r) :=
  W11_of_ne m ρ c r h
theorem W12_of (r : Ref sig .tc) (h : r ∉ hostOps5_W) : W12 m ρ c (no_index (Proc.devRef .tc r)) = W11 m ρ c (Proc.devRef .tc r) :=
  StableHlo.after_of_writes_sub hostOps5 _ hostOps5_writes h
theorem W13_of (r : Ref sig .tc) (h : r ∉ hostOps5_1_W) : W13 m ρ c (no_index (Proc.devRef .tc r)) = W12 m ρ c (Proc.devRef .tc r) :=
  StableHlo.after_of_writes_sub hostOps5_1 _ hostOps5_1_writes h
theorem W14_of (r : Ref sig .tc) (h : ∀ w, Pipeline.arrRef spec5 w ≠ r) : W14 m ρ c (no_index (Proc.devRef .tc r)) = W13 m ρ c (Proc.devRef .tc r) :=
  W14_of_ne m ρ c r h

/-- Region 0 reads the first argument through an input window: the array is as it was. -/
theorem W2_arg0 : W2 m ρ c (no_index (Proc.devRef .tc main_arg0)) = W1 m ρ c (Proc.devRef .tc main_arg0) :=
  (W2_arr m ρ c 0).trans (((dat0 (V1 m ρ) c).arrAt_in 0 rfl _).trans (A_eq0 (V1 m ρ) c 0))

/-- Region 1 reads the column of squared inverse root degrees through an input window: the array is as it was. -/
theorem W4_d2 : W4 m ρ c (no_index (Proc.devRef .tc main_v27)) = W3 m ρ c (Proc.devRef .tc main_v27) :=
  (W4_arr m ρ c 2).trans (((dat1 (V3 m ρ) c).arrAt_in 2 rfl _).trans (A_eq1 (V3 m ρ) c 2))

/-- Walks every buffer of the goal back, item by item, to the last item that wrote it. -/
macro "walk_back" : tactic =>
  `(tactic| simp (disch := decide) only [W14_of, W13_of, W12_of, W11_of, W10_of, W9_of, W8_of, W7_of, W6_of, W5_of, W4_of, W3_of, W2_of, W1_of,
      W2_arg0, W4_d2])

end Cert.KernelValue

end
-- ==== Proof.Stages.lean ====
/-
  The reference's stages regrouped: the message passing of a convolution, the combination that ends it, and the table of
  root rows, each as ONE function of the arrays it reads, so that the same function can be recognised in the kernel's
  program. Each lemma says that a stage of the reference, read operation by operation, is that function of earlier stages;
  all of them hold by unfolding the definitions (the two convolutions recompute the degrees and the edge weights, and the
  recomputed terms are the same).
-/
import proofs.«426131_j12824772345978_2_alg».proof.Proof.RefRead

set_option maxRecDepth 16384

noncomputable section

namespace Cert.RefValue

open Idealize.ShloMosaic Cert.ReferenceIdeal Cert.ReferenceIdeal.Gen Cert.ReferenceIdeal.ReadP

variable {F : FTy → Type} [FloatOps F]

/-- The message passing of a convolution: the rows of `h` taken at the source ids (a negative id wrapped by the number of
    nodes), each scaled by its edge's weight `nu`, and summed into the rows named by the destination ids. -/
def aggOf (h : FVec F S100000x64 .f32) (src dst : IVec S3200000 32) (nu : FVec F S3200000 .f32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (mulf (Host.gather gather_S100000x64_S3200000x1_S3200000x64_1_0_n_n_0_1_164 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x64 ![0, 1] bcast_S3200000x1_S3200000x64_0_1
        (broadcastInDim S3200000x1 ![0] bcast_S3200000_S3200000x1_0 nu)))

/-- The combination that ends a convolution, as the reference writes it: (aggregate + features * d along the columns)
    + bias along the rows. -/
def finOf (agg h : FVec F S100000x64 .f32) (d : FVec F S100000 .f32) (b : FVec F S64 .f32) : FVec F S100000x64 .f32 :=
  addf (addf agg (mulf h (broadcastInDim S100000x64 ![0, 1] bcast_S100000x1_S100000x64_0_1
      (broadcastInDim S100000x1 ![0] bcast_S100000_S100000x1_0 d))))
    (broadcastInDim S100000x64 ![0, 1] bcast_S1x64_S100000x64_0_1 (broadcastInDim S1x64 ![1] bcast_S64_S1x64_1 b))

/-- The table of the root rows of the first layer's output: its rows taken at the (wrapped) root ids. -/
def tab2Of (h : FVec F S100000x64 .f32) (x2 : IVec S100000 32) : FVec F S128x64 .f32 :=
  Host.gather gather_S100000x64_S128x1_S128x64_1_0_n_n_0_1_164 h (val_main_v120 (F := F) x2)

variable (x0 : FVec F S100000x128 .f32) (x1 : IVec S2x3200000 32) (x2 : IVec S100000 32) (x3 : FVec F S128x64 .f32)
  (x4 : FVec F S64 .f32) (x5 : FVec F S192x64 .f32) (x6 : FVec F S64 .f32)

/-- The first convolution's aggregate is the message passing of the first product. -/
theorem v39_eq : val_main_v39 (F := F) x0 x1 x3
    = aggOf (val_main_v4 (F := F) x0 x3) (val_main_v1 (F := F) x1) (val_main_v3 (F := F) x1) (val_main_v26 (F := F) x1) := by
  unfold val_main_v39 val_main_v38 val_main_v37 val_main_cst_7 val_main_v36 val_main_v35 val_main_v34 val_main_v33 val_main_v32 val_main_v31 val_main_v30 val_main_v29 val_main_c_6 val_main_v28 val_main_v27 val_main_c_5 aggOf
  rfl

/-- The first convolution's output. -/
theorem v47_eq : val_main_v47 (F := F) x0 x1 x3 x4
    = finOf (val_main_v39 (F := F) x0 x1 x3) (val_main_v4 (F := F) x0 x3) (val_main_v40 (F := F) x1) x4 := by
  unfold val_main_v47 val_main_v46 val_main_v45 val_main_v44 val_main_v43 val_main_v42 val_main_v41 finOf
  rfl

/-- The table of root rows of the first convolution's output. -/
theorem v121_eq : val_main_v121 (F := F) x0 x1 x2 x3 x4 = tab2Of (val_main_v47 (F := F) x0 x1 x3 x4) x2 := by
  unfold val_main_v121 tab2Of
  rfl

/-- The edge weights the second convolution recomputes are the first's. -/
theorem v92_eq : val_main_v92 (F := F) x1 = val_main_v26 (F := F) x1 := by
  unfold val_main_v92 val_main_v91 val_main_v90 val_main_v89 val_main_v88 val_main_v87 val_main_c_20 val_main_v86 val_main_v85 val_main_c_19 val_main_v84 val_main_v83 val_main_v82 val_main_v81 val_main_v80 val_main_c_18 val_main_v79 val_main_v78 val_main_c_17 val_main_v77 val_main_v76 val_main_v75 val_main_cst_16 val_main_v74 val_main_v73 val_main_v72 val_main_cst_15 val_main_v71 val_main_cst_14
  unfold val_main_v26 val_main_v25 val_main_v24 val_main_v23 val_main_v22 val_main_v21 val_main_c_4 val_main_v20 val_main_v19 val_main_c_3 val_main_v18 val_main_v17 val_main_v16 val_main_v15 val_main_v14 val_main_c_2 val_main_v13 val_main_v12 val_main_c val_main_v11 val_main_v10 val_main_v9 val_main_cst_1 val_main_v8 val_main_v7 val_main_v6 val_main_cst_0 val_main_v5 val_main_cst
  rfl

/-- The squared inverse root degrees the second convolution recomputes are the first's. -/
theorem v106_eq : val_main_v106 (F := F) x1 = val_main_v40 (F := F) x1 := by
  unfold val_main_v106 val_main_v77 val_main_v76 val_main_v75 val_main_cst_16 val_main_v74 val_main_v73 val_main_v72 val_main_cst_15 val_main_v71 val_main_cst_14
  unfold val_main_v40 val_main_v11 val_main_v10 val_main_v9 val_main_cst_1 val_main_v8 val_main_v7 val_main_v6 val_main_cst_0 val_main_v5 val_main_cst
  rfl

/-- The second convolution's aggregate is the message passing of the second product. -/
theorem v105_eq : val_main_v105 (F := F) x0 x1 x2 x3 x4 x5
    = aggOf (val_main_v70 (F := F) x0 x1 x2 x3 x4 x5) (val_main_v1 (F := F) x1) (val_main_v3 (F := F) x1) (val_main_v26 (F := F) x1) := by
  rw [← v92_eq]
  unfold val_main_v105 val_main_v104 val_main_v103 val_main_cst_23 val_main_v102 val_main_v101 val_main_v100 val_main_v99 val_main_v98 val_main_v97 val_main_v96 val_main_v95 val_main_c_22 val_main_v94 val_main_v93 val_main_c_21 aggOf
  rfl

/-- The second convolution's output. -/
theorem v113_eq : val_main_v113 (F := F) x0 x1 x2 x3 x4 x5 x6
    = finOf (val_main_v105 (F := F) x0 x1 x2 x3 x4 x5) (val_main_v70 (F := F) x0 x1 x2 x3 x4 x5) (val_main_v40 (F := F) x1) x6 := by
  rw [← v106_eq]
  unfold val_main_v113 val_main_v112 val_main_v111 val_main_v110 val_main_v109 val_main_v108 val_main_v107 finOf
  rfl

end Cert.RefValue

end
-- ==== Proof.KernelStretch.lean ====
/-
  The host operations of the kernel's program, stretch by stretch, as functions of the buffers a stretch finds.

  Between two kernel regions the program applies a straight line of host operations. Each lemma below reads ONE buffer
  after ONE stretch, from arbitrary contents `W` before it, as the reference's corresponding stage applied to what `W`
  holds in the buffers the stretch reads: the two programs spell these operations the same way, so each lemma holds by
  running the stretch and unfolding the reference's stage.
-/
import proofs.«426131_j12824772345978_2_alg».proof.Proof.Gen.KernelIdeal.Launch
import proofs.«426131_j12824772345978_2_alg».proof.Proof.Stages
import Idealize.ShloMosaic.Lib.StableHlo.Run

set_option maxRecDepth 16384

noncomputable section

namespace Cert.KernelValue

open Idealize.ShloMosaic Idealize.ShloMosaic.TcCoe Idealize.SL.Sem Idealize.ShloMosaic.StableHlo Cert.KernelIdeal Cert.KernelIdeal.Gen
open Cert.RefValue (aggOf finOf tab2Of)

variable {F : FTy → Type} [FloatOps F]
variable (W : Valuation τ sig (Elt F))

/-! ## Before region 0: the edge structure -/

set_option maxHeartbeats 2000000 in
/-- The source ids. -/
theorem s0_src : after hostOps0 W (Proc.devRef .tc main_v1) = Cert.ReferenceIdeal.ReadP.val_main_v1 (F := F) (W (Proc.devRef .tc main_arg1)) := by
  after_results_simp
  unfold Cert.ReferenceIdeal.ReadP.val_main_v1 Cert.ReferenceIdeal.ReadP.val_main_v0
  rfl

set_option maxHeartbeats 2000000 in
/-- The destination ids. -/
theorem s0_dst : after hostOps0 W (Proc.devRef .tc main_v3) = Cert.ReferenceIdeal.ReadP.val_main_v3 (F := F) (W (Proc.devRef .tc main_arg1)) := by
  after_results_simp
  unfold Cert.ReferenceIdeal.ReadP.val_main_v3 Cert.ReferenceIdeal.ReadP.val_main_v2
  rfl

set_option maxHeartbeats 2000000 in
/-- The edge weights: the product of the inverse root degrees of an edge's two ends. -/
theorem s0_nu : after hostOps0 W (Proc.devRef .tc main_v25) = Cert.ReferenceIdeal.ReadP.val_main_v26 (F := F) (W (Proc.devRef .tc main_arg1)) := by
  after_results_simp
  unfold Cert.ReferenceIdeal.ReadP.val_main_v26 Cert.ReferenceIdeal.ReadP.val_main_v25 Cert.ReferenceIdeal.ReadP.val_main_v24 Cert.ReferenceIdeal.ReadP.val_main_v23 Cert.ReferenceIdeal.ReadP.val_main_v22 Cert.ReferenceIdeal.ReadP.val_main_v21 Cert.ReferenceIdeal.ReadP.val_main_c_4 Cert.ReferenceIdeal.ReadP.val_main_v20 Cert.ReferenceIdeal.ReadP.val_main_v19 Cert.ReferenceIdeal.ReadP.val_main_c_3 Cert.ReferenceIdeal.ReadP.val_main_v18 Cert.ReferenceIdeal.ReadP.val_main_v17 Cert.ReferenceIdeal.ReadP.val_main_v16 Cert.ReferenceIdeal.ReadP.val_main_v15 Cert.ReferenceIdeal.ReadP.val_main_v14 Cert.ReferenceIdeal.ReadP.val_main_c_2 Cert.ReferenceIdeal.ReadP.val_main_v13 Cert.ReferenceIdeal.ReadP.val_main_v12 Cert.ReferenceIdeal.ReadP.val_main_c Cert.ReferenceIdeal.ReadP.val_main_v11 Cert.ReferenceIdeal.ReadP.val_main_v10 Cert.ReferenceIdeal.ReadP.val_main_v9 Cert.ReferenceIdeal.ReadP.val_main_cst_1 Cert.ReferenceIdeal.ReadP.val_main_v8 Cert.ReferenceIdeal.ReadP.val_main_v7 Cert.ReferenceIdeal.ReadP.val_main_v6 Cert.ReferenceIdeal.ReadP.val_main_cst_0 Cert.ReferenceIdeal.ReadP.val_main_v5 Cert.ReferenceIdeal.ReadP.val_main_cst Cert.ReferenceIdeal.ReadP.val_main_v3 Cert.ReferenceIdeal.ReadP.val_main_v2 Cert.ReferenceIdeal.ReadP.val_main_v1 Cert.ReferenceIdeal.ReadP.val_main_v0
  rfl

set_option maxHeartbeats 2000000 in
/-- The squared inverse root degrees, as a column. -/
theorem s0_d2 : after hostOps0 W (Proc.devRef .tc main_v27)
    = shapeCast S100000x1 (Cert.ReferenceIdeal.ReadP.val_main_v40 (F := F) (W (Proc.devRef .tc main_arg1))) shapeCasts_S100000_S100000x1 := by
  after_results_simp
  unfold Cert.ReferenceIdeal.ReadP.val_main_v40 Cert.ReferenceIdeal.ReadP.val_main_v11 Cert.ReferenceIdeal.ReadP.val_main_v10 Cert.ReferenceIdeal.ReadP.val_main_v9 Cert.ReferenceIdeal.ReadP.val_main_cst_1 Cert.ReferenceIdeal.ReadP.val_main_v8 Cert.ReferenceIdeal.ReadP.val_main_v7 Cert.ReferenceIdeal.ReadP.val_main_v6 Cert.ReferenceIdeal.ReadP.val_main_cst_0 Cert.ReferenceIdeal.ReadP.val_main_v5 Cert.ReferenceIdeal.ReadP.val_main_cst Cert.ReferenceIdeal.ReadP.val_main_v3 Cert.ReferenceIdeal.ReadP.val_main_v2
  rfl

/-! ## Between regions 0 and 1: the first message passing -/

set_option maxHeartbeats 2000000 in
theorem s1_agg : after hostOps1 W (Proc.devRef .tc main_v41)
    = aggOf (F := F) (W (Proc.devRef .tc main_v28)) (W (Proc.devRef .tc main_v1)) (W (Proc.devRef .tc main_v3)) (W (Proc.devRef .tc main_v25)) := by
  after_results_simp
  unfold aggOf
  rfl

set_option maxHeartbeats 2000000 in
theorem s1_bias : after hostOps1 W (Proc.devRef .tc main_v42) = shapeCast S1x64 (W (Proc.devRef .tc main_arg4)) shapeCasts_S64_S1x64 := by
  after_results_simp
  rfl

/-! ## Between regions 1 and 2: the table of root rows -/

set_option maxHeartbeats 8000000 in
theorem s2_table : after hostOps2 W (Proc.devRef .tc main_v64)
    = concatenate S128x192 1 [⟨S128x128, Cert.ReferenceIdeal.ReadP.val_main_v60 (F := F) (W (Proc.devRef .tc main_arg0)) (W (Proc.devRef .tc main_arg2))⟩,
        ⟨S128x64, tab2Of (F := F) (W (Proc.devRef .tc main_v43)) (W (Proc.devRef .tc main_arg2))⟩] concatenates_S128x128_S128x64_S128x192_d1 := by
  after_results
  unfold tab2Of Cert.ReferenceIdeal.ReadP.val_main_v120 Cert.ReferenceIdeal.ReadP.val_main_v119 Cert.ReferenceIdeal.ReadP.val_main_v118 Cert.ReferenceIdeal.ReadP.val_main_v117 Cert.ReferenceIdeal.ReadP.val_main_c_25 Cert.ReferenceIdeal.ReadP.val_main_v116 Cert.ReferenceIdeal.ReadP.val_main_v115 Cert.ReferenceIdeal.ReadP.val_main_c_24 Cert.ReferenceIdeal.ReadP.val_main_v60 Cert.ReferenceIdeal.ReadP.val_main_v59 Cert.ReferenceIdeal.ReadP.val_main_v58 Cert.ReferenceIdeal.ReadP.val_main_v57 Cert.ReferenceIdeal.ReadP.val_main_v56 Cert.ReferenceIdeal.ReadP.val_main_c_11 Cert.ReferenceIdeal.ReadP.val_main_v55 Cert.ReferenceIdeal.ReadP.val_main_v54 Cert.ReferenceIdeal.ReadP.val_main_c_10 Cert.ReferenceIdeal.ReadP.val_main_v53 Cert.ReferenceIdeal.ReadP.val_main_v52 Cert.ReferenceIdeal.ReadP.val_main_c_9 Cert.ReferenceIdeal.ReadP.val_main_v51 Cert.ReferenceIdeal.ReadP.val_main_v50 Cert.ReferenceIdeal.ReadP.val_main_v49 Cert.ReferenceIdeal.ReadP.val_main_c_8 Cert.ReferenceIdeal.ReadP.val_main_v48
  rfl

set_option maxHeartbeats 2000000 in
theorem s2_label : after hostOps2 W (Proc.devRef .tc main_v65) = shapeCast S100000x1 (W (Proc.devRef .tc main_arg2)) shapeCasts_S100000_S100000x1 := by
  after_results_simp
  rfl

/-! ## Between regions 2 and 3: the two halves of the selected rows, the concatenation and the rectifier -/

theorem s3_root1 : after hostOps3 W (Proc.devRef .tc main_v67)
    = extractStridedSlice S100000x128 ![0, 0] (W (Proc.devRef .tc main_v66)) slices_S100000x192_S100000x128_0_0 := by
  after_results

theorem s3_root2 : after hostOps3 W (Proc.devRef .tc main_v68)
    = extractStridedSlice S100000x64 ![0, 128] (W (Proc.devRef .tc main_v66)) slices_S100000x192_S100000x64_0_128 := by
  after_results

theorem s3_cat : after hostOps3 W (Proc.devRef .tc main_v69)
    = concatenate S100000x192 1 [⟨S100000x64, W (Proc.devRef .tc main_v43)⟩,
        ⟨S100000x128, extractStridedSlice S100000x128 ![0, 0] (W (Proc.devRef .tc main_v66)) slices_S100000x192_S100000x128_0_0⟩]
        concatenates_S100000x64_S100000x128_S100000x192_d1 := by
  after_results

theorem s31_relu : after hostOps3_1 W (Proc.devRef .tc main_v70)
    = maximumf (W (Proc.devRef .tc main_v69)) (Cert.ReferenceIdeal.ReadP.val_main_call0_v0 (F := F)) := by
  after_results
  unfold Cert.ReferenceIdeal.ReadP.val_main_call0_v0 Cert.ReferenceIdeal.ReadP.val_main_call0_cst
  rfl

/-! ## Between regions 3 and 4: the second message passing -/

set_option maxHeartbeats 2000000 in
theorem s4_agg : after hostOps4 W (Proc.devRef .tc main_v84)
    = aggOf (F := F) (W (Proc.devRef .tc main_v71)) (W (Proc.devRef .tc main_v1)) (W (Proc.devRef .tc main_v3)) (W (Proc.devRef .tc main_v25)) := by
  after_results_simp
  unfold aggOf
  rfl

set_option maxHeartbeats 2000000 in
theorem s4_bias : after hostOps4 W (Proc.devRef .tc main_v85) = shapeCast S1x64 (W (Proc.devRef .tc main_arg6)) shapeCasts_S64_S1x64 := by
  after_results_simp
  rfl

/-! ## Between regions 4 and 5: the rectifier and the concatenation with the root rows -/

theorem s5_relu : after hostOps5 W (Proc.devRef .tc main_v87)
    = maximumf (W (Proc.devRef .tc main_v86)) (Cert.ReferenceIdeal.ReadP.val_main_call1_v0 (F := F)) := by
  after_results
  unfold Cert.ReferenceIdeal.ReadP.val_main_call1_v0 Cert.ReferenceIdeal.ReadP.val_main_call1_cst
  rfl

theorem s51_cat : after hostOps5_1 W (Proc.devRef .tc main_v88)
    = concatenate S100000x128 1 [⟨S100000x64, W (Proc.devRef .tc main_v87)⟩, ⟨S100000x64, W (Proc.devRef .tc main_v68)⟩]
        concatenates_S100000x64_S100000x64_S100000x128_d1 := by
  after_results

theorem s51_label : after hostOps5_1 W (Proc.devRef .tc main_v89) = shapeCast S100000x1 (W (Proc.devRef .tc main_arg2)) shapeCasts_S100000_S100000x1 := by
  after_results
  rfl

/-! ## After region 5: the division by the graph sizes -/

set_option maxHeartbeats 2000000 in
theorem s6_result : after hostOps6 W (Proc.devRef .tc main_v99)
    = Host.divf (W (Proc.devRef .tc main_v90)) (Cert.ReferenceIdeal.ReadP.val_main_v140 (F := F) (W (Proc.devRef .tc main_arg2))) := by
  after_results_simp
  unfold Cert.ReferenceIdeal.ReadP.val_main_v140 Cert.ReferenceIdeal.ReadP.val_main_v139 Cert.ReferenceIdeal.ReadP.val_main_v138 Cert.ReferenceIdeal.ReadP.val_main_v137 Cert.ReferenceIdeal.ReadP.val_main_cst_31 Cert.ReferenceIdeal.ReadP.val_main_v136 Cert.ReferenceIdeal.ReadP.val_main_v135 Cert.ReferenceIdeal.ReadP.val_main_v134 Cert.ReferenceIdeal.ReadP.val_main_cst_30 Cert.ReferenceIdeal.ReadP.val_main_v133 Cert.ReferenceIdeal.ReadP.val_main_cst_29
  rfl

end Cert.KernelValue

end
-- ==== Proof.Spec.lean ====
/-
  The value of the two-layer graph convolution with root features, as plain formulas over the extended reals.

  Four whole-array functions are named here, each read at an index through its row and column:
  a matrix product (entry (n, f) is the sum over k of a (n, k) * b (k, f)); the combination that ends a convolution
  (aggregate + features * squared inverse root degree + bias, the last two broadcast along the other axis); the
  selection of a table row by a one-hot row (entry (n, f) is the sum over g of [label n = g] * table (g, f)); and the
  per-label sum of rows (entry (g, f) is the sum over n of [label n = g] * h (n, f)).
-/
import Idealize.ShloMosaic.PureOps.Ideal
import Idealize.ShloMosaic.Lib.ValueIdx

noncomputable section

namespace Cert.Gcn

open Idealize.ShloMosaic Idealize.ShloMosaic.ValueIdx
open scoped BigOperators

/-- A float matrix at the ideal values. -/
abbrev Mat (r c : Nat) := FVec Ideal (⟨2, ![r, c]⟩ : Shape) .f32
/-- A matrix of 32-bit words. -/
abbrev IMat (r c : Nat) := IVec (⟨2, ![r, c]⟩ : Shape) 32

/-- The row of a rank-2 index. -/
def row {r c : Nat} (i : (⟨2, ![r, c]⟩ : Shape).Idx) : Fin r := ⟨(i 0).val, (i 0).isLt⟩
/-- The column of a rank-2 index. -/
def col {r c : Nat} (i : (⟨2, ![r, c]⟩ : Shape).Idx) : Fin c := ⟨(i 1).val, (i 1).isLt⟩

@[simp] theorem row_ix2 {r c : Nat} (p : Fin r) (q : Fin c) : row (ix2 p q : (⟨2, ![r, c]⟩ : Shape).Idx) = p := rfl
@[simp] theorem col_ix2 {r c : Nat} (p : Fin r) (q : Fin c) : col (ix2 p q : (⟨2, ![r, c]⟩ : Shape).Idx) = q := rfl

/-- The matrix product: entry (n, f) is the sum over k of a (n, k) * b (k, f). -/
def matmul {M K N : Nat} (a : Mat M K) (b : Mat K N) : Mat M N :=
  fun i => ∑ k : Fin K, a (ix2 (row i) k) * b (ix2 k (col i))

/-- The end of a convolution: aggregate + features * d (broadcast along the columns) + bias (broadcast along the rows). -/
def finalize {M N : Nat} (agg h : Mat M N) (d : Mat M 1) (bias : Mat 1 N) : Mat M N :=
  fun i => agg i + h i * d (ix2 (row i) 0) + bias (ix2 0 (col i))

/-- Row selection by a one-hot row: entry (n, f) is the sum over g of [label n = g] * table (g, f). -/
def pick {M G N : Nat} (label : IMat M 1) (table : Mat G N) : Mat M N :=
  fun i => ∑ g : Fin G, (if label (ix2 (row i) 0) = BitVec.ofNat 32 g.val then (1 : EReal) else 0) * table (ix2 g (col i))

/-- The per-label sum of rows: entry (g, f) is the sum over n of [label n = g] * h (n, f). -/
def segsum {M G N : Nat} (label : IMat M 1) (h : Mat M N) : Mat G N :=
  fun i => ∑ n : Fin M, (if label (ix2 n 0) = BitVec.ofNat 32 (row i).val then (1 : EReal) else 0) * h (ix2 n (col i))

theorem matmul_apply {M K N : Nat} (a : Mat M K) (b : Mat K N) (n : Fin M) (f : Fin N) :
    matmul a b (ix2 n f) = ∑ k : Fin K, a (ix2 n k) * b (ix2 k f) := rfl

theorem finalize_apply {M N : Nat} (agg h : Mat M N) (d : Mat M 1) (bias : Mat 1 N) (n : Fin M) (f : Fin N) :
    finalize agg h d bias (ix2 n f) = agg (ix2 n f) + h (ix2 n f) * d (ix2 n 0) + bias (ix2 0 f) := rfl

theorem pick_apply {M G N : Nat} (label : IMat M 1) (table : Mat G N) (n : Fin M) (f : Fin N) :
    pick label table (ix2 n f)
      = ∑ g : Fin G, (if label (ix2 n 0) = BitVec.ofNat 32 g.val then (1 : EReal) else 0) * table (ix2 g f) := rfl

theorem segsum_apply {M G N : Nat} (label : IMat M 1) (h : Mat M N) (g : Fin G) (f : Fin N) :
    segsum label h (ix2 g f)
      = ∑ n : Fin M, (if label (ix2 n 0) = BitVec.ofNat 32 g.val then (1 : EReal) else 0) * h (ix2 n f) := rfl

end Cert.Gcn

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.RegionMatmul.lean ====
/-
  The two matrix products of the graph convolution, block by block and then as whole arrays.

  Each product multiplies a [100000, K] array (K = 128 for the first, K = 192 for the second) by a [K, 64] array. The rows
  are cut into twenty blocks of 5000; grid point t takes rows 5000 t … 5000 t + 4999 of the left operand and the whole right
  operand, and writes rows 5000 t … 5000 t + 4999 of the result. On the extended reals the roundings to the narrow float
  type are the identity and the accumulator starts at zero, so entry (p, q) of a block is the plain sum over k of
  left (5000 t + p, k) * right (k, q): block t of the whole product. Row r lies in the block of point r / 5000, so the
  twenty blocks fill the result, which is therefore the product of the two arrays.
-/
import proofs.«426131_j12824772345978_2_alg».proof.Proof.Gen.KernelIdeal.Frame
import proofs.«426131_j12824772345978_2_alg».proof.Proof.Spec
import proofs.«426131_j12824772345978_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

namespace Matmul

/-- The offset vector (0, 0) is the constantly zero function. -/
theorem hz : (![0, 0] : Fin 2 → Nat) = fun _ => 0 := funext fun a => by fin_cases a <;> rfl

/-! ## Region 0: a [100000, 128] array times a [128, 64] array, twenty row blocks of 5000 -/

/-- The region's contraction record is the plain one: contract the left operand's axis 1 with the right operand's axis 0. -/
theorem dot0_eq : dot_S5000x128_S128x64_S5000x64_1_0_0_1_n_n = DotDims.plain 5000 128 64 := rfl

/-- Entry (p, q) of one block's product: the sum over k of the row block's (p, k) times the right operand's (k, q); the
    roundings to the narrow float type are the identity on the extended reals and the accumulator starts at zero. -/
theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  rw [dot0_eq]
  refine (Cert.PlainMatmul.apply none _ _ p q).trans ?_
  simp only [truncf_apply, shapeCast_self]

/-- One block of the product. If the left block holds rows 5000 n … 5000 n + 4999 of `a` and the right block is `b`,
    the block's entry at `j` is the whole product's entry at row 5000 n + j 0 and column j 1. -/
theorem block0_apply (a : Gcn.Mat 100000 128) (b : Gcn.Mat 128 64) (x0 : Vec Ideal S5000x128 .f32) (x1 : Vec Ideal S128x64 .f32)
    (n : Nat)
    (h0 : ∀ (p : Fin 5000) (k : Fin 128) (i : S100000x128.Idx), (i 0).val = n * 5000 + p.val → (i 1).val = k.val →
      x0 (ix2 p k) = a i)
    (h1 : ∀ (k : Fin 128) (q : Fin 64), x1 (ix2 k q) = b (ix2 k q))
    (j : S5000x64.Idx) (i : S100000x64.Idx) (hi0 : (i 0).val = n * 5000 + (j 0).val) (hi1 : (i 1).val = (j 1).val) :
    k0_pay1 (F := Ideal) x0 x1 j = Gcn.matmul a b i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  rw [pay0_apply, Gcn.matmul_apply]
  refine Finset.sum_congr rfl fun k _ => ?_
  rw [h0 p k (ix2 r k) hi0 rfl, h1]

/-- The windows' index maps over the twenty grid points: the two row-block windows sit at block row t and block column 0;
    the right operand's window is its whole array at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0_eq (c : Dev nD) (t : Fin cfg0.N) :
    (dat0 (F := Ideal) V c).flushed 2 t = ((cfg0.win 2).blk t).view.read (Elt Ideal)
      (Gcn.matmul (M := 100000) (K := 128) (N := 64) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e00, e01, e10, e11, e20, e21⟩ := idx0 t
  funext j
  refine block0_apply (V c main_arg0) (V c main_arg3) _ _ t.val ?_ ?_ j _ ?_ ?_
  · intro p k i hi0 hi1
    show V c main_arg0 (((cfg0.win 0).blk t).view.emb (ix2 p k)) = V c main_arg0 i
    congr 1; funext a; apply Fin.ext
    match a with
    | ⟨0, _⟩ => show win0_0.index t (0 : Fin 2) * 5000 + 1 * p.val = (i 0).val; omega
    | ⟨1, _⟩ => show win0_0.index t (1 : Fin 2) * 128 + 1 * k.val = (i 1).val; omega
  · intro k q
    show V c main_arg3 (((cfg0.win 1).blk t).view.emb (ix2 k q)) = V c main_arg3 (ix2 k q)
    congr 1; funext a; apply Fin.ext
    match a with
    | ⟨0, _⟩ => show win0_1.index t (0 : Fin 2) * 128 + 1 * k.val = k.val; omega
    | ⟨1, _⟩ => show win0_1.index t (1 : Fin 2) * 64 + 1 * q.val = q.val; omega
  · show win0_2.index t (0 : Fin 2) * 5000 + 1 * (j 0).val = t.val * 5000 + (j 0).val; omega
  · show win0_2.index t (1 : Fin 2) * 64 + 1 * (j 1).val = (j 1).val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v28).slice (win0_2.rect t)).set ↔ _
  rw [View.set_slice_whole, Rect.mem_set_unit]
  exact Iff.rfl

/-- Every index of the output array is in some point's block: row r is in the block of point r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have ht : (i 0).val / 5000 < cfg0.N := by show _ < grid0.N; omega
  obtain ⟨-, -, -, -, e20, e21⟩ := idx0 ⟨(i 0).val / 5000, ht⟩
  have e20' : win0_2.index ⟨(i 0).val / 5000, ht⟩ (0 : Fin 2) = (i 0).val / 5000 := e20
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    omega

/-! ## Region 3: a [100000, 192] array times a [192, 64] array, twenty row blocks of 5000 -/

/-- The region's contraction record is the plain one: contract the left operand's axis 1 with the right operand's axis 0. -/
theorem dot3_eq : dot_S5000x192_S192x64_S5000x64_1_0_0_1_n_n = DotDims.plain 5000 192 64 := rfl

/-- Entry (p, q) of one block's product: the sum over k of the row block's (p, k) times the right operand's (k, q); the
    roundings to the narrow float type are the identity on the extended reals and the accumulator starts at zero. -/
theorem pay3_apply (x0 : Vec Ideal S5000x192 .f32) (x1 : Vec Ideal S192x64 .f32) (p : Fin 5000) (q : Fin 64) :
    k3_pay1 (F := Ideal) x0 x1 (ix2 p q) = ∑ k : Fin 192, x0 (ix2 p k) * x1 (ix2 k q) := by
  unfold k3_pay1
  rw [dot3_eq]
  refine (Cert.PlainMatmul.apply none _ _ p q).trans ?_
  simp only [truncf_apply, shapeCast_self]

/-- One block of the product. If the left block holds rows 5000 n … 5000 n + 4999 of `a` and the right block is `b`,
    the block's entry at `j` is the whole product's entry at row 5000 n + j 0 and column j 1. -/
theorem block3_apply (a : Gcn.Mat 100000 192) (b : Gcn.Mat 192 64) (x0 : Vec Ideal S5000x192 .f32) (x1 : Vec Ideal S192x64 .f32)
    (n : Nat)
    (h0 : ∀ (p : Fin 5000) (k : Fin 192) (i : S100000x192.Idx), (i 0).val = n * 5000 + p.val → (i 1).val = k.val →
      x0 (ix2 p k) = a i)
    (h1 : ∀ (k : Fin 192) (q : Fin 64), x1 (ix2 k q) = b (ix2 k q))
    (j : S5000x64.Idx) (i : S100000x64.Idx) (hi0 : (i 0).val = n * 5000 + (j 0).val) (hi1 : (i 1).val = (j 1).val) :
    k3_pay1 (F := Ideal) x0 x1 j = Gcn.matmul a b i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  rw [pay3_apply, Gcn.matmul_apply]
  refine Finset.sum_congr rfl fun k _ => ?_
  rw [h0 p k (ix2 r k) hi0 rfl, h1]

/-- The windows' index maps over the twenty grid points: the two row-block windows sit at block row t and block column 0;
    the right operand's window is its whole array at every point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the two arrays as the region finds them. -/
theorem flushed3_eq (c : Dev nD) (t : Fin cfg3.N) :
    (dat3 (F := Ideal) V c).flushed 2 t = ((cfg3.win 2).blk t).view.read (Elt Ideal)
      (Gcn.matmul (M := 100000) (K := 192) (N := 64) (V c main_v70) (V c main_arg5)) := by
  show (cfg3.win 2).cut (grid3.coords t) ((dat3 V c).after 2 t) = _
  rw [after3_2]
  unfold out3_2
  rw [View.canon_unit_zero hz]
  simp only [View.ld_unit_zero (S := S5000x192) hz, View.ld_unit_zero (S := S192x64) hz]
  obtain ⟨e00, e01, e10, e11, e20, e21⟩ := idx3 t
  funext j
  refine block3_apply (V c main_v70) (V c main_arg5) _ _ t.val ?_ ?_ j _ ?_ ?_
  · intro p k i hi0 hi1
    show V c main_v70 (((cfg3.win 0).blk t).view.emb (ix2 p k)) = V c main_v70 i
    congr 1; funext a; apply Fin.ext
    match a with
    | ⟨0, _⟩ => show win3_0.index t (0 : Fin 2) * 5000 + 1 * p.val = (i 0).val; omega
    | ⟨1, _⟩ => show win3_0.index t (1 : Fin 2) * 192 + 1 * k.val = (i 1).val; omega
  · intro k q
    show V c main_arg5 (((cfg3.win 1).blk t).view.emb (ix2 k q)) = V c main_arg5 (ix2 k q)
    congr 1; funext a; apply Fin.ext
    match a with
    | ⟨0, _⟩ => show win3_1.index t (0 : Fin 2) * 192 + 1 * k.val = k.val; omega
    | ⟨1, _⟩ => show win3_1.index t (1 : Fin 2) * 64 + 1 * q.val = q.val; omega
  · show win3_2.index t (0 : Fin 2) * 5000 + 1 * (j 0).val = t.val * 5000 + (j 0).val; omega
  · show win3_2.index t (1 : Fin 2) * 64 + 1 * (j 1).val = (j 1).val; omega

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v71).slice (win3_2.rect t)).set ↔ _
  rw [View.set_slice_whole, Rect.mem_set_unit]
  exact Iff.rfl

/-- Every index of the output array is in some point's block: row r is in the block of point r / 5000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  have ht : (i 0).val / 5000 < cfg3.N := by show _ < grid3.N; omega
  obtain ⟨-, -, -, -, e20, e21⟩ := idx3 ⟨(i 0).val / 5000, ht⟩
  have e20' : win3_2.index ⟨(i 0).val / 5000, ht⟩ (0 : Fin 2) = (i 0).val / 5000 := e20
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 64 ≤ (i 1).val
      ∧ (i 1).val < win3_2.index ⟨(i 0).val / 5000, ht⟩ (1 : Fin 2) * 64 + 64
    omega

end Matmul

/-! ## The two regions' output arrays -/

/-- Region 0 (the first matrix product): the output array after the region is the product of the two input arrays. -/
theorem region0 (c : Dev nD) :
    (dat0 (F := Ideal) V c).arrAt 2 cfg0.N = Gcn.matmul (M := 100000) (K := 128) (N := 64) (V c main_arg0) (V c main_arg3) :=
  (dat0 (F := Ideal) V c).arrAt_eq_of_cover 2 _ (fun t _ => Matmul.flushed0_eq V c t) Matmul.cover0

/-- Region 3 (the second matrix product): the output array after the region is the product of the two input arrays. -/
theorem region3 (c : Dev nD) :
    (dat3 (F := Ideal) V c).arrAt 2 cfg3.N = Gcn.matmul (M := 100000) (K := 192) (N := 64) (V c main_v70) (V c main_arg5) :=
  (dat3 (F := Ideal) V c).arrAt_eq_of_cover 2 _ (fun t _ => Matmul.flushed3_eq V c t) Matmul.cover3

end Cert.KernelValue

end
-- ==== Proof.RegionFinalize.lean ====
/-
  The two closing steps of the graph convolutions, read as whole arrays.

  Each of the two regions runs over twenty row tiles of 5000 rows. At tile t its body takes rows
  [5000 t, 5000 t + 5000) of the aggregate, of the features and of the one-column array of squared inverse root
  degrees, together with the whole one-row bias, and leaves aggregate + features * column + bias in the same rows
  of the output, the column repeated along the 64 columns and the bias row repeated along the rows. The twenty tiles
  are the 100000 rows, so the output array is the specification's combination of the four arrays the region finds.
-/
import proofs.«426131_j12824772345978_2_alg».proof.Proof.Gen.KernelIdeal.Frame
import proofs.«426131_j12824772345978_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

namespace Finalize

/-- The offsets of a whole-block access are zero on both axes. -/
theorem zero_offsets : (![0, 0] : Fin 2 → Nat) = fun _ => 0 := funext fun a => by fin_cases a <;> rfl

/-! ## The body's arithmetic at one entry of a tile -/

/-- A column of shape [a, 1] repeated along b columns reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's result at row p and column q of a tile: the casts to the same shape change nothing, the column is read
    at row p, the bias row at column q, and the product and the two sums are taken entry by entry. -/
theorem pay1_apply (x0 x1 : Vec Ideal S5000x64 .f32) (x2 : Vec Ideal S5000x1 .f32) (x3 : Vec Ideal S1x64 .f32)
    (p : Fin 5000) (q : Fin 64) :
    k1_pay1 x0 x1 x2 x3 (ix2 p q)
      = x0 (ix2 p q) + x1 (ix2 p q) * x2 (ix2 p (0 : Fin 1)) + x3 (ix2 (0 : Fin 1) q) := by
  unfold k1_pay1
  simp only [shapeCast_self]
  rw [addf_apply, addf_apply, mulf_apply, broadcastTo_a1_ab_apply, broadcastTo_1b_ab_apply]

/-- When the tile's entries are the entries of four whole arrays at row r, the body's result at (p, q) is the
    specification's combination of those arrays at (r, q). -/
theorem pay1_eq_finalize (x0 x1 : Vec Ideal S5000x64 .f32) (x2 : Vec Ideal S5000x1 .f32) (x3 : Vec Ideal S1x64 .f32)
    (agg h : Gcn.Mat 100000 64) (d : Gcn.Mat 100000 1) (bias : Gcn.Mat 1 64)
    (p : Fin 5000) (q : Fin 64) (r : Fin 100000)
    (h0 : x0 (ix2 p q) = agg (ix2 r q)) (h1 : x1 (ix2 p q) = h (ix2 r q))
    (h2 : x2 (ix2 p (0 : Fin 1)) = d (ix2 r (0 : Fin 1)))
    (h3 : x3 (ix2 (0 : Fin 1) q) = bias (ix2 (0 : Fin 1) q)) :
    k1_pay1 x0 x1 x2 x3 (ix2 p q) = Gcn.finalize agg h d bias (ix2 r q) := by
  rw [pay1_apply, Gcn.finalize_apply, h0, h1, h2, h3]

/-- The second convolution closes with the same arithmetic as the first. -/
theorem pay4_eq_pay1 : (k4_pay1 (F := Ideal)) = k1_pay1 := rfl

/-! ## The first convolution's closing region -/

/-- Where each tile sits, for every point of the grid: the three row-tiled inputs and the output at block (t, 0),
    the bias at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is tile t of the specification's combination of the arrays the region finds: entry (p, q)
    of every row tile is entry (5000 t + p, q) of its array, and the bias tile is the bias. -/
theorem flushed1_eq (c : Dev nD) (t : Fin cfg1.N) :
    (dat1 (F := Ideal) V c).flushed 4 t = ((cfg1.win 4).blk t).view.read (Elt Ideal)
      (Gcn.finalize (M := 100000) (N := 64) (V c main_v41) (V c main_v28) (V c main_v27) (V c main_v42)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S1x64) zero_offsets]
  funext j
  obtain ⟨p, q, rfl⟩ : ∃ (p : Fin 5000) (q : Fin 64), j = ix2 p q := ⟨j 0, j 1, eq_ix2 j⟩
  obtain ⟨e00, e01, e10, e11, e20, e21, e30, e31, e40, e41⟩ := index_facts1 t
  have ht : t.val < 20 := lt_of_lt_of_eq t.isLt N_1
  have hp : p.val < 5000 := p.isLt
  have hr : t.val * 5000 + p.val < 100000 := by omega
  have hemb : ((cfg1.win 4).blk t).view.emb (ix2 p q) = ix2 (⟨t.val * 5000 + p.val, hr⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  show k1_pay1 (iblk1 V c 0 t) (iblk1 V c 1 t) (iblk1 V c 2 t) (iblk1 V c 3 t) (ix2 p q)
    = Gcn.finalize (M := 100000) (N := 64) (V c main_v41) (V c main_v28) (V c main_v27) (V c main_v42)
        (((cfg1.win 4).blk t).view.emb (ix2 p q))
  rw [hemb]
  refine pay1_eq_finalize _ _ _ _ _ _ _ _ p q _ ?_ ?_ ?_ ?_
  · show V c main_v41 (((cfg1.win 0).blk t).view.emb (ix2 p q))
      = V c main_v41 (ix2 (⟨t.val * 5000 + p.val, hr⟩ : Fin 100000) q)
    refine congrArg (V c main_v41) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  · show V c main_v28 (((cfg1.win 1).blk t).view.emb (ix2 p q))
      = V c main_v28 (ix2 (⟨t.val * 5000 + p.val, hr⟩ : Fin 100000) q)
    refine congrArg (V c main_v28) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * q.val = q.val; omega
  · show V c main_v27 (((cfg1.win 2).blk t).view.emb (ix2 p (0 : Fin 1)))
      = V c main_v27 (ix2 (⟨t.val * 5000 + p.val, hr⟩ : Fin 100000) (0 : Fin 1))
    refine congrArg (V c main_v27) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · show V c main_v42 (((cfg1.win 3).blk t).view.emb (ix2 (0 : Fin 1) q)) = V c main_v42 (ix2 (0 : Fin 1) q)
    refine congrArg (V c main_v42) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- An entry of the output array lies in point t's tile exactly when each coordinate lies in the tile's range on
    its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v43).slice (win1_4.rect t)).set ↔ _
  rw [View.set_slice_whole, Rect.mem_set_unit]
  exact Iff.rfl

/-- Row r of the output lies in the tile of point r / 5000, and every point writes its tile back. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 5000 < grid1.N := by rw [N_1]; omega
  obtain ⟨-, -, -, -, -, -, -, -, e40, e41⟩ := index_facts1 ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    omega

/-! ## The second convolution's closing region -/

/-- Where each tile sits, for every point of the grid: the three row-tiled inputs and the output at block (t, 0),
    the bias at block (0, 0). -/
theorem index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t writes back is tile t of the specification's combination of the arrays the region finds: entry (p, q)
    of every row tile is entry (5000 t + p, q) of its array, and the bias tile is the bias. -/
theorem flushed4_eq (c : Dev nD) (t : Fin cfg4.N) :
    (dat4 (F := Ideal) V c).flushed 4 t = ((cfg4.win 4).blk t).view.read (Elt Ideal)
      (Gcn.finalize (M := 100000) (N := 64) (V c main_v84) (V c main_v71) (V c main_v27) (V c main_v85)) := by
  show (cfg4.win 4).cut (grid4.coords t) ((dat4 V c).after 4 t) = _
  rw [after4_4]
  unfold out4_4
  rw [View.canon_unit_zero zero_offsets]
  simp only [View.ld_unit_zero (S := S5000x64) zero_offsets, View.ld_unit_zero (S := S5000x1) zero_offsets,
    View.ld_unit_zero (S := S1x64) zero_offsets]
  rw [pay4_eq_pay1]
  funext j
  obtain ⟨p, q, rfl⟩ : ∃ (p : Fin 5000) (q : Fin 64), j = ix2 p q := ⟨j 0, j 1, eq_ix2 j⟩
  obtain ⟨e00, e01, e10, e11, e20, e21, e30, e31, e40, e41⟩ := index_facts4 t
  have ht : t.val < 20 := lt_of_lt_of_eq t.isLt N_4
  have hp : p.val < 5000 := p.isLt
  have hr : t.val * 5000 + p.val < 100000 := by omega
  have hemb : ((cfg4.win 4).blk t).view.emb (ix2 p q) = ix2 (⟨t.val * 5000 + p.val, hr⟩ : Fin 100000) q := by
    funext a; apply Fin.ext
    match a with
    | ⟨0, _⟩ => show win4_4.index t (0 : Fin 2) * 5000 + 1 * p.val = t.val * 5000 + p.val; omega
    | ⟨1, _⟩ => show win4_4.index t (1 : Fin 2) * 64 + 1 * q.val = q.val; omega
  show k1_pay1 (iblk4 V c 0 t) (iblk4 V c 1 t) (iblk4 V c 2 t) (iblk4 V c 3 t) (ix2 p q)
    = Gcn.finalize (M := 100000) (N := 64) (V c main_v84) (V c main_v71) (V c main_v27) (V c main_v85)
        (((cfg4.win 4).blk t).view.emb (ix2 p q))
  rw [hemb]
  refine pay1_eq_finalize _ _ _ _ _ _ _ _ p q _ ?_ ?_ ?_ ?_
  · show V c main_v84 (((cfg4.win 0).blk t).view.emb (ix2 p q))
      = V c main_v84 (ix2 (⟨t.val * 5000 + p.val, hr⟩ : Fin 100000) q)
    refine congrArg (V c main_v84) (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * q.val = q.val; omega
  · show V c main_v71 (((cfg4.win 1).blk t).view.emb (ix2 p q))
      = V c main_v71 (ix2 (⟨t.val * 5000 + p.val, hr⟩ : Fin 100000) q)
    refine congrArg (V c main_v71) (funext fun a => Fin.ext ?_)
    match a with
    | ⟨0, _⟩ => show win4_1.index t (0 : Fin 2) * 5000 + 1 * p.val = t.val * 5000 + p.val; omega
    | ⟨1, _⟩ => show win4_1.index t (1 : Fin 2) * 64 + 1 * q.val = q.val; omega
  · show V c main_v27 (((cfg4.win 2).blk t).view.emb (ix2 p (0 : Fin 1)))
      = V c main_v27 (ix2 (⟨t.val * 5000 + p.val, hr⟩ : Fin 100000) (0 : Fin 1))
    refine congrArg (V c main_v27) (funext fun a => Fin.ext ?_)
    match a with
    | ⟨0, _⟩ => show win4_2.index t (0 : Fin 2) * 5000 + 1 * p.val = t.val * 5000 + p.val; omega
    | ⟨1, _⟩ => show win4_2.index t (1 : Fin 2) * 1 + 1 * 0 = 0; omega
  · show V c main_v85 (((cfg4.win 3).blk t).view.emb (ix2 (0 : Fin 1) q)) = V c main_v85 (ix2 (0 : Fin 1) q)
    refine congrArg (V c main_v85) (funext fun a => Fin.ext ?_)
    match a with
    | ⟨0, _⟩ => show win4_3.index t (0 : Fin 2) * 1 + 1 * 0 = 0; omega
    | ⟨1, _⟩ => show win4_3.index t (1 : Fin 2) * 64 + 1 * q.val = q.val; omega

/-- An entry of the output array lies in point t's tile exactly when each coordinate lies in the tile's range on
    its axis. -/
theorem mem_blk4 (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v86).slice (win4_4.rect t)).set ↔ _
  rw [View.set_slice_whole, Rect.mem_set_unit]
  exact Iff.rfl

/-- Row r of the output lies in the tile of point r / 5000, and every point writes its tile back. -/
theorem cover4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hlt : (i 0).val / 5000 < grid4.N := by rw [N_4]; omega
  obtain ⟨-, -, -, -, -, -, -, -, e40, e41⟩ := index_facts4 ⟨(i 0).val / 5000, hlt⟩
  have e40' : win4_4.index ⟨(i 0).val / 5000, hlt⟩ (0 : Fin 2) = (i 0).val / 5000 := e40
  refine ⟨⟨(i 0).val / 5000, hlt⟩, flush4_4 _, ?_⟩
  rw [mem_blk4]
  intro a
  match a with
  | ⟨0, _⟩ =>
    show win4_4.index ⟨(i 0).val / 5000, hlt⟩ (0 : Fin 2) * 5000 ≤ (i 0).val
      ∧ (i 0).val < win4_4.index ⟨(i 0).val / 5000, hlt⟩ (0 : Fin 2) * 5000 + 5000
    omega
  | ⟨1, _⟩ =>
    show win4_4.index ⟨(i 0).val / 5000, hlt⟩ (1 : Fin 2) * 64 ≤ (i 1).val
      ∧ (i 1).val < win4_4.index ⟨(i 0).val / 5000, hlt⟩ (1 : Fin 2) * 64 + 64
    omega

end Finalize

/-- Region 1 (the end of the first convolution): aggregate + features * squared inverse root degree + bias. -/
theorem region1 (c : Dev nD) :
    (dat1 (F := Ideal) V c).arrAt 4 cfg1.N
      = Gcn.finalize (M := 100000) (N := 64) (V c main_v41) (V c main_v28) (V c main_v27) (V c main_v42) :=
  (dat1 (F := Ideal) V c).arrAt_eq_of_cover 4 _ (fun t _ => Finalize.flushed1_eq V c t) Finalize.cover1

/-- Region 4 (the end of the second convolution): aggregate + features * squared inverse root degree + bias. -/
theorem region4 (c : Dev nD) :
    (dat4 (F := Ideal) V c).arrAt 4 cfg4.N
      = Gcn.finalize (M := 100000) (N := 64) (V c main_v84) (V c main_v71) (V c main_v27) (V c main_v85) :=
  (dat4 (F := Ideal) V c).arrAt_eq_of_cover 4 _ (fun t _ => Finalize.flushed4_eq V c t) Finalize.cover4

end Cert.KernelValue

end
-- ==== Proof.RegionPick.lean ====
/-
  Region 2: the root features sent back to the nodes.

  The body of this region works on a tile of 5000 rows. It compares the tile's label column, broadcast along 128 lanes,
  with the lane numbers; the equality bit, widened and converted to a float, is the one-hot row of each label. The tile's
  result is the product of that one-hot tile with the whole [128, 192] table into a zero accumulator, so its entry (p, q) is
  the sum over the lanes g of [label of row p = g] * table (g, q). Twenty such tiles, one per grid point, are written back
  to rows [5000 t, 5000 t + 5000) of the [100000, 192] output and cover it; hence the output array is the row selection
  `Gcn.pick` of the region-entry labels and table. A label outside [0, 128) matches no lane and gives a zero row on both sides.
-/
import proofs.«426131_j12824772345978_2_alg».proof.Proof.Gen.KernelIdeal.Frame
import proofs.«426131_j12824772345978_2_alg».proof.Proof.Spec
import proofs.«426131_j12824772345978_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Idealize.ShloMosaic Idealize.ShloMosaic.TcCoe Idealize.ShloMosaic.ValueIdx Idealize.SL.Sem Cert.KernelIdeal Cert.KernelIdeal.Gen
open scoped BigOperators

namespace Pick

/-- The zero offsets of a whole-buffer rectangle, as a constant function. -/
theorem zero_offsets : (![0, 0] : Fin 2 → Nat) = fun _ => 0 := funext fun a => by fin_cases a <;> rfl

/-- The product's dimension numbers are the plain ones: contract the left operand's columns with the right operand's rows. -/
theorem dot_is_plain : dot_S5000x128_S128x192_S5000x192_1_0_0_1_n_n = DotDims.plain 5000 128 192 := rfl

/-- The equality bit of two words, widened and converted to a float, is 1 where the words agree and 0 elsewhere. -/
theorem indicator_word (a b : BitVec 32) :
    (FloatOps.sitofp (F := Ideal) .f32 ((IntOp.cmpi .eq a b).setWidth 32) : EReal) = if a = b then 1 else 0 := by
  by_cases h : a = b
  · subst h
    rw [if_pos rfl]
    show ((((BitVec.ofBool (a == a)).setWidth 32).toInt : ℝ) : EReal) = 1
    simp
  · rw [if_neg h]
    show ((((BitVec.ofBool (a == b)).setWidth 32).toInt : ℝ) : EReal) = 0
    have : (a == b) = false := by simpa using h
    rw [this]
    simp

/-- The label column broadcast along the 128 lanes reads, at (p, g), the label of row p. -/
theorem label_lanes_apply (x0 : Vec Ideal S5000x1 .i32) (p : Fin 5000) (g : Fin 128) :
    broadcastTo S5000x128 (shapeCast S5000x1 x0 shapeCasts_S5000x1_S5000x1) broadcasts_S5000x1_S5000x128 (ix2 p g) = x0 (ix2 p 0) := by
  rw [shapeCast_self]
  refine broadcastTo_apply x0 _ (ix2 p g) (ix2 p 0) ?_
  intro a
  match a with
  | ⟨0, _⟩ => rfl
  | ⟨1, _⟩ => rfl

/-- The lane number at (p, g) is the word of g. -/
theorem lane_number_apply (p : Fin 5000) (g : Fin 128) :
    iota .tc S5000x128 32 [1] iota_S5000x128_d1_w32 (ix2 p g) = BitVec.ofNat 32 g.val :=
  iota_single_apply .tc S5000x128 32 1 _ (ix2 p g)

/-- The one-hot tile at (p, g): 1 where the label of row p is the word of g, 0 elsewhere. -/
theorem onehot_apply (x0 : Vec Ideal S5000x1 .i32) (p : Fin 5000) (g : Fin 128) :
    (truncf .bf16 (sitofp (F := Ideal) .f32 (extui 32 (cmpi .eq
        (broadcastTo S5000x128 (shapeCast S5000x1 x0 shapeCasts_S5000x1_S5000x1) broadcasts_S5000x1_S5000x128)
        (iota .tc S5000x128 32 [1] iota_S5000x128_d1_w32)) natLt_1_32)) bitsLt_bf16_f32 : FVec Ideal S5000x128 .bf16) (ix2 p g)
      = if x0 (ix2 p 0) = BitVec.ofNat 32 g.val then (1 : EReal) else 0 := by
  show (FloatOps.sitofp (F := Ideal) .f32 ((IntOp.cmpi .eq
      (broadcastTo S5000x128 (shapeCast S5000x1 x0 shapeCasts_S5000x1_S5000x1) broadcasts_S5000x1_S5000x128 (ix2 p g))
      (iota .tc S5000x128 32 [1] iota_S5000x128_d1_w32 (ix2 p g))).setWidth 32) : EReal) = _
  rw [label_lanes_apply, lane_number_apply, indicator_word]

/-- The body's arithmetic at (p, q): the sum over the 128 lanes of [label of row p = g] times the table's entry (g, q). -/
theorem payload_apply (x0 : Vec Ideal S5000x1 .i32) (x1 : Vec Ideal S128x192 .f32) (p : Fin 5000) (q : Fin 192) :
    k2_pay1 x0 x1 (ix2 p q)
      = ∑ g : Fin 128, (if x0 (ix2 p 0) = BitVec.ofNat 32 g.val then (1 : EReal) else 0) * x1 (ix2 g q) := by
  unfold k2_pay1
  dsimp only
  refine ((congrFun (congrArg (fun d => matmul (F := Ideal) d none _ _ _) dot_is_plain) (ix2 p q)).trans
    (Cert.PlainMatmul.apply none _ _ p q)).trans ?_
  refine Finset.sum_congr rfl fun g _ => ?_
  rw [onehot_apply, shapeCast_self]
  rfl

variable (V : (c : Dev nD) → (b : Ref sig .tc) → Buf (Elt Ideal) ((c : Thread nD τ).loc b))

/-- One point's tile: if the tile's label column holds rows [5000 b, 5000 b + 5000) of the labels and the tile's table is the
    whole table, the body's result at (p, q) of the tile is the selection's entry (5000 b + p, q). -/
theorem tile_apply (lab : Gcn.IMat 100000 1) (tab : Gcn.Mat 128 192)
    (x0 : Vec Ideal S5000x1 .i32) (x1 : Vec Ideal S128x192 .f32) (b : Nat)
    (h0 : ∀ (p : Fin 5000) (n : Fin 100000), n.val = b * 5000 + p.val → x0 (ix2 p 0) = lab (ix2 n 0))
    (h1 : x1 = tab)
    (j : S5000x192.Idx) (i : S100000x192.Idx) (hi0 : (i 0).val = b * 5000 + (j 0).val) (hi1 : (i 1).val = (j 1).val) :
    k2_pay1 x0 x1 j = Gcn.pick lab tab i := by
  obtain ⟨p, q, rfl⟩ : ∃ (p : Fin 5000) (q : Fin 192), j = ix2 p q := ⟨j 0, j 1, eq_ix2 j⟩
  obtain ⟨n, f, rfl⟩ : ∃ (n : Fin 100000) (f : Fin 192), i = ix2 n f := ⟨i 0, i 1, eq_ix2 i⟩
  obtain rfl : f = q := Fin.ext hi1
  rw [payload_apply, Gcn.pick_apply, h0 p n hi0, h1]

/-- The block-index maps, decided over the twenty points: the label column and the output move together, one tile of
    rows per point; the table's block stays at the origin. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is tile t of the selection of the region-entry labels and table. -/
theorem written_back (c : Dev nD) (t : Fin cfg2.N) :
    (dat2 (F := Ideal) V c).flushed 2 t
      = ((cfg2.win 2).blk t).view.read (Elt Ideal) (Gcn.pick (M := 100000) (G := 128) (N := 192) (V c main_v65) (V c main_v64)) := by
  show (cfg2.win 2).cut (grid2.coords t) ((dat2 V c).after 2 t) = _
  rw [after2_2]
  unfold out2_2
  rw [View.canon_unit_zero zero_offsets]
  simp only [View.ld_unit_zero (S := S5000x1) zero_offsets, View.ld_unit_zero (S := S128x192) zero_offsets]
  obtain ⟨e0, e1, e2, e3, e4, e5⟩ := block_indices t
  funext j
  show k2_pay1 (iblk2 V c 0 t) (iblk2 V c 1 t) j
    = Gcn.pick (M := 100000) (G := 128) (N := 192) (V c main_v65) (V c main_v64) (((cfg2.win 2).blk t).view.emb j)
  refine tile_apply _ _ _ _ (win2_2.index t (0 : Fin 2)) ?_ ?_ j _ ?_ ?_
  · intro p n hn
    show V c main_v65 (((cfg2.win 0).blk t).view.emb (ix2 p 0)) = V c main_v65 (ix2 n 0)
    refine congrArg (V c main_v65) (funext fun a => Fin.ext ?_)
    match a with
    | ⟨0, _⟩ => show win2_0.index t (0 : Fin 2) * 5000 + 1 * p.val = n.val; omega
    | ⟨1, _⟩ => show win2_0.index t (1 : Fin 2) * 1 + 1 * 0 = 0; omega
  · funext y
    show V c main_v64 (((cfg2.win 1).blk t).view.emb y) = V c main_v64 y
    refine congrArg (V c main_v64) (funext fun a => Fin.ext ?_)
    match a with
    | ⟨0, _⟩ => show win2_1.index t (0 : Fin 2) * 128 + 1 * (y 0).val = (y 0).val; omega
    | ⟨1, _⟩ => show win2_1.index t (1 : Fin 2) * 192 + 1 * (y 1).val = (y 1).val; omega
  · show win2_2.index t (0 : Fin 2) * 5000 + 1 * (j 0).val = win2_2.index t (0 : Fin 2) * 5000 + (j 0).val; omega
  · show win2_2.index t (1 : Fin 2) * 192 + 1 * (j 1).val = (j 1).val; omega

/-- An index of the output is in point t's block iff each coordinate is in the block's range on its axis. -/
theorem mem_block (t : Fin cfg2.N) (i : S100000x192.Idx) :
    i ∈ ((cfg2.win 2).blk t).view.set ↔ ∀ a : Fin 2, win2_2.index t a * S5000x192.size a ≤ (i a).val ∧ (i a).val < win2_2.index t a * S5000x192.size a + S5000x192.size a := by
  show i ∈ ((View.whole main_v66).slice (win2_2.rect t)).set ↔ _
  rw [View.set_slice_whole, Rect.mem_set_unit]
  exact Iff.rfl

/-- Every row of the output is in the block of the point its number divided by 5000 names. -/
theorem rows_covered (i : S100000x192.Idx) :
    ∃ t : Fin cfg2.N, (cfg2.win 2).flush t = true ∧ i ∈ ((cfg2.win 2).blk t).view.set := by
  have hi0 : (i 0).val < 100000 := (i 0).isLt
  have hi1 : (i 1).val < 192 := (i 1).isLt
  let t : Fin cfg2.N := ⟨(i 0).val / 5000, by show (i 0).val / 5000 < 20; omega⟩
  obtain ⟨e0, e1, e2, e3, e4, e5⟩ := block_indices t
  have e4' : win2_2.index t (0 : Fin 2) = (i 0).val / 5000 := e4
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 192 ≤ (i 1).val ∧ (i 1).val < win2_2.index t (1 : Fin 2) * 192 + 192; omega

end Pick

variable (V : (c : Dev nD) → (b : Ref sig .tc) → Buf (Elt Ideal) ((c : Thread nD τ).loc b))

/-- Region 2 (the root features sent back to the nodes): row n of the output is the one-hot row of node n's label times the table. -/
theorem region2 (c : Dev nD) :
    (dat2 (F := Ideal) V c).arrAt 2 cfg2.N = Gcn.pick (M := 100000) (G := 128) (N := 192) (V c main_v65) (V c main_v64) :=
  (dat2 (F := Ideal) V c).arrAt_eq_of_cover 2 _ (fun t _ => Pick.written_back V c t) Pick.rows_covered

end Cert.KernelValue

end
-- ==== Proof.LibGcnAlgebra.lean ====
/-
  The algebra behind "aggregate first, multiply afterwards", over the extended reals.

  For real rows `a e`, real weights `nu e` and a real column `w`, summing over the selected edges `e` the scaled rows and
  then contracting with `w` gives the same number as contracting every row with `w` first and then summing the scaled
  results: both are the double sum of `a e k · nu e · w k` over the selected `e` and all `k`. On the extended reals
  multiplication does not distribute over addition at the infinities, so the identity is proved on the reals and
  carried across the coercion; it is stated for coerced reals only.

  Also here: a masked sum with a 0/1 factor is the sum over the selected indices (true of every extended real,
  since `0 · x = 0` and `1 · x = x`), and a sum over 100000 rows split into twenty blocks of 5000.
-/
import Mathlib.Data.EReal.Operations
import Mathlib.Algebra.BigOperators.Group.Finset.Basic
import Mathlib.Algebra.BigOperators.Ring.Finset
import Mathlib.Algebra.BigOperators.Fin
import Mathlib.Data.Fintype.BigOperators
import Mathlib.Logic.Equiv.Fin.Basic

noncomputable section

namespace Cert.GcnAlgebra

open scoped BigOperators

variable {E K : Type} [Fintype E] [Fintype K]

/-- A finite sum of reals' coercions is the coercion of the sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The masked, scaled row sum of coerced reals is a coerced real. -/
theorem aggregate_coe (sel : E → Prop) [DecidablePred sel] (a : E → ℝ) (nu : E → ℝ) :
    (∑ e, if sel e then ((a e : ℝ) : EReal) * ((nu e : ℝ) : EReal) else 0)
      = ((∑ e, if sel e then a e * nu e else 0 : ℝ) : EReal) := by
  rw [← sum_coe]
  refine Finset.sum_congr rfl fun e _ => ?_
  by_cases h : sel e
  · rw [if_pos h, if_pos h, EReal.coe_mul]
  · rw [if_neg h, if_neg h, EReal.coe_zero]

/-- AGGREGATE THEN CONTRACT = CONTRACT THEN AGGREGATE, for coerced reals. -/
theorem aggregate_contract_comm (sel : E → Prop) [DecidablePred sel] (a : E → K → ℝ) (w : K → ℝ) (nu : E → ℝ) :
    (∑ k, (∑ e, if sel e then ((a e k : ℝ) : EReal) * ((nu e : ℝ) : EReal) else 0) * ((w k : ℝ) : EReal))
      = ∑ e, if sel e then (∑ k, ((a e k : ℝ) : EReal) * ((w k : ℝ) : EReal)) * ((nu e : ℝ) : EReal) else 0 := by
  -- both sides are the coercion of a real number; on the reals the identity is the exchange of the two sums
  have hR : ∀ e, (if sel e then (∑ k, ((a e k : ℝ) : EReal) * ((w k : ℝ) : EReal)) * ((nu e : ℝ) : EReal) else 0)
      = (((if sel e then (∑ k, a e k * w k) * nu e else 0 : ℝ)) : EReal) := by
    intro e
    by_cases h : sel e
    · rw [if_pos h, if_pos h, EReal.coe_mul, ← sum_coe]
      simp only [EReal.coe_mul]
    · rw [if_neg h, if_neg h, EReal.coe_zero]
  have hL : ∀ k, (∑ e, if sel e then ((a e k : ℝ) : EReal) * ((nu e : ℝ) : EReal) else 0) * ((w k : ℝ) : EReal)
      = (((∑ e, if sel e then a e k * nu e else 0) * w k : ℝ) : EReal) := by
    intro k
    rw [aggregate_coe sel (fun e => a e k) nu, ← EReal.coe_mul]
  rw [Finset.sum_congr rfl fun k _ => hL k, Finset.sum_congr rfl fun e _ => hR e, sum_coe, sum_coe]
  congr 1
  -- the real identity
  calc (∑ k, (∑ e, if sel e then a e k * nu e else 0) * w k)
      = ∑ k, ∑ e, if sel e then a e k * w k * nu e else 0 := by
        refine Finset.sum_congr rfl fun k _ => ?_
        rw [Finset.sum_mul]
        refine Finset.sum_congr rfl fun e _ => ?_
        by_cases h : sel e
        · rw [if_pos h, if_pos h]; ring
        · rw [if_neg h, if_neg h, zero_mul]
    _ = ∑ e, ∑ k, if sel e then a e k * w k * nu e else 0 := Finset.sum_comm
    _ = ∑ e, if sel e then (∑ k, a e k * w k) * nu e else 0 := by
        refine Finset.sum_congr rfl fun e _ => ?_
        by_cases h : sel e
        · simp only [if_pos h]; rw [Finset.sum_mul]
        · simp only [if_neg h]; exact Finset.sum_const_zero

/-- The aggregated-then-contracted value is a coerced real. -/
theorem aggregate_contract_coe (sel : E → Prop) [DecidablePred sel] (a : E → K → ℝ) (w : K → ℝ) (nu : E → ℝ) :
    (∑ k, (∑ e, if sel e then ((a e k : ℝ) : EReal) * ((nu e : ℝ) : EReal) else 0) * ((w k : ℝ) : EReal))
      = ((∑ k, (∑ e, if sel e then a e k * nu e else 0) * w k : ℝ) : EReal) := by
  rw [← sum_coe]
  refine Finset.sum_congr rfl fun k _ => ?_
  rw [aggregate_coe sel (fun e => a e k) nu, ← EReal.coe_mul]

/-- A sum with a 0/1 factor is the sum over the selected indices, for any extended reals. -/
theorem sum_indicator_mul (sel : E → Prop) [DecidablePred sel] (f : E → EReal) :
    (∑ e, (if sel e then (1 : EReal) else 0) * f e) = ∑ e, if sel e then f e else 0 := by
  refine Finset.sum_congr rfl fun e _ => ?_
  by_cases h : sel e
  · rw [if_pos h, if_pos h, one_mul]
  · rw [if_neg h, if_neg h, zero_mul]

/-- Twenty blocks of 5000 rows are the 100000 rows: a sum over all rows is the double sum over the blocks and the rows
    of a block. -/
theorem sum_blocks {M : Type} [AddCommMonoid M] (f : Fin 100000 → M) :
    (∑ t : Fin 20, ∑ p : Fin 5000, f ⟨5000 * t.val + p.val, by have := t.isLt; have := p.isLt; omega⟩) = ∑ n : Fin 100000, f n := by
  -- pair (t, p) with the row 5000 * t + p : a bijection of Fin 20 × Fin 5000 with Fin 100000
  calc (∑ t : Fin 20, ∑ p : Fin 5000,
          f ⟨5000 * t.val + p.val, by have := t.isLt; have := p.isLt; omega⟩)
      = ∑ x : Fin 20 × Fin 5000,
          f ⟨5000 * x.1.val + x.2.val, by have := x.1.isLt; have := x.2.isLt; omega⟩ :=
        (Fintype.sum_prod_type
          (fun x : Fin 20 × Fin 5000 =>
            f ⟨5000 * x.1.val + x.2.val, by have := x.1.isLt; have := x.2.isLt; omega⟩)).symm
    _ = ∑ n : Fin 100000, f n :=
        Fintype.sum_equiv (finProdFinEquiv : Fin 20 × Fin 5000 ≃ Fin (20 * 5000)) _ _ (fun x => by
          congr 1
          apply Fin.ext
          show 5000 * x.1.val + x.2.val = x.2.val + 5000 * x.1.val
          omega)

end Cert.GcnAlgebra

end
-- ==== Proof.RegionSegsum.lean ====
/-
  The per-label sums of the rows, computed in twenty steps.

  Step t reads rows 5000 t, …, 5000 t + 4999 of the label column and of the feature matrix, builds the 0/1 block whose
  entry (p, g) says whether row p carries label g, and adds the product of its transpose with the feature rows to a
  128 × 128 block that is kept from one step to the next; the first step starts from the zero block, and the block
  becomes the result after the last step. Entry (g, f) of the block after step t is therefore the sum, over the rows
  n < 5000 (t + 1) labelled g, of feature (n, f), and after the last step the sum over all 100000 rows. On the extended
  reals addition is commutative and associative and 0 + x = x, so nothing has to be finite.
-/
import proofs.«426131_j12824772345978_2_alg».proof.Proof.Gen.KernelIdeal.Frame
import proofs.«426131_j12824772345978_2_alg».proof.Proof.Spec
import proofs.«426131_j12824772345978_2_alg».proof.Proof.LibGcnAlgebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Idealize.ShloMosaic Idealize.ShloMosaic.TcCoe Idealize.ShloMosaic.ValueIdx Idealize.SL.Sem Cert.KernelIdeal Cert.KernelIdeal.Gen
open scoped BigOperators

namespace Segsum

/-! ## What each control case leaves in the carried block -/

section Pieces
variable {F : FTy → Type} [FloatOps F]

/-- The zero offsets of a whole-block access, however they are spelt. -/
theorem zero_offsets : (![0, 0] : Fin 2 → Nat) = fun _ => 0 := funext fun a => by fin_cases a <;> rfl

/-- A point that is not the first leaves, in the carried block holding `xo`, the update of `xo` by the point's label
    and feature blocks: its one store covers the block, and its loads read the three buffers whole. -/
theorem left_by_update (c : Dev nD) (i : grid5.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond5_0 i) (x0 : Vec F S5000x1 .i32) (x1 : Vec F S5000x128 .f32) (xo : Vec F S128x128 .f32) :
    out5_B_2 c i a1 h1 a2 h2 a3 h3 hc x0 x1 xo = k5_pay2 x0 x1 xo := by
  unfold out5_B_2
  rw [View.read_writes_eq_canon _ _ _ (cover5_B_2 c i a1 h1 a2 h2 a3 h3 hc x0 x1 xo)]
  unfold kernelRun5_B
  dsimp only
  sl_unfold_words
  rw [View.canon_unit_zero zero_offsets]
  simp only [View.readAt_eq_ld, h1.read_unread, h2.read_unread, h3.read_unread, View.ld_unit_zero (S := S5000x1) zero_offsets,
    View.ld_unit_zero (S := S5000x128) zero_offsets, View.ld_unit_zero (S := S128x128) zero_offsets]

/-- The first point stores the zero block, reads it back, and leaves the update of the zero block by its label and
    feature blocks: the later store covers the block, and the read-back of the earlier one is the zero block. -/
theorem left_by_reset (c : Dev nD) (i : grid5.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond5_0 i) (x0 : Vec F S5000x1 .i32) (x1 : Vec F S5000x128 .f32) :
    out5_A_2 c i a1 h1 a2 h2 a3 h3 hc x0 x1 = k5_pay2 x0 x1 (k5_pay1 (F := F)) := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S128x128) zero_offsets, View.readCov_unit_zero (S := S128x128) _ zero_offsets]
  simp only [View.readAt_eq_ld, h1.read_unread, h2.read_unread, View.ld_unit_zero (S := S5000x1) zero_offsets,
    View.ld_unit_zero (S := S5000x128) zero_offsets]

end Pieces

/-! ## The update at an entry, over the extended reals -/

section Payload

/-- In the product that contracts axis 0 of both operands, the left operand's axis 0 is the contraction coordinate. -/
theorem left_axis0 (j : S128x128.Idx) (q : dot_S5000x128_S5000x128_S128x128_0_0_1_1_n_n.contr.Idx) :
    (dot_S5000x128_S5000x128_S128x128_0_0_1_1_n_n.lhsIdx j q 0).val = (q ⟨0, Nat.one_pos⟩).val :=
  dot_S5000x128_S5000x128_S128x128_0_0_1_1_n_n.lhsIdx_val_of_single rfl j q

/-- The left operand's axis 1 is the output's row. -/
theorem left_axis1 (j : S128x128.Idx) (q : dot_S5000x128_S5000x128_S128x128_0_0_1_1_n_n.contr.Idx) :
    (dot_S5000x128_S5000x128_S128x128_0_0_1_1_n_n.lhsIdx j q 1).val = (j 0).val := by
  unfold DotDims.lhsIdx
  rw [dif_neg (show ¬(1 : Fin S5000x128.rank) ∈ dot_S5000x128_S5000x128_S128x128_0_0_1_1_n_n.lhsBatch from List.not_mem_nil),
    dif_pos (show (1 : Fin S5000x128.rank) ∈ dot_S5000x128_S5000x128_S128x128_0_0_1_1_n_n.lhsNonContracting from List.mem_singleton.mpr rfl)]
  rfl

/-- The right operand's axis 0 is the contraction coordinate. -/
theorem right_axis0 (j : S128x128.Idx) (q : dot_S5000x128_S5000x128_S128x128_0_0_1_1_n_n.contr.Idx) :
    (dot_S5000x128_S5000x128_S128x128_0_0_1_1_n_n.rhsIdx j q 0).val = (q ⟨0, Nat.one_pos⟩).val :=
  dot_S5000x128_S5000x128_S128x128_0_0_1_1_n_n.rhsIdx_val_of_single rfl j q

/-- The right operand's axis 1 is the output's column. -/
theorem right_axis1 (j : S128x128.Idx) (q : dot_S5000x128_S5000x128_S128x128_0_0_1_1_n_n.contr.Idx) :
    (dot_S5000x128_S5000x128_S128x128_0_0_1_1_n_n.rhsIdx j q 1).val = (j 1).val := by
  unfold DotDims.rhsIdx
  rw [dif_neg (show ¬(1 : Fin S5000x128.rank) ∈ dot_S5000x128_S5000x128_S128x128_0_0_1_1_n_n.rhsBatch from List.not_mem_nil),
    dif_pos (show (1 : Fin S5000x128.rank) ∈ dot_S5000x128_S5000x128_S128x128_0_0_1_1_n_n.rhsNonContracting from List.mem_singleton.mpr rfl)]
  rfl

/-- Entry (g, f) of the transposed-left product into the zero accumulator is the sum over the rows p of
    a (p, g) * b (p, f). -/
theorem transposed_product_apply (prec : Option ContractPrecision) {φ₁ φ₂ : FTy} (a : FVec Ideal S5000x128 φ₁)
    (b : FVec Ideal S5000x128 φ₂) (g f : Fin 128) :
    FloatOps.matmul dot_S5000x128_S5000x128_S128x128_0_0_1_1_n_n prec a b (constant S128x128 .f32 0x00000000#32) (ix2 g f)
      = ∑ p : Fin 5000, a (ix2 p g) * b (ix2 p f) := by
  rw [Ideal.matmul_constant_zero_apply,
    ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g f)
      ((contrEquiv1 dot_S5000x128_S5000x128_S128x128_0_0_1_1_n_n 5000 rfl rfl).symm k) = ix2 k g :=
    funext fun x => Fin.ext (by
      match x with
      | ⟨0, _⟩ => exact (left_axis0 _ _).trans hk
      | ⟨1, _⟩ => exact left_axis1 _ _)
  have er : dot_S5000x128_S5000x128_S128x128_0_0_1_1_n_n.rhsIdx (ix2 g f)
      ((contrEquiv1 dot_S5000x128_S5000x128_S128x128_0_0_1_1_n_n 5000 rfl rfl).symm k) = ix2 k f :=
    funext fun x => Fin.ext (by
      match x with
      | ⟨0, _⟩ => exact (right_axis0 _ _).trans hk
      | ⟨1, _⟩ => exact right_axis1 _ _)
  rw [el, er]

/-- The number made from the test "a = b" (the one-bit answer widened to a word and read as a signed integer) is
    1 when the words are equal and 0 when they are not. -/
theorem number_of_test (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by subst h; simp [IntOp.cmpi]
    rw [if_pos h, e, show ((1#1 : BitVec 1).setWidth 32).toInt = 1 from by decide]
    simp
  · have e : IntOp.cmpi .eq a b = 0#1 := by
      show BitVec.ofBool (a == b) = 0#1
      rw [beq_eq_false_iff_ne.mpr h]; rfl
    rw [if_neg h, e, show ((0#1 : BitVec 1).setWidth 32).toInt = 0 from by decide]
    simp

/-- The one-hot block at (p, g): 1 when row p's label is the word of g, 0 otherwise. -/
theorem onehot_apply (x0 : Vec Ideal S5000x1 .i32) (p : Fin 5000) (g : Fin 128) :
    (truncf .bf16 (sitofp (F := Ideal) .f32 (extui 32 (cmpi .eq
        (broadcastTo S5000x128 (shapeCast S5000x1 x0 shapeCasts_S5000x1_S5000x1) broadcasts_S5000x1_S5000x128)
        (iota .tc S5000x128 32 [1] iota_S5000x128_d1_w32)) natLt_1_32)) bitsLt_bf16_f32 : FVec Ideal S5000x128 .bf16) (ix2 p g)
      = if x0 (ix2 p 0) = BitVec.ofNat 32 g.val then (1 : EReal) else 0 := by
  have e1 : broadcastTo S5000x128 (shapeCast S5000x1 x0 shapeCasts_S5000x1_S5000x1) broadcasts_S5000x1_S5000x128 (ix2 p g)
      = x0 (ix2 p 0) := by
    refine (broadcastTo_apply _ broadcasts_S5000x1_S5000x128 (ix2 p g) (ix2 p 0) ?_).trans
      (congrFun (shapeCast_self x0 shapeCasts_S5000x1_S5000x1) (ix2 p 0))
    intro a
    match a with
    | ⟨0, _⟩ => rfl
    | ⟨1, _⟩ => rfl
  have e2 : iota .tc S5000x128 32 [1] iota_S5000x128_d1_w32 (ix2 p g) = BitVec.ofNat 32 g.val :=
    iota_single_apply .tc S5000x128 32 1 iota_S5000x128_d1_w32 (ix2 p g)
  show FloatOps.sitofp (F := Ideal) .f32 ((IntOp.cmpi .eq
      (broadcastTo S5000x128 (shapeCast S5000x1 x0 shapeCasts_S5000x1_S5000x1) broadcasts_S5000x1_S5000x128 (ix2 p g))
      (iota .tc S5000x128 32 [1] iota_S5000x128_d1_w32 (ix2 p g))).setWidth 32) = _
  rw [e1, e2]
  exact number_of_test _ _

/-- THE UPDATE AT AN ENTRY: entry (g, f) of the updated block is the old entry plus the sum over the block's rows p
    labelled g of the feature (p, f). -/
theorem update_apply (x0 : Vec Ideal S5000x1 .i32) (x1 : Vec Ideal S5000x128 .f32) (xo : Vec Ideal S128x128 .f32)
    (g f : Fin 128) :
    k5_pay2 (F := Ideal) x0 x1 xo (ix2 g f)
      = xo (ix2 g f) + ∑ p : Fin 5000, (if x0 (ix2 p 0) = BitVec.ofNat 32 g.val then (1 : EReal) else 0) * x1 (ix2 p f) := by
  unfold k5_pay2
  dsimp only
  refine (addf_apply _ _ (ix2 g f)).trans ?_
  refine congrArg₂ (· + ·) (congrFun (shapeCast_self xo shapeCasts_S128x128_S128x128) (ix2 g f)) ?_
  refine (transposed_product_apply none _ _ g f).trans ?_
  refine Finset.sum_congr rfl fun p _ => ?_
  refine congrArg₂ (· * ·) (onehot_apply x0 p g) ?_
  exact congrFun (shapeCast_self x1 shapeCasts_S5000x128_S5000x128) (ix2 p f)

/-- The zero block at an entry. -/
theorem zero_block_apply (j : S128x128.Idx) : k5_pay1 (F := Ideal) j = 0 := by
  show Ideal.ofBits .f32 0x00000000#32 = 0
  exact Ideal.ofBits_zero_f32

end Payload

/-! ## The blocks of a point, and the running sums -/

section Run

variable (V : (c : Dev nD) → (b : Ref sig .tc) → Buf (Elt Ideal) ((c : Thread nD τ).loc b))

/-- The labels and the features as the region finds them, and their blocks at a point. -/
abbrev labels (c : Dev nD) : Gcn.IMat 100000 1 := V c main_v89
abbrev feats (c : Dev nD) : Gcn.Mat 100000 128 := V c main_v88
abbrev labelBlock (c : Dev nD) (t : Fin cfg5.N) : Vec Ideal S5000x1 .i32 := iblk5 V c 0 t
abbrev featBlock (c : Dev nD) (t : Fin cfg5.N) : Vec Ideal S5000x128 .f32 := iblk5 V c 1 t

/-- Row p of block n is row 5000 n + p of the arrays. -/
def rowAt (n : ℕ) (hn : n < 20) (p : Fin 5000) : Fin 100000 := ⟨5000 * n + p.val, by have := p.isLt; omega⟩

/-- What node r adds to entry (g, f): its feature f when its label is g, nothing otherwise. -/
def term (c : Dev nD) (g f : Fin 128) (r : Fin 100000) : EReal :=
  (if labels V c (ix2 r 0) = BitVec.ofNat 32 g.val then (1 : EReal) else 0) * feats V c (ix2 r f)

/-- What block n adds to entry (g, f). -/
def blockSum (c : Dev nD) (g f : Fin 128) (n : ℕ) (hn : n < 20) : EReal := ∑ p : Fin 5000, term V c g f (rowAt n hn p)

/-- The grid has twenty points. -/
theorem points : cfg5.N = 20 := N_5

/-- The block indices at a point: the label and feature windows are at block row t, the output window does not move. -/
theorem block_indices : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- The output's block is never cut: it has 128 rows and 128 columns at every point. -/
theorem out_block_sizes : ∀ t : Fin cfg5.N, win5_2.xsize (grid5.coords t) (0 : Fin 2) = 128
    ∧ win5_2.xsize (grid5.coords t) (1 : Fin 2) = 128 :=
  (by decide +kernel : ∀ t : Fin grid5.N, _)

/-- The label block of point t at row p is the label of row 5000 t + p. -/
theorem labelBlock_apply (c : Dev nD) (t : Fin cfg5.N) (ht : t.val < 20) (p : Fin 5000) :
    labelBlock V c t (ix2 p 0) = labels V c (ix2 (rowAt t.val ht p) 0) := by
  obtain ⟨e0, e1, -⟩ := block_indices t
  unfold labelBlock iblk5
  rw [View.read_apply]
  show V c main_v89 _ = V c main_v89 _
  congr 1
  funext a
  apply Fin.ext
  match a with
  | ⟨0, _⟩ => show win5_0.index t (0 : Fin 2) * 5000 + 1 * p.val = 5000 * t.val + p.val; omega
  | ⟨1, _⟩ => show win5_0.index t (1 : Fin 2) * 1 + 1 * 0 = 0; omega

/-- The feature block of point t at (p, f) is the feature (5000 t + p, f). -/
theorem featBlock_apply (c : Dev nD) (t : Fin cfg5.N) (ht : t.val < 20) (p : Fin 5000) (f : Fin 128) :
    featBlock V c t (ix2 p f) = feats V c (ix2 (rowAt t.val ht p) f) := by
  obtain ⟨-, -, e0, e1, -⟩ := block_indices t
  unfold featBlock iblk5
  rw [View.read_apply]
  show V c main_v88 _ = V c main_v88 _
  congr 1
  funext a
  apply Fin.ext
  match a with
  | ⟨0, _⟩ => show win5_1.index t (0 : Fin 2) * 5000 + 1 * p.val = 5000 * t.val + p.val; omega
  | ⟨1, _⟩ => show win5_1.index t (1 : Fin 2) * 128 + 1 * f.val = f.val; omega

/-- The update of a block `xo` by the blocks of point t adds, at (g, f), what block t adds. -/
theorem update_at_point (c : Dev nD) (t : Fin cfg5.N) (ht : t.val < 20) (xo : Vec Ideal S128x128 .f32) (g f : Fin 128) :
    k5_pay2 (F := Ideal) (labelBlock V c t) (featBlock V c t) xo (ix2 g f) = xo (ix2 g f) + blockSum V c g f t.val ht := by
  refine (update_apply (labelBlock V c t) (featBlock V c t) xo g f).trans ?_
  refine congrArg (xo (ix2 g f) + ·) (Finset.sum_congr rfl fun p _ => ?_)
  rw [labelBlock_apply V c t ht p, featBlock_apply V c t ht p f]
  rfl

/-- THE RUNNING SUM. After point n the carried block holds, at (g, f), what blocks 0, …, n add: by induction on the
    point, the first point updating the zero block and every later one what the point before left. -/
theorem carried_eq (c : Dev nD) : ∀ (n : ℕ) (h : n < cfg5.N) (g f : Fin 128),
    outsAt5 V c n h (ix2 g f)
      = ∑ t : Fin (n + 1), blockSum V c g f t.val (by have := lt_of_lt_of_eq h points; have := t.isLt; omega)
  | 0, h, g, f => by
    have hA : (⟨0, h⟩ : Fin cfg5.N).val % 20 = 0 := rfl
    rw [outsAt5_A V c ⟨0, h⟩ hA]
    refine (congrFun (left_by_reset (F := Ideal) c (grid5.coords ⟨0, h⟩) (ms5_0 ⟨0, h⟩) (hs5_0 ⟨0, h⟩) (ms5_1 ⟨0, h⟩)
      (hs5_1 ⟨0, h⟩) (ms5_2 ⟨0, h⟩) (hs5_2 ⟨0, h⟩) ((hcond5_0 ⟨0, h⟩).mpr hA) (labelBlock V c ⟨0, h⟩) (featBlock V c ⟨0, h⟩))
      (ix2 g f)).trans ?_
    refine (update_at_point V c ⟨0, h⟩ (Nat.zero_lt_succ 19) (k5_pay1 (F := Ideal)) g f).trans ?_
    rw [zero_block_apply, zero_add, Fin.sum_univ_one]
    rfl
  | n + 1, h, g, f => by
    have hN : n + 1 < 20 := lt_of_lt_of_eq h points
    have hB : ¬(⟨n + 1, h⟩ : Fin cfg5.N).val % 20 = 0 := by dsimp only; omega
    rw [outsAt5_B V c ⟨n + 1, h⟩ hB]
    refine (congrFun (left_by_update (F := Ideal) c (grid5.coords ⟨n + 1, h⟩) (ms5_0 ⟨n + 1, h⟩) (hs5_0 ⟨n + 1, h⟩)
      (ms5_1 ⟨n + 1, h⟩) (hs5_1 ⟨n + 1, h⟩) (ms5_2 ⟨n + 1, h⟩) (hs5_2 ⟨n + 1, h⟩) (fun hc => hB ((hcond5_0 ⟨n + 1, h⟩).mp hc))
      (labelBlock V c ⟨n + 1, h⟩) (featBlock V c ⟨n + 1, h⟩)
      (outsAt5 V c ((⟨n + 1, h⟩ : Fin cfg5.N).val - 1) (Nat.lt_of_le_of_lt (Nat.sub_le _ _) (⟨n + 1, h⟩ : Fin cfg5.N).isLt)))
      (ix2 g f)).trans ?_
    refine (update_at_point V c ⟨n + 1, h⟩ hN _ g f).trans ?_
    show outsAt5 V c n _ (ix2 g f) + _ = _
    rw [carried_eq c n (Nat.lt_of_succ_lt h) g f]
    refine Eq.trans ?_ (Fin.sum_univ_castSucc _).symm
    rfl

/-- After the last point the carried block is the per-label sum of the rows. -/
theorem carried_last (c : Dev nD) (h : 19 < cfg5.N) :
    outsAt5 V c 19 h = Gcn.segsum (M := 100000) (G := 128) (N := 128) (labels V c) (feats V c) := by
  funext j
  obtain ⟨g, f, rfl⟩ : ∃ (g f : Fin 128), j = ix2 g f := ⟨j 0, j 1, eq_ix2 j⟩
  rw [carried_eq V c 19 h g f, Gcn.segsum_apply]
  exact Cert.GcnAlgebra.sum_blocks (fun r => term V c g f r)

/-! ## From the carried block to the array -/

/-- The one write-back, at the last point, writes the per-label sums: the output's one block is its whole array. -/
theorem flushed_eq (c : Dev nD) (t : Fin cfg5.N) (hf : (cfg5.win 2).flush t = true) :
    (dat5 (F := Ideal) V c).flushed 2 t
      = ((cfg5.win 2).blk t).view.read (Elt Ideal) (Gcn.segsum (M := 100000) (G := 128) (N := 128) (labels V c) (feats V c)) := by
  have hN : cfg5.N = 20 := points
  have h19 : t.val = 19 := by have := (flush5_2 t).mp hf; have := t.isLt; omega
  have hlast : 19 < cfg5.N := by rw [hN]; decide
  obtain rfl : t = ⟨19, hlast⟩ := Fin.ext h19
  show (cfg5.win 2).cut (grid5.coords ⟨19, hlast⟩) ((dat5 (F := Ideal) V c).after 2 ⟨19, hlast⟩) = _
  rw [after5_2, carried_last]
  obtain ⟨-, -, -, -, e0, e1⟩ := block_indices ⟨19, hlast⟩
  have hz' : (fun a => win5_2.index ⟨19, hlast⟩ a * main_v90.ty.shape.size a) = fun _ => 0 :=
    funext fun a => by
      match a with
      | ⟨0, _⟩ => show win5_2.index ⟨19, hlast⟩ (0 : Fin 2) * 128 = 0; rw [e0]
      | ⟨1, _⟩ => show win5_2.index ⟨19, hlast⟩ (1 : Fin 2) * 128 = 0; rw [e1]
  exact (Memref.read_access_unit_zero (Elt Ideal) main_v90 hz' (fun a => by rw [congrFun hz' a]; simp)
    (Gcn.segsum (M := 100000) (G := 128) (N := 128) (labels V c) (feats V c))).symm

end Run

end Segsum

variable (V : (c : Dev nD) → (b : Ref sig .tc) → Buf (Elt Ideal) ((c : Thread nD τ).loc b))

/-- Region 5 (the per-graph sums): entry (g, f) of the output is the sum over the nodes n labelled g of h (n, f). -/
theorem region5 (c : Dev nD) :
    (dat5 (F := Ideal) V c).arrAt 2 cfg5.N = Gcn.segsum (M := 100000) (G := 128) (N := 128) (V c main_v89) (V c main_v88) := by
  have hlast : 19 < cfg5.N := by rw [Segsum.points]; decide
  refine (dat5 (F := Ideal) V c).arrAt_eq_of_cover 2
    (Gcn.segsum (M := 100000) (G := 128) (N := 128) (Segsum.labels V c) (Segsum.feats V c)) (Segsum.flushed_eq V c) fun i =>
    ⟨⟨19, hlast⟩, (flush5_2 ⟨19, hlast⟩).mpr rfl, ?_⟩
  show i ∈ ((View.whole main_v90).slice (win5_2.rect ⟨19, hlast⟩)).set
  rw [View.set_slice_whole, Rect.mem_set_unit]
  intro a
  have h0 : (i 0 : Nat) < 128 := (i 0).isLt
  have h1 : (i 1 : Nat) < 128 := (i 1).isLt
  obtain ⟨-, -, -, -, e0, e1⟩ := Segsum.block_indices ⟨19, hlast⟩
  obtain ⟨s0, s1⟩ := Segsum.out_block_sizes ⟨19, hlast⟩
  match a with
  | ⟨0, _⟩ =>
    show win5_2.index ⟨19, hlast⟩ 0 * win5_2.size 0 ≤ (i 0 : Nat)
      ∧ (i 0 : Nat) < win5_2.index ⟨19, hlast⟩ 0 * win5_2.size 0 + win5_2.xsize (grid5.coords ⟨19, hlast⟩) 0
    rw [e0, s0]; omega
  | ⟨1, _⟩ =>
    show win5_2.index ⟨19, hlast⟩ 1 * win5_2.size 1 ≤ (i 1 : Nat)
      ∧ (i 1 : Nat) < win5_2.index ⟨19, hlast⟩ 1 * win5_2.size 1 + win5_2.xsize (grid5.coords ⟨19, hlast⟩) 1
    rw [e1, s1]; omega

end Cert.KernelValue

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibSegmentSum.lean ====
/-
  SEGMENT SUMS READ AT AN INDEX.

  A segment sum adds, into entry `g` of an accumulator, every update row whose segment id is `g`; a row whose id
  lies outside the accumulator's range is dropped. As a host program it is an accumulating float scatter whose scatter
  indices are the ids, one integer per update row. This file reads that scatter, at the ideal values and at any extents,
  as the accumulator's entry plus a masked sum over the update rows — for the two sets of dimension numbers such a
  sum is printed with: rows of width `C` scattered into a `[G, C]` accumulator, and scalars scattered into a `[G]` one.
  Nothing here depends on a program: the dimension numbers enter as four equations on an arbitrary record, which a
  program's record of literals satisfies by `rfl`.
-/
import Idealize.ShloMosaic.PureOps.Ideal
import Idealize.ShloMosaic.PureOps.Ideal.Laws
import Idealize.ShloMosaic.Lib.ValueIdx
import Mathlib.Algebra.BigOperators.Group.Finset.Piecewise

namespace Cert.SegmentSum

open Idealize.ShloMosaic Idealize.ShloMosaic.ValueIdx
open scoped BigOperators

/-! ## Rows of width `C` into a `[G, C]` accumulator -/

section Rows
variable {G C N w : Nat}

/-- On the accumulator's row axis the window starts at the update row's segment id, read signed. -/
private theorem start_rows_zero (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (j : (⟨2, ![N, C]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the accumulator's column axis, which no scatter index names, the window starts at zero. -/
private theorem start_rows_one (d : ScatterDims ⟨2, ![G, C]⟩ ⟨2, ![N, 1]⟩ ⟨2, ![N, C]⟩)
    (hsd : d.scatterDimsToOperandDims = [0])
    (idx : IVec ⟨2, ![N, 1]⟩ w) (j : (⟨2, ![N, C]⟩ : Shape).Idx) :
    d.start j idx 1 = 0 := by
  unfold ScatterDims.start
  rw [dif_neg (by rw [hsd]; exact (by decide : (1 : Fin 2) ∉ [(0 : Fin 2)]))]

/-- The row axis is an inserted one: the window has no extent along it. -/
private theorem window_rows_zero (d : ScatterDims ⟨2, ![G, C]⟩ ⟨2, ![N, 1]⟩ ⟨2, ![N, C]⟩)
    (hiw : d.insertedWindowDims = [0]) (j : (⟨2, ![N, C]⟩ : Shape).Idx) :
    d.window j 0 = 0 := by
  have hk : d.sKept = [1] := by
    show Shape.kept _ d.insertedWindowDims = _
    rw [hiw]; rfl
  unfold ScatterDims.window
  rw [dif_neg (by rw [hk]; exact (by decide : (0 : Fin 2) ∉ [(1 : Fin 2)]))]

/-- Along the column axis the window coordinate is the update's column. -/
private theorem window_rows_one (d : ScatterDims ⟨2, ![G, C]⟩ ⟨2, ![N, 1]⟩ ⟨2, ![N, C]⟩)
    (huw : d.updateWindowDims = [1]) (hiw : d.insertedWindowDims = [0])
    (j : (⟨2, ![N, C]⟩ : Shape).Idx) :
    d.window j 1 = (j 1).val := by
  obtain ⟨uw, iw, sd, iv, wf⟩ := d
  simp only at huw hiw
  subst huw hiw
  unfold ScatterDims.window
  split
  · rfl
  · rename_i h
    exact absurd (List.mem_singleton.mpr rfl : (1 : Fin 2) ∈ [(1 : Fin 2)]) h

/-- WHERE AN UPDATE LANDS. Update `(n, q')` lands on accumulator entry `(g, q)` exactly when row `n`'s segment id,
    read signed, is `g` and the columns agree; an id outside `[0, G)` lands nowhere. -/
theorem resultIdx?_rows (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (q' : Fin C) (g : Fin G) (q : Fin C) :
    d.resultIdx? (ix2 n q') idx = some (ix2 g q) ↔ (idx (ix2 n 0)).toInt = (g.val : ℤ) ∧ q' = q := by
  have hs0 : d.start (ix2 n q') idx 0 = (idx (ix2 n 0)).toInt := start_rows_zero d huw hiw hsd hiv idx _
  have hs1 := start_rows_one d hsd idx (ix2 n q')
  have hw0 := window_rows_zero d hiw (ix2 n q')
  have hw1 : d.window (ix2 n q') 1 = q'.val := window_rows_one d huw hiw _
  have hg := g.isLt
  have hq := q.isLt
  have hq' := q'.isLt
  have hsz0 : (⟨2, ![G, C]⟩ : Shape).size 0 = G := rfl
  have hsz1 : (⟨2, ![G, C]⟩ : Shape).size 1 = C := rfl
  unfold ScatterDims.resultIdx?
  split
  · rename_i h
    rw [Option.some.injEq]
    constructor
    · intro he
      have e0 : (d.start (ix2 n q') idx 0 + d.window (ix2 n q') 0).toNat = g.val := congrArg Fin.val (congrFun he 0)
      have e1 : (d.start (ix2 n q') idx 1 + d.window (ix2 n q') 1).toNat = q.val := congrArg Fin.val (congrFun he 1)
      have h0 := (h 0).1
      rw [hs0, hw0] at e0 h0
      rw [hs1, hw1] at e1
      exact ⟨by omega, Fin.ext (by omega)⟩
    · rintro ⟨ht, rfl⟩
      funext a
      match a with
      | ⟨0, _⟩ =>
        refine Fin.ext ?_
        show (d.start (ix2 n q') idx 0 + d.window (ix2 n q') 0).toNat = g.val
        rw [hs0, hw0]; omega
      | ⟨1, _⟩ =>
        refine Fin.ext ?_
        show (d.start (ix2 n q') idx 1 + d.window (ix2 n q') 1).toNat = q'.val
        rw [hs1, hw1]; omega
  · rename_i h
    constructor
    · intro he; cases he
    · rintro ⟨ht, rfl⟩
      refine absurd (fun a => ?_) h
      match a with
      | ⟨0, _⟩ =>
        show 0 ≤ d.start (ix2 n q') idx 0 + d.window (ix2 n q') 0 ∧
          d.start (ix2 n q') idx 0 + d.window (ix2 n q') 0 < ((⟨2, ![G, C]⟩ : Shape).size 0 : ℕ)
        rw [hs0, hw0, hsz0]; omega
      | ⟨1, _⟩ =>
        show 0 ≤ d.start (ix2 n q') idx 1 + d.window (ix2 n q') 1 ∧
          d.start (ix2 n q') idx 1 + d.window (ix2 n q') 1 < ((⟨2, ![G, C]⟩ : Shape).size 1 : ℕ)
        rw [hs1, hw1, hsz1]; omega

/-- A SEGMENT SUM OF ROWS, AT AN ENTRY. Entry `(g, q)` of the accumulating scatter of the rows `upd` at the segment ids
    `idx` is the accumulator's entry plus column `q` of every row whose id is `g`; a row whose id is outside `[0, G)`
    matches no `g` and contributes nothing. -/
theorem scatterAdd_rows_apply {φ : FTy} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (x : FVec Ideal ⟨2, ![G, C]⟩ φ) (idx : IVec ⟨2, ![N, 1]⟩ w) (upd : FVec Ideal ⟨2, ![N, C]⟩ φ)
    (g : Fin G) (q : Fin C) :
    Host.scatterAdd (F := Ideal) d x idx upd (ix2 g q) =
      x (ix2 g q) + ∑ n : Fin N, if (idx (ix2 n 0)).toInt = (g.val : ℤ) then upd (ix2 n q) else 0 := by
  show x (ix2 g q) + ∑ j ∈ Finset.univ.filter (fun j => d.resultIdx? j idx = some (ix2 g q)), upd j = _
  congr 1
  rw [Finset.sum_filter, sum_idx2]
  refine Finset.sum_congr rfl (fun n _ => ?_)
  simp only [resultIdx?_rows d huw hiw hsd hiv idx]
  by_cases ht : (idx (ix2 n 0)).toInt = (g.val : ℤ)
  · simp only [ht, true_and, if_true]
    rw [Finset.sum_ite_eq' Finset.univ q (fun b => upd (ix2 n b)), if_pos (Finset.mem_univ q)]
  · simp only [ht, false_and, if_false, Finset.sum_const_zero]

end Rows
/-! ## Scalars into a `[G]` accumulator -/

section Flat
variable {G N w : Nat}

/-- A sum over a rank-1 index set is the sum over its coordinate range. -/
private theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- On the accumulator's one axis the window starts at the update's segment id, read signed. -/
private theorem start_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (j : (⟨1, ![N]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- The accumulator's one axis is an inserted one: the window has no extent along it. -/
private theorem window_flat (d : ScatterDims ⟨1, ![G]⟩ ⟨2, ![N, 1]⟩ ⟨1, ![N]⟩)
    (hiw : d.insertedWindowDims = [0]) (j : (⟨1, ![N]⟩ : Shape).Idx) :
    d.window j 0 = 0 := by
  have hk : d.sKept = [] := by
    show Shape.kept _ d.insertedWindowDims = _
    rw [hiw]; rfl
  unfold ScatterDims.window
  rw [dif_neg (by rw [hk]; exact List.not_mem_nil)]

/-- WHERE AN UPDATE LANDS. Update `n` lands on accumulator entry `g` exactly when its segment id, read signed, is `g`;
    an id outside `[0, G)` lands nowhere. -/
theorem resultIdx?_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (n : Fin N) (g : Fin G) :
    d.resultIdx? (ix1 n) idx = some (ix1 g) ↔ (idx (ix2 n 0)).toInt = (g.val : ℤ) := by
  have hs0 : d.start (ix1 n) idx 0 = (idx (ix2 n 0)).toInt := start_flat d huw hiw hsd hiv idx _
  have hw0 := window_flat d hiw (ix1 n)
  have hg := g.isLt
  have hsz0 : (⟨1, ![G]⟩ : Shape).size 0 = G := rfl
  unfold ScatterDims.resultIdx?
  split
  · rename_i h
    rw [Option.some.injEq]
    constructor
    · intro he
      have e0 : (d.start (ix1 n) idx 0 + d.window (ix1 n) 0).toNat = g.val := congrArg Fin.val (congrFun he 0)
      have h0 := (h 0).1
      rw [hs0, hw0] at e0 h0
      omega
    · intro ht
      funext a
      match a with
      | ⟨0, _⟩ =>
        refine Fin.ext ?_
        show (d.start (ix1 n) idx 0 + d.window (ix1 n) 0).toNat = g.val
        rw [hs0, hw0]; omega
  · rename_i h
    constructor
    · intro he; cases he
    · intro ht
      refine absurd (fun a => ?_) h
      match a with
      | ⟨0, _⟩ =>
        show 0 ≤ d.start (ix1 n) idx 0 + d.window (ix1 n) 0 ∧
          d.start (ix1 n) idx 0 + d.window (ix1 n) 0 < ((⟨1, ![G]⟩ : Shape).size 0 : ℕ)
        rw [hs0, hw0, hsz0]; omega

/-- A SEGMENT SUM OF SCALARS, AT AN ENTRY. Entry `g` of the accumulating scatter of the scalars `upd` at the segment ids
    `idx` is the accumulator's entry plus every update whose id is `g`; an update whose id is outside `[0, G)` matches
    no `g` and contributes nothing. -/
theorem scatterAdd_flat_apply {φ : FTy} (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![G]⟩ φ) (idx : IVec ⟨2, ![N, 1]⟩ w) (upd : FVec Ideal ⟨1, ![N]⟩ φ) (g : Fin G) :
    Host.scatterAdd (F := Ideal) d x idx upd (ix1 g) =
      x (ix1 g) + ∑ n : Fin N, if (idx (ix2 n 0)).toInt = (g.val : ℤ) then upd (ix1 n) else 0 := by
  show x (ix1 g) + ∑ j ∈ Finset.univ.filter (fun j => d.resultIdx? j idx = some (ix1 g)), upd j = _
  congr 1
  rw [Finset.sum_filter, sum_idx1]
  refine Finset.sum_congr rfl (fun n _ => ?_)
  simp only [resultIdx?_flat d huw hiw hsd hiv idx]

end Flat

end Cert.SegmentSum
-- ==== Proof.LibIndexWords.lean ====
/-
  The index words of a gather (or scatter) of one entry per row.

  Such an operation takes an array of index pairs [row, column]: the concatenation, along a new second axis, of the
  rows' own numbers (an iota) and the labels, each first passed through the wrap of negative indices (a word that is
  negative as a signed number has the axis's extent added to it). On words that are not negative the wrap is the
  identity, so row `p` of the index array holds the word of `p` and the label's word. The lemmas below read each
  piece of that construction at an index; all are stated over arbitrary operands and literal shapes.
-/
import Idealize.ShloMosaic.Lib.IdealHost
import Idealize.ShloMosaic.Lib.ValueIdx
import Idealize.ShloMosaic.Lib.Pipeline.Value

namespace Cert.LibIndexWords

open Idealize.ShloMosaic Idealize.ShloMosaic.ValueIdx

variable {α : Type}

/-- A select on the signed comparison `L < z`, at an index where `z` holds zero and `L` holds a word below 2³¹ (not
    negative as a signed number), takes `L`'s word. -/
theorem select_slt_zero_apply {s : Shape} (L z y : IVec s 32) (i : s.Idx) (hz : z i = 0#32)
    (h : (L i).toNat < 2 ^ 31) : select (cmpi .slt L z) y L i = L i := by
  show Scalar.select (IntOp.cmpi .slt (L i) (z i)) (y i) (L i) = L i
  rw [hz]
  have e : IntOp.cmpi .slt (L i) 0#32 = 0#1 := by
    unfold IntOp.cmpi
    have : (L i).slt 0#32 = false := by
      rw [BitVec.slt_zero_eq_msb, BitVec.msb_eq_false_iff_two_mul_lt]; omega
    rw [this]; rfl
  rw [e, select_zero]

/-- The wrap of negative indices, `select (L < 0) (L + K) L` with both constants broadcast from scalars, leaves a
    word below 2³¹ as it is. -/
theorem wrapIndex_apply {s : Shape} (h0 : (⟨0, ![]⟩ : Shape).BroadcastsInDim s ![]) (K : BitVec 32) (L : IVec s 32)
    (i : s.Idx) (h : (L i).toNat < 2 ^ 31) :
    select (cmpi .slt L (broadcastInDim s ![] h0 (constantI ⟨0, ![]⟩ 32 0#32)))
      (addi L (broadcastInDim s ![] h0 (constantI ⟨0, ![]⟩ 32 K))) L i = L i :=
  select_slt_zero_apply L _ _ i (by rw [broadcastInDim_scalar_apply]; rfl) h

/-- The iota along the one axis of a vector of at most 2³² entries holds at `p` the word whose value is `p`. -/
theorem iotaInDim_vec_toNat {n : Nat} (hn : n ≤ 2 ^ 32) (p : Fin n) :
    (iotaInDim (⟨1, ![n]⟩ : Shape) 32 0 (ix1 p)).toNat = p.val := by
  rw [iotaInDim_apply]
  show (BitVec.ofNat 32 p.val).toNat = p.val
  rw [BitVec.toNat_ofNat]
  exact Nat.mod_eq_of_lt (lt_of_lt_of_le p.isLt hn)

/-- Two one-column arrays laid side by side: column 0 of the result is the first array. -/
theorem concatenate_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) := by
  refine concatenate_pair_apply_left (1 : Fin 2) a b h (ix2 p (0 : Fin 2)) rfl (ix2 p (0 : Fin 1)) ?_
  intro c
  match c with
  | ⟨0, _⟩ => rfl
  | ⟨1, _⟩ => rfl

/-- Two one-column arrays laid side by side: column 1 of the result is the second array. -/
theorem concatenate_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) := by
  refine concatenate_pair_apply_right (1 : Fin 2) a b h (ix2 p (1 : Fin 2)) rfl rfl (ix2 p (0 : Fin 1)) ?_ ?_
  · intro c hc
    match c with
    | ⟨0, _⟩ => rfl
    | ⟨1, _⟩ => exact absurd rfl hc
  · rfl

/-- A vector broadcast along a new trailing unit axis reads, at row `p`, the vector at `p`. -/
theorem broadcastInDim_col_apply {n : Nat} (hb : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] hb v (ix2 p q) = v (ix1 p) := by
  refine broadcastInDim_apply ![0] hb v (ix2 p q) (ix1 p) ?_
  intro a
  match a with
  | ⟨0, _⟩ =>
    show p.val = if n = 1 then 0 else p.val
    split
    · omega
    · rfl

/-- A one-column array read as a vector holds, at `p`, the array's entry of row `p`. -/
theorem shapeCast_col_apply {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

end Cert.LibIndexWords
-- ==== Proof.LibTakeMask.lean ====
/-
  A row gather guarded by a validity mask ("take, filling what is out of range").

  Such a take wraps negative indices (a word that is negative as a signed number has the axis's extent added), tests
  the wrapped word against the bounds 0 and extent − 1, gathers, and keeps the gathered row only where the test passed,
  putting a fill value elsewhere. When every index word is a row number already, the wrap is the identity, every test
  passes, and the take is the plain gather. The lemmas here are the pieces of that argument: words in range compare
  as expected, an "and"-reduction of all-ones is one, and a selection under an all-ones mask is its first branch.
-/
import Idealize.ShloMosaic.Lib.ReduceAll
import Idealize.ShloMosaic.Lib.StableHlo.Predicate
import Idealize.ShloMosaic.Lib.Pipeline.Value
import Idealize.ShloMosaic.Lib.ValueIdx

noncomputable section

namespace Cert.TakeMask

open Idealize.ShloMosaic Idealize.ShloMosaic.ValueIdx

/-- A left fold by "and" from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) fun n hn => hl n (List.mem_cons_of_mem _ hn)

/-- An "and"-reduction whose operand is all ones, started from one, is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit fun n _ => hx n

/-- A selection under a mask that is one everywhere is its first branch. -/
theorem select_of_all {s : Shape} {α : Type} (c : IVec s 1) (a b : s.Idx → α) (hc : ∀ i, c i = 1#1) : select c a b = a := by
  funext i
  show Scalar.select (c i) (a i) (b i) = a i
  rw [hc i]; rfl

/-- A word that is, signed, at least 0 and below a bound `N` is the number it spells, below `N`. -/
theorem toNat_lt_of_cmp (N : ℕ) (hN : N < 2 ^ 31) (w : BitVec 32) (h0 : IntOp.cmpi .sge w 0#32 = 1#1)
    (h1 : IntOp.cmpi .slt w (BitVec.ofNat 32 N) = 1#1) : w.toNat < N := by
  have e0 : BitVec.ofBool ((0#32).sle w) = 1#1 := h0
  have e0' : (0#32).sle w = true := (StableHlo.Predicate.ofBool_eq_one_iff _).1 e0
  have hw : w.toNat < 2 ^ 31 := by
    have e : (0#32).toInt ≤ w.toInt := by simpa [BitVec.sle] using e0'
    have z : (0#32).toInt = 0 := rfl
    rw [z, BitVec.toInt_eq_msb_cond] at e
    cases hm : w.msb with
    | false => have := BitVec.msb_eq_false_iff_two_mul_lt.mp hm; omega
    | true => rw [hm] at e; simp at e; have := w.isLt; omega
  have hN' : N % 2 ^ 32 = N := Nat.mod_eq_of_lt (by omega)
  have hb : (BitVec.ofNat 32 N).toNat < 2 ^ 31 := by rw [BitVec.toNat_ofNat, hN']; exact hN
  have := (StableHlo.Predicate.slt_iff_toNat hw hb).1 h1
  rw [BitVec.toNat_ofNat, hN'] at this
  exact this

/-- A word below `N` passes the take's two tests: signed, it is at least 0 and at most `N − 1`. -/
theorem cmp_of_toNat_lt (N : ℕ) (hN : N < 2 ^ 31) (w : BitVec 32) (h : w.toNat < N) :
    IntOp.cmpi .sge w 0#32 = 1#1 ∧ IntOp.cmpi .sle w (BitVec.ofNat 32 (N - 1)) = 1#1 := by
  have hw : w.toNat < 2 ^ 31 := by omega
  have hN' : (N - 1) % 2 ^ 32 = N - 1 := Nat.mod_eq_of_lt (by omega)
  have hb : (BitVec.ofNat 32 (N - 1)).toNat < 2 ^ 31 := by rw [BitVec.toNat_ofNat, hN']; omega
  refine ⟨(StableHlo.Predicate.sge_iff_toNat hw (by decide)).2 (Nat.zero_le _), (StableHlo.Predicate.sle_iff_toNat hw hb).2 ?_⟩
  rw [BitVec.toNat_ofNat, hN']; omega

/-- On a word that is not negative the wrap of negative indices does nothing, whatever would have been added. -/
theorem wrap_of_nonneg (w K : BitVec 32) (h : w.toNat < 2 ^ 31) :
    Scalar.select (IntOp.cmpi .slt w 0#32) (IntOp.addi w K) w = w := by
  have hlt : ¬ IntOp.cmpi .slt w 0#32 = 1#1 := fun hc => by
    have := (StableHlo.Predicate.slt_iff_toNat h (by decide)).1 hc
    simp at this
  exact if_neg hlt

/-- Entry `p` of the vector of the first `n` numbers is the word of `p`. -/
theorem iota_toNat {n : ℕ} (hn : n ≤ 2 ^ 32) (p : Fin n) : (iotaInDim (⟨1, ![n]⟩ : Shape) 32 0 (ix1 p)).toNat = p.val := by
  show (BitVec.ofNat 32 p.val).toNat = p.val
  rw [BitVec.toNat_ofNat]; exact Nat.mod_eq_of_lt (by have := p.isLt; omega)

/-- A vector of index words followed by the numbers 0, 1, …, n₂ − 1 (a list of edges' endpoints followed by every
    node's own number): if every word of the first part spells a number below `N` and `n₂ ≤ N`, so does every entry. -/
theorem concat_iota_toNat_lt {n₁ n₂ n : ℕ} (x : IVec ⟨1, ![n₁]⟩ 32) (N : ℕ) (hN : n₂ ≤ N) (hn₂ : n₂ ≤ 2 ^ 32)
    (hx : ∀ i, (x i).toNat < N) (h : Shape.Concatenates [(⟨1, ![n₁]⟩ : Shape), ⟨1, ![n₂]⟩] ⟨1, ![n]⟩ 0)
    (j : (⟨1, ![n]⟩ : Shape).Idx) :
    (concatenate ⟨1, ![n]⟩ 0 [⟨⟨1, ![n₁]⟩, x⟩, ⟨⟨1, ![n₂]⟩, iotaInDim (⟨1, ![n₂]⟩ : Shape) 32 0⟩] h j).toNat < N := by
  have hsum : n₁ + n₂ = n := by
    have e := h.2.2
    simpa using e
  by_cases hj : (j 0).val < n₁
  · rw [concatenate_pair_apply_left (0 : Fin 1) x (iotaInDim (⟨1, ![n₂]⟩ : Shape) 32 0) h j rfl (ix1 (⟨(j 0).val, hj⟩ : Fin n₁)) (fun b => by
      have hb : b = 0 := Subsingleton.elim _ _
      subst hb; rfl)]
    exact hx _
  · have hq : (j 0).val - n₁ < n₂ := by have := (j 0).isLt; simp at this; omega
    rw [concatenate_pair_apply_right (0 : Fin 1) x (iotaInDim (⟨1, ![n₂]⟩ : Shape) 32 0) h j rfl rfl (ix1 (⟨(j 0).val - n₁, hq⟩ : Fin n₂))
      (fun b hb => absurd (Subsingleton.elim _ _) hb) (by
        show (j 0).val - n₁ + n₁ = (j 0).val
        omega)]
    rw [iota_toNat hn₂]
    show (j 0).val - n₁ < N
    omega

end Cert.TakeMask

end
-- ==== Proof.RefStagesA.lean ====
import proofs.«426131_j12824772345978_2_alg».proof.Proof.RefRead
import proofs.«426131_j12824772345978_2_alg».proof.Proof.Spec
import proofs.«426131_j12824772345978_2_alg».proof.Proof.LibGatherRows
import proofs.«426131_j12824772345978_2_alg».proof.Proof.LibSegmentSum
import proofs.«426131_j12824772345978_2_alg».proof.Proof.LibGcnAlgebra
import proofs.«426131_j12824772345978_2_alg».proof.Proof.LibIndexWords
import proofs.«426131_j12824772345978_2_alg».proof.Proof.LibTakeMask
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefValue

open Idealize.ShloMosaic Idealize.ShloMosaic.ValueIdx Cert.ReferenceIdeal Cert.ReferenceIdeal.Gen Cert.ReferenceIdeal.ReadP

/-- The reference's first matrix product is the plain product. -/
theorem dot1_eq (x0 : FVec Ideal S100000x128 .f32) (x3 : FVec Ideal S128x64 .f32) :
    Host.dotGeneral (F := Ideal) dot_S100000x128_S128x64_S100000x64_1_0_0_1_n_n none x0 x3 = Gcn.matmul (M := 100000) (K := 128) (N := 64) x0 x3 := by
  funext i
  obtain ⟨n, f, rfl⟩ : ∃ (n : Fin 100000) (f : Fin 64), i = ix2 n f := ⟨i 0, i 1, eq_ix2 i⟩
  -- entry (n, f) of the product is the sum over k of the left operand at (row of the entry, k) times the right one at
  -- (k, column of the entry)
  refine (val_main_v4_apply x0 x3 (ix2 n f)).trans ?_
  rw [Gcn.matmul_apply]
  refine Finset.sum_congr rfl fun k _ => ?_
  -- the two operand indices, by their coordinates
  have el : lidx_main_v4 (ix2 n f) k = ix2 n k :=
    funext fun c => Fin.ext (by match c with | ⟨0, _⟩ => rfl | ⟨1, _⟩ => rfl)
  have er : ridx_main_v4 (ix2 n f) k = ix2 k f :=
    funext fun c => Fin.ext (by match c with | ⟨0, _⟩ => rfl | ⟨1, _⟩ => rfl)
  rw [el, er]

/-- The reference's second matrix product is the plain product. -/
theorem dot2_eq (a : FVec Ideal S100000x192 .f32) (x5 : FVec Ideal S192x64 .f32) :
    Host.dotGeneral (F := Ideal) dot_S100000x192_S192x64_S100000x64_1_0_0_1_n_n none a x5 = Gcn.matmul (M := 100000) (K := 192) (N := 64) a x5 := by
  funext i
  obtain ⟨n, f, rfl⟩ : ∃ (n : Fin 100000) (f : Fin 64), i = ix2 n f := ⟨i 0, i 1, eq_ix2 i⟩
  -- the product at an entry is a sum over the contraction index, which has one coordinate running over the 192 columns
  -- of the left operand
  simp only [Host.dotGeneral]
  rw [Ideal.dotGeneral_apply,
    ← Equiv.sum_comp (contrEquiv1 dot_S100000x192_S192x64_S100000x64_1_0_0_1_n_n 192 rfl rfl).symm, Gcn.matmul_apply]
  refine Finset.sum_congr rfl fun k _ => ?_
  have hk := contrEquiv1_symm_val dot_S100000x192_S192x64_S100000x64_1_0_0_1_n_n 192 rfl rfl k
  -- the left operand is read at (n, k): the entry's row, the contraction coordinate
  have el : dot_S100000x192_S192x64_S100000x64_1_0_0_1_n_n.lhsIdx (ix2 n f)
      ((contrEquiv1 dot_S100000x192_S192x64_S100000x64_1_0_0_1_n_n 192 rfl rfl).symm k) = ix2 n k :=
    funext fun c => Fin.ext (by
      match c with
      | ⟨0, _⟩ => exact lhs_main_v70_0 _ _
      | ⟨1, _⟩ => exact (lhs_main_v70_1 _ _).trans hk)
  -- the right operand is read at (k, f): the contraction coordinate, the entry's column
  have er : dot_S100000x192_S192x64_S100000x64_1_0_0_1_n_n.rhsIdx (ix2 n f)
      ((contrEquiv1 dot_S100000x192_S192x64_S100000x64_1_0_0_1_n_n 192 rfl rfl).symm k) = ix2 k f :=
    funext fun c => Fin.ext (by
      match c with
      | ⟨0, _⟩ => exact (rhs_main_v70_0 _ _).trans hk
      | ⟨1, _⟩ => exact rhs_main_v70_1 _ _)
  rw [el, er]

namespace StagesA

/-- A vector of 100000 entries laid along the rows of a [100000, 64] array (first as a one-column array, then along the
    columns) reads, at (n, f), the vector at n. -/
theorem bcast_rows_apply (d : FVec Ideal S100000 .f32) (n : Fin 100000) (f : Fin 64) :
    broadcastInDim S100000x64 ![0, 1] bcast_S100000x1_S100000x64_0_1
      (broadcastInDim S100000x1 ![0] bcast_S100000_S100000x1_0 d) (ix2 n f) = d (ix1 n) := by
  rw [broadcastInDim_apply ![0, 1] bcast_S100000x1_S100000x64_0_1 _ (ix2 n f) (ix2 n (0 : Fin 1)) (fun c => match c with
    | ⟨0, _⟩ => by show n.val = if (100000 : Nat) = 1 then 0 else n.val; rw [if_neg (by decide)]
    | ⟨1, _⟩ => by show 0 = if (1 : Nat) = 1 then 0 else f.val; rw [if_pos rfl])]
  exact LibIndexWords.broadcastInDim_col_apply bcast_S100000_S100000x1_0 d n 0

/-- A vector of 64 entries laid along the columns of a [100000, 64] array (first as a one-row array, then along the
    rows) reads, at (n, f), the vector at f. -/
theorem bcast_cols_apply (b : FVec Ideal S64 .f32) (n : Fin 100000) (f : Fin 64) :
    broadcastInDim S100000x64 ![0, 1] bcast_S1x64_S100000x64_0_1
      (broadcastInDim S1x64 ![1] bcast_S64_S1x64_1 b) (ix2 n f) = b (ix1 f) := by
  rw [broadcastInDim_apply ![0, 1] bcast_S1x64_S100000x64_0_1 _ (ix2 n f) (ix2 (0 : Fin 1) f) (fun c => match c with
    | ⟨0, _⟩ => by show 0 = if (1 : Nat) = 1 then 0 else n.val; rw [if_pos rfl]
    | ⟨1, _⟩ => by show f.val = if (64 : Nat) = 1 then 0 else f.val; rw [if_neg (by decide)])]
  exact broadcastInDim_apply ![1] bcast_S64_S1x64_1 b (ix2 (0 : Fin 1) f) (ix1 f) (fun c => match c with
    | ⟨0, _⟩ => by show f.val = if (64 : Nat) = 1 then 0 else f.val; rw [if_neg (by decide)])

end StagesA

/-- The reference's end of a convolution — (aggregate + features * d broadcast along the columns) + bias broadcast along
    the rows — is the combination `Gcn.finalize` of the same arrays, the vector `d` read as a column and the bias as a row. -/
theorem finalize_eq (agg h : FVec Ideal S100000x64 .f32) (d : FVec Ideal S100000 .f32) (b : FVec Ideal S64 .f32)
    (hd : S100000.ShapeCasts S100000x1) (hb : S64.ShapeCasts S1x64) :
    addf (addf agg (mulf h (broadcastInDim S100000x64 ![0, 1] bcast_S100000x1_S100000x64_0_1
        (broadcastInDim S100000x1 ![0] bcast_S100000_S100000x1_0 d))))
      (broadcastInDim S100000x64 ![0, 1] bcast_S1x64_S100000x64_0_1 (broadcastInDim S1x64 ![1] bcast_S64_S1x64_1 b))
      = Gcn.finalize (M := 100000) (N := 64) agg h (shapeCast S100000x1 d hd) (shapeCast S1x64 b hb) := by
  funext i
  obtain ⟨n, f, rfl⟩ : ∃ (n : Fin 100000) (f : Fin 64), i = ix2 n f := ⟨i 0, i 1, eq_ix2 i⟩
  -- the vector read as a one-column array holds at (n, 0) its entry n: both have row-major position n
  have ed : shapeCast S100000x1 d hd (ix2 n (0 : Fin 1)) = d (ix1 n) := by
    refine shapeCast_apply d hd (ix2 n (0 : Fin 1)) (ix1 n) ?_
    rw [Shape.rowMajor_val_two, Shape.rowMajor_val_one]
    show n.val = n.val * 1 + 0
    omega
  -- the bias read as a one-row array holds at (0, f) its entry f: both have row-major position f
  have eb : shapeCast S1x64 b hb (ix2 (0 : Fin 1) f) = b (ix1 f) := by
    refine shapeCast_apply b hb (ix2 (0 : Fin 1) f) (ix1 f) ?_
    rw [Shape.rowMajor_val_two, Shape.rowMajor_val_one]
    show f.val = 0 * 64 + f.val
    omega
  rw [Gcn.finalize_apply, addf_apply, addf_apply, mulf_apply, StagesA.bcast_rows_apply, StagesA.bcast_cols_apply, ed, eb]

end Cert.RefValue

end
-- ==== Proof.RefStagesB.lean ====
/-
  Three stages of the reference read as plain formulas, for labels in range.

  The reference selects a row of a 128-row table for every node by taking the row numbered by the node's label (after
  wrapping negative labels by the table's height), and sums node rows per label by an accumulating scatter into a zero
  array. The formulas on the other side are sums with a 0/1 factor: the sum over g of [label n = g] * table (g, f), and
  the sum over n of [label n = g] * h (n, f).

  When every label spells a number below 128: the wrap leaves it, read signed and clamped it is that number, and the
  one-hot sum has the single nonzero term at that number (0 * x = 0 and 1 * x = x for every extended real, so nothing
  need be finite). A table laid out as [a | b] read at a column below 128 is `a`, and at column 128 + f is `b` at f.
  For the per-label sum no range assumption is needed: a label read signed is g exactly when it is the word of g, and a
  label outside the range matches no g on either side.
-/
import proofs.«426131_j12824772345978_2_alg».proof.Proof.RefRead
import proofs.«426131_j12824772345978_2_alg».proof.Proof.Spec
import proofs.«426131_j12824772345978_2_alg».proof.Proof.LibGatherRows
import proofs.«426131_j12824772345978_2_alg».proof.Proof.LibSegmentSum
import proofs.«426131_j12824772345978_2_alg».proof.Proof.LibGcnAlgebra
import proofs.«426131_j12824772345978_2_alg».proof.Proof.LibIndexWords
import proofs.«426131_j12824772345978_2_alg».proof.Proof.LibTakeMask
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefValue

open Idealize.ShloMosaic Idealize.ShloMosaic.ValueIdx Cert.ReferenceIdeal Cert.ReferenceIdeal.Gen Cert.ReferenceIdeal.ReadP
open scoped BigOperators

/-- Every label in range: what the added precondition says of the label vector. -/
def InRange (x2 : IVec S100000 32) : Prop := ∀ n : Fin 100000, (x2 (ix1 n)).toNat < 128

namespace StagesB

/-! ## Words and the numbers they spell -/

/-- A word read signed is the number `g` (below 2³¹) exactly when it is the word of `g`: the signed reading is
    injective, and the word of a number below 2³¹ reads back as that number. -/
theorem toInt_eq_iff (w : BitVec 32) (g : Nat) (hg : g < 2 ^ 31) : w.toInt = (g : ℤ) ↔ w = BitVec.ofNat 32 g := by
  have hmod : g % 2 ^ 32 = g := Nat.mod_eq_of_lt (by omega)
  have hw := w.isLt
  rw [BitVec.toInt_eq_toNat_cond]
  constructor
  · intro h
    apply BitVec.eq_of_toNat_eq
    rw [BitVec.toNat_ofNat, hmod]
    split at h <;> omega
  · intro h
    rw [h, BitVec.toNat_ofNat, hmod, if_pos (by omega)]

/-- A word that spells a number below `N` (at most 2³¹), read signed and clamped into `[0, N − 1]`, is that number. -/
theorem clamp_of_lt (w : BitVec 32) (N : Nat) (hw : w.toNat < N) (hN : N ≤ 2 ^ 31) : min w.toInt.toNat (N - 1) = w.toNat := by
  rw [BitVec.toInt_eq_toNat_cond, if_pos (by omega)]
  omega

/-! ## A one-hot row times a table -/

/-- The sum over `g` of `[w = g] * t g`, for a word `w` that spells a number below the table's height, has one nonzero
    term, the one at that number: `0 * x = 0` and `1 * x = x` for every extended real. -/
theorem sum_onehot {G : Nat} (hG : G ≤ 2 ^ 32) (w : BitVec 32) (hw : w.toNat < G) (t : Fin G → EReal) :
    (∑ g : Fin G, (if w = BitVec.ofNat 32 g.val then (1 : EReal) else 0) * t g) = t ⟨w.toNat, hw⟩ := by
  rw [Finset.sum_eq_single (⟨w.toNat, hw⟩ : Fin G)]
  · have e : w = BitVec.ofNat 32 w.toNat :=
      BitVec.eq_of_toNat_eq (by rw [BitVec.toNat_ofNat, Nat.mod_eq_of_lt w.isLt])
    rw [if_pos e, one_mul]
  · intro g _ hg
    have hne : ¬ w = BitVec.ofNat 32 g.val := fun h => hg (Fin.ext (by
      show g.val = w.toNat
      have hg' : g.val < 2 ^ 32 := lt_of_lt_of_le g.isLt hG
      rw [h, BitVec.toNat_ofNat, Nat.mod_eq_of_lt hg']))
    rw [if_neg hne, zero_mul]
  · intro h
    exact absurd (Finset.mem_univ _) h

/-! ## The label vector as a column, three ways -/

/-- The label vector read as a one-column array holds, in row `n`, the label of `n`. -/
theorem labelCol_apply (x2 : IVec S100000 32) (hsc : S100000.ShapeCasts S100000x1) (n : Fin 100000) (q : Fin 1) :
    shapeCast S100000x1 x2 hsc (ix2 n q) = x2 (ix1 n) := by
  refine shapeCast_apply x2 hsc (ix2 n q) (ix1 n) ?_
  rw [Shape.rowMajor_val_two, Shape.rowMajor_val_one]
  show n.val = n.val * 1 + q.val
  have := q.isLt
  omega

/-- The label vector broadcast along a new unit axis holds, in row `n`, the label of `n`. -/
theorem labelBcast_apply (x2 : IVec S100000 32) (n : Fin 100000) (q : Fin 1) :
    val_main_v131 (F := Ideal) x2 (ix2 n q) = x2 (ix1 n) := by
  unfold val_main_v131
  exact Cert.LibIndexWords.broadcastInDim_col_apply _ x2 n q

/-- The first take's index column (negative labels wrapped by 128, then broadcast along a new unit axis) holds, in row
    `n`, the label of `n` whenever that label is not negative as a signed number. -/
theorem wrapA_apply (x2 : IVec S100000 32) (n : Fin 100000) (q : Fin 1) (h : (x2 (ix1 n)).toNat < 2 ^ 31) :
    val_main_v66 (F := Ideal) x2 (ix2 n q) = x2 (ix1 n) := by
  unfold val_main_v66
  rw [Cert.LibIndexWords.broadcastInDim_col_apply]
  exact Cert.LibIndexWords.wrapIndex_apply bcast_S_S100000 128#32 x2 (ix1 n) h

/-- The second take's index column, likewise. -/
theorem wrapB_apply (x2 : IVec S100000 32) (n : Fin 100000) (q : Fin 1) (h : (x2 (ix1 n)).toNat < 2 ^ 31) :
    val_main_v127 (F := Ideal) x2 (ix2 n q) = x2 (ix1 n) := by
  unfold val_main_v127
  rw [Cert.LibIndexWords.broadcastInDim_col_apply]
  exact Cert.LibIndexWords.wrapIndex_apply bcast_S_S100000 128#32 x2 (ix1 n) h

/-- The segment sum's accumulator is zero everywhere. -/
theorem zeroAcc_apply (i : S128x128.Idx) : val_main_v130 (F := Ideal) i = 0 := by
  rw [val_main_v130_apply, val_main_cst_28_apply]
  exact Ideal.ofBits_zero_f32

/-! ## A take of whole rows at a row number in range -/

/-- A take of whole rows of an `[N, C]` table reads, at `(p, q)`, row `w` of the table at column `q` when start index
    `p` is a word `w` that spells a number below `N`: read signed it is that number, and the clamp leaves it. -/
theorem gather_rows_of_lt {α : Type} {N C n : Nat} (hN : N ≤ 2 ^ 31)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (p : Fin n) (q : Fin C) (w : BitVec 32)
    (hidx : idx (ix2 p ⟨0, Nat.one_pos⟩) = w) (hw : w.toNat < N) :
    Host.gather (GatherRows.rowDims N C n wf) x idx (ix2 p q) = x (ix2 ⟨w.toNat, hw⟩ q) := by
  rw [GatherRows.gather_rows_apply (Nat.lt_of_le_of_lt (Nat.zero_le _) hw) wf x idx p q]
  refine congrArg (fun r : Fin N => x (ix2 r q)) (Fin.ext ?_)
  show min (idx (ix2 p ⟨0, Nat.one_pos⟩)).toInt.toNat (N - 1) = w.toNat
  rw [hidx]
  exact clamp_of_lt w N hw hN

end StagesB

/-- The left 128 columns of the one-hot selection from a table laid out as [a | b] are the reference's take of the
    rows of `a` at the labels. -/
theorem pick_left (x2 : IVec S100000 32) (hx : InRange x2) (a : FVec Ideal S128x128 .f32) (b : FVec Ideal S128x64 .f32)
    (hsc : S100000.ShapeCasts S100000x1) (hcat : Shape.Concatenates [S128x128, S128x64] (⟨2, ![128, 192]⟩ : Shape) 1)
    (hsl : S100000x192.Slices ![0, 0] S100000x128) :
    extractStridedSlice S100000x128 ![0, 0]
        (Gcn.pick (M := 100000) (G := 128) (N := 192) (shapeCast S100000x1 x2 hsc) (concatenate (⟨2, ![128, 192]⟩ : Shape) 1 [⟨S128x128, a⟩, ⟨S128x64, b⟩] hcat)) hsl
      = Host.gather gather_S128x128_S100000x1_S100000x128_1_0_n_n_0_1_1128 a (val_main_v66 (F := Ideal) x2) := by
  funext i
  obtain ⟨n, f, rfl⟩ : ∃ (n : Fin 100000) (f : Fin 128), i = ix2 n f := ⟨i 0, i 1, eq_ix2 i⟩
  have hw : (x2 (ix1 n)).toNat < 128 := hx n
  have hf := f.isLt
  -- the selection's side: the one nonzero term of the sum is the label's row, which at a column below 128 lies in `a`
  have hL : extractStridedSlice S100000x128 ![0, 0]
      (Gcn.pick (M := 100000) (G := 128) (N := 192) (shapeCast S100000x1 x2 hsc) (concatenate (⟨2, ![128, 192]⟩ : Shape) 1 [⟨S128x128, a⟩, ⟨S128x64, b⟩] hcat)) hsl (ix2 n f)
      = a (ix2 ⟨(x2 (ix1 n)).toNat, hw⟩ f) := by
    rw [extractStridedSlice_apply ![0, 0] _ hsl (ix2 n f) (ix2 n (⟨f.val, by omega⟩ : Fin 192)) (fun c => match c with
        | ⟨0, _⟩ => by show n.val = 0 + n.val; omega
        | ⟨1, _⟩ => by show f.val = 0 + f.val; omega),
      Gcn.pick_apply, StagesB.labelCol_apply, StagesB.sum_onehot (by norm_num) _ hw]
    exact concatenate_pair_apply_left (t := (⟨2, ![128, 192]⟩ : Shape)) (1 : Fin 2) a b hcat _ rfl (ix2 ⟨(x2 (ix1 n)).toNat, hw⟩ f) (fun c => match c with
      | ⟨0, _⟩ => rfl
      | ⟨1, _⟩ => rfl)
  -- the reference's side: the wrap leaves the label, and the take reads the label's row
  have hR : Host.gather gather_S128x128_S100000x1_S100000x128_1_0_n_n_0_1_1128 a (val_main_v66 (F := Ideal) x2) (ix2 n f) = a (ix2 ⟨(x2 (ix1 n)).toNat, hw⟩ f) :=
    StagesB.gather_rows_of_lt (by norm_num) gather_S128x128_S100000x1_S100000x128_1_0_n_n_0_1_1128.wf a (val_main_v66 (F := Ideal) x2) n f (x2 (ix1 n))
      (StagesB.wrapA_apply x2 n _ (by omega)) hw
  exact hL.trans hR.symm

/-- The right 64 columns of the one-hot selection from a table laid out as [a | b] are the reference's take of the
    rows of `b` at the labels. -/
theorem pick_right (x2 : IVec S100000 32) (hx : InRange x2) (a : FVec Ideal S128x128 .f32) (b : FVec Ideal S128x64 .f32)
    (hsc : S100000.ShapeCasts S100000x1) (hcat : Shape.Concatenates [S128x128, S128x64] (⟨2, ![128, 192]⟩ : Shape) 1)
    (hsl : S100000x192.Slices ![0, 128] S100000x64) :
    extractStridedSlice S100000x64 ![0, 128]
        (Gcn.pick (M := 100000) (G := 128) (N := 192) (shapeCast S100000x1 x2 hsc) (concatenate (⟨2, ![128, 192]⟩ : Shape) 1 [⟨S128x128, a⟩, ⟨S128x64, b⟩] hcat)) hsl
      = Host.gather gather_S128x64_S100000x1_S100000x64_1_0_n_n_0_1_164 b (val_main_v127 (F := Ideal) x2) := by
  funext i
  obtain ⟨n, f, rfl⟩ : ∃ (n : Fin 100000) (f : Fin 64), i = ix2 n f := ⟨i 0, i 1, eq_ix2 i⟩
  have hw : (x2 (ix1 n)).toNat < 128 := hx n
  have hf := f.isLt
  -- the selection's side: the one nonzero term of the sum is the label's row, which at column 128 + f lies in `b`
  have hL : extractStridedSlice S100000x64 ![0, 128]
      (Gcn.pick (M := 100000) (G := 128) (N := 192) (shapeCast S100000x1 x2 hsc) (concatenate (⟨2, ![128, 192]⟩ : Shape) 1 [⟨S128x128, a⟩, ⟨S128x64, b⟩] hcat)) hsl (ix2 n f)
      = b (ix2 ⟨(x2 (ix1 n)).toNat, hw⟩ f) := by
    rw [extractStridedSlice_apply ![0, 128] _ hsl (ix2 n f) (ix2 n (⟨128 + f.val, by omega⟩ : Fin 192)) (fun c => match c with
        | ⟨0, _⟩ => by show n.val = 0 + n.val; omega
        | ⟨1, _⟩ => by show 128 + f.val = 128 + f.val; rfl),
      Gcn.pick_apply, StagesB.labelCol_apply, StagesB.sum_onehot (by norm_num) _ hw]
    refine concatenate_pair_apply_right (t := (⟨2, ![128, 192]⟩ : Shape)) (1 : Fin 2) a b hcat _ rfl rfl (ix2 ⟨(x2 (ix1 n)).toNat, hw⟩ f) ?_ ?_
    · intro c hc
      match c with
      | ⟨0, _⟩ => rfl
      | ⟨1, _⟩ => exact absurd rfl hc
    · show f.val + 128 = 128 + f.val
      omega
  -- the reference's side: the wrap leaves the label, and the take reads the label's row
  have hR : Host.gather gather_S128x64_S100000x1_S100000x64_1_0_n_n_0_1_164 b (val_main_v127 (F := Ideal) x2) (ix2 n f) = b (ix2 ⟨(x2 (ix1 n)).toNat, hw⟩ f) :=
    StagesB.gather_rows_of_lt (by norm_num) gather_S128x64_S100000x1_S100000x64_1_0_n_n_0_1_164.wf b (val_main_v127 (F := Ideal) x2) n f (x2 (ix1 n))
      (StagesB.wrapB_apply x2 n _ (by omega)) hw
  exact hL.trans hR.symm

/-- The reference's per-graph segment sum is the masked sum `Gcn.segsum`. -/
theorem segsum_eq (x2 : IVec S100000 32) (h : FVec Ideal S100000x128 .f32) (hsc : S100000.ShapeCasts S100000x1) :
    Host.scatterAdd (F := Ideal) scatter_S128x128_S100000x1_S100000x128_1_0_0_1 (val_main_v130 (F := Ideal)) (val_main_v131 (F := Ideal) x2) h
      = Gcn.segsum (M := 100000) (G := 128) (N := 128) (shapeCast S100000x1 x2 hsc) h := by
  funext i
  obtain ⟨g, q, rfl⟩ : ∃ (g : Fin 128) (q : Fin 128), i = ix2 g q := ⟨i 0, i 1, eq_ix2 i⟩
  have hg := g.isLt
  -- entry (g, q) of the scatter: the zero accumulator plus the rows whose label, read signed, is g
  rw [Cert.SegmentSum.scatterAdd_rows_apply scatter_S128x128_S100000x1_S100000x128_1_0_0_1 rfl rfl rfl rfl, Gcn.segsum_apply, StagesB.zeroAcc_apply, zero_add]
  refine Finset.sum_congr rfl fun n _ => ?_
  rw [StagesB.labelBcast_apply, StagesB.labelCol_apply]
  -- a label read signed is g exactly when it is the word of g; a 0/1 factor selects
  by_cases hc : x2 (ix1 n) = BitVec.ofNat 32 g.val
  · rw [if_pos hc, one_mul, if_pos ((StagesB.toInt_eq_iff _ g.val (by omega)).2 hc)]
  · rw [if_neg hc, zero_mul, if_neg (fun h' => hc ((StagesB.toInt_eq_iff _ g.val (by omega)).1 h'))]

end Cert.RefValue

end
-- ==== Proof.KernelValue.lean ====
/-
  The value of the kernel's program: what its result buffer holds at the end, as the reference's last stage applied to
  the argument arrays.

  The program is followed from the launch to the return, item by item. After every item the buffers that later items
  read are shown equal to the reference's stage of the same name, applied to the argument arrays: a stretch of host
  operations by running it (the two programs spell these operations alike), a kernel region by its value (a matrix
  product, the end of a convolution, the selection of root rows, the per-graph sums) and the reference's own reading of
  the same stage. The one place where the two programs compute differently is the selection of each node's root row —
  a one-hot product in the kernel, a take in the reference — and there the labels are needed in their range.
-/
import proofs.«426131_j12824772345978_2_alg».proof.Proof.KernelCarry
import proofs.«426131_j12824772345978_2_alg».proof.Proof.KernelStretch
import proofs.«426131_j12824772345978_2_alg».proof.Proof.RegionMatmul
import proofs.«426131_j12824772345978_2_alg».proof.Proof.RegionFinalize
import proofs.«426131_j12824772345978_2_alg».proof.Proof.RegionPick
import proofs.«426131_j12824772345978_2_alg».proof.Proof.RegionSegsum
import proofs.«426131_j12824772345978_2_alg».proof.Proof.RefStagesA
import proofs.«426131_j12824772345978_2_alg».proof.Proof.RefStagesB

set_option maxRecDepth 16384

noncomputable section

namespace Cert.KernelValue

open Idealize.ShloMosaic Idealize.ShloMosaic.TcCoe Idealize.SL.Sem Cert.KernelIdeal Cert.KernelIdeal.Gen
open Cert.RefValue (aggOf finOf tab2Of)
open Cert.ReferenceIdeal.ReadP (val_main_v1 val_main_v3 val_main_v26 val_main_v40 val_main_v4 val_main_v39 val_main_v47 val_main_v60
  val_main_v66 val_main_v67 val_main_v68 val_main_v69 val_main_v70 val_main_v105 val_main_v113 val_main_v114 val_main_v121 val_main_v127
  val_main_v128 val_main_v129 val_main_v130 val_main_v131 val_main_v132 val_main_v140 val_main_v141 val_main_call0_v0 val_main_call1_v0)

variable (m : (ℓ : Loc nD τ sig) → Buf (Elt Ideal) ℓ) (ρ : Dev nD → PrngReg) (c : Dev nD)

/-- The argument arrays of device `c`. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-! ## The edge structure (before region 0) -/

theorem at1_src : W1 m ρ c (Proc.devRef .tc main_v1) = val_main_v1 (F := Ideal) (a1 m c) := s0_src (W0 m ρ c)
theorem at1_dst : W1 m ρ c (Proc.devRef .tc main_v3) = val_main_v3 (F := Ideal) (a1 m c) := s0_dst (W0 m ρ c)
theorem at1_nu : W1 m ρ c (Proc.devRef .tc main_v25) = val_main_v26 (F := Ideal) (a1 m c) := s0_nu (W0 m ρ c)
theorem at1_d2 : W1 m ρ c (Proc.devRef .tc main_v27)
    = shapeCast S100000x1 (val_main_v40 (F := Ideal) (a1 m c)) shapeCasts_S100000_S100000x1 := s0_d2 (W0 m ρ c)

/-! ## The first convolution -/

/-- The first product (region 0). -/
theorem at2_h1 : W2 m ρ c (Proc.devRef .tc main_v28) = val_main_v4 (F := Ideal) (a0 m c) (a3 m c) := by
  refine (W2_arr m ρ c 2).trans ?_
  rw [region0 (V1 m ρ) c]
  show Gcn.matmul (W1 m ρ c (Proc.devRef .tc main_arg0)) (W1 m ρ c (Proc.devRef .tc main_arg3)) = _
  walk_back
  exact (Cert.RefValue.dot1_eq _ _).symm

/-- Its message passing (the host operations between regions 0 and 1). -/
theorem at3_agg1 : W3 m ρ c (Proc.devRef .tc main_v41) = val_main_v39 (F := Ideal) (a0 m c) (a1 m c) (a3 m c) := by
  rw [Cert.RefValue.v39_eq]
  refine (s1_agg (W2 m ρ c)).trans ?_
  walk_back
  rw [at2_h1, at1_src, at1_dst, at1_nu]

theorem at3_b1 : W3 m ρ c (Proc.devRef .tc main_v42) = shapeCast S1x64 (a4 m c) shapeCasts_S64_S1x64 := by
  refine (s1_bias (W2 m ρ c)).trans ?_
  walk_back

/-- The first convolution's output (region 1). -/
theorem at4_x2 : W4 m ρ c (Proc.devRef .tc main_v43) = val_main_v47 (F := Ideal) (a0 m c) (a1 m c) (a3 m c) (a4 m c) := by
  rw [Cert.RefValue.v47_eq]
  refine (W4_arr m ρ c 4).trans ?_
  rw [region1 (V3 m ρ) c]
  show Gcn.finalize (W3 m ρ c (Proc.devRef .tc main_v41)) (W3 m ρ c (Proc.devRef .tc main_v28)) (W3 m ρ c (Proc.devRef .tc main_v27))
    (W3 m ρ c (Proc.devRef .tc main_v42)) = _
  rw [at3_agg1, at3_b1]
  walk_back
  rw [at2_h1, at1_d2]
  exact (Cert.RefValue.finalize_eq _ _ _ _ _ _).symm

/-! ## The root rows -/

/-- The table of root rows (the host operations between regions 1 and 2). -/
theorem at5_table : W5 m ρ c (Proc.devRef .tc main_v64)
    = concatenate S128x192 1 [⟨S128x128, val_main_v60 (F := Ideal) (a0 m c) (a2 m c)⟩,
        ⟨S128x64, val_main_v121 (F := Ideal) (a0 m c) (a1 m c) (a2 m c) (a3 m c) (a4 m c)⟩] concatenates_S128x128_S128x64_S128x192_d1 := by
  have h0 : W4 m ρ c (Proc.devRef .tc main_arg0) = a0 m c := by walk_back
  have h2 : W4 m ρ c (Proc.devRef .tc main_arg2) = a2 m c := by walk_back
  rw [Cert.RefValue.v121_eq]
  refine (s2_table (W4 m ρ c)).trans ?_
  rw [at4_x2, h0, h2]

theorem at5_label : W5 m ρ c (Proc.devRef .tc main_v65) = shapeCast S100000x1 (a2 m c) shapeCasts_S100000_S100000x1 := by
  refine (s2_label (W4 m ρ c)).trans ?_
  walk_back

/-- The selected rows (region 2). -/
theorem at6_sel : W6 m ρ c (Proc.devRef .tc main_v66)
    = Gcn.pick (M := 100000) (G := 128) (N := 192) (shapeCast S100000x1 (a2 m c) shapeCasts_S100000_S100000x1)
        (concatenate S128x192 1 [⟨S128x128, val_main_v60 (F := Ideal) (a0 m c) (a2 m c)⟩,
          ⟨S128x64, val_main_v121 (F := Ideal) (a0 m c) (a1 m c) (a2 m c) (a3 m c) (a4 m c)⟩] concatenates_S128x128_S128x64_S128x192_d1) := by
  refine (W6_arr m ρ c 2).trans ?_
  rw [region2 (V5 m ρ) c]
  show Gcn.pick (W5 m ρ c (Proc.devRef .tc main_v65)) (W5 m ρ c (Proc.devRef .tc main_v64)) = _
  rw [at5_label, at5_table]

variable (hx : Cert.RefValue.InRange (a2 m c))
include hx

/-- The first layer's root rows: the left 128 columns of the selection. -/
theorem at7_root1 : W7 m ρ c (Proc.devRef .tc main_v67) = val_main_v67 (F := Ideal) (a0 m c) (a2 m c) := by
  refine (s3_root1 (W6 m ρ c)).trans ?_
  rw [at6_sel]
  unfold val_main_v67
  exact Cert.RefValue.pick_left (a2 m c) hx _ _ _ _ _

/-- The second layer's root rows: the right 64 columns of the selection. -/
theorem at7_root2 : W7 m ρ c (Proc.devRef .tc main_v68)
    = val_main_v128 (F := Ideal) (a0 m c) (a1 m c) (a2 m c) (a3 m c) (a4 m c) := by
  refine (s3_root2 (W6 m ρ c)).trans ?_
  rw [at6_sel]
  unfold val_main_v128
  exact Cert.RefValue.pick_right (a2 m c) hx _ _ _ _ _

/-- The second convolution's input before the rectifier. -/
theorem at7_cat : W7 m ρ c (Proc.devRef .tc main_v69)
    = val_main_v68 (F := Ideal) (a0 m c) (a1 m c) (a2 m c) (a3 m c) (a4 m c) := by
  have h43 : W6 m ρ c (Proc.devRef .tc main_v43) = val_main_v47 (F := Ideal) (a0 m c) (a1 m c) (a3 m c) (a4 m c) := by
    walk_back
    exact at4_x2 m ρ c
  refine (s3_cat (W6 m ρ c)).trans ?_
  rw [at6_sel, h43]
  unfold val_main_v68 val_main_v67
  rw [Cert.RefValue.pick_left (a2 m c) hx _ _ _ _ _]

/-! ## The second convolution -/

theorem at8_in2 : W8 m ρ c (Proc.devRef .tc main_v70)
    = val_main_v69 (F := Ideal) (a0 m c) (a1 m c) (a2 m c) (a3 m c) (a4 m c) := by
  refine (s31_relu (W7 m ρ c)).trans ?_
  rw [at7_cat m ρ c hx]
  unfold val_main_v69
  rfl

/-- The second product (region 3). -/
theorem at9_h2 : W9 m ρ c (Proc.devRef .tc main_v71)
    = val_main_v70 (F := Ideal) (a0 m c) (a1 m c) (a2 m c) (a3 m c) (a4 m c) (a5 m c) := by
  refine (W9_arr m ρ c 2).trans ?_
  rw [region3 (V8 m ρ) c]
  show Gcn.matmul (W8 m ρ c (Proc.devRef .tc main_v70)) (W8 m ρ c (Proc.devRef .tc main_arg5)) = _
  rw [at8_in2 m ρ c hx]
  walk_back
  unfold val_main_v70
  exact (Cert.RefValue.dot2_eq _ _).symm

theorem at10_agg2 : W10 m ρ c (Proc.devRef .tc main_v84)
    = val_main_v105 (F := Ideal) (a0 m c) (a1 m c) (a2 m c) (a3 m c) (a4 m c) (a5 m c) := by
  rw [Cert.RefValue.v105_eq]
  refine (s4_agg (W9 m ρ c)).trans ?_
  rw [at9_h2 m ρ c hx]
  walk_back
  rw [at1_src, at1_dst, at1_nu]

omit hx in
theorem at10_b2 : W10 m ρ c (Proc.devRef .tc main_v85) = shapeCast S1x64 (a6 m c) shapeCasts_S64_S1x64 := by
  refine (s4_bias (W9 m ρ c)).trans ?_
  walk_back

/-- The second convolution's output (region 4). -/
theorem at11_out2 : W11 m ρ c (Proc.devRef .tc main_v86)
    = val_main_v113 (F := Ideal) (a0 m c) (a1 m c) (a2 m c) (a3 m c) (a4 m c) (a5 m c) (a6 m c) := by
  rw [Cert.RefValue.v113_eq]
  refine (W11_arr m ρ c 4).trans ?_
  rw [region4 (V10 m ρ) c]
  show Gcn.finalize (W10 m ρ c (Proc.devRef .tc main_v84)) (W10 m ρ c (Proc.devRef .tc main_v71)) (W10 m ρ c (Proc.devRef .tc main_v27))
    (W10 m ρ c (Proc.devRef .tc main_v85)) = _
  rw [at10_agg2 m ρ c hx, at10_b2]
  walk_back
  rw [at9_h2 m ρ c hx, at1_d2]
  exact (Cert.RefValue.finalize_eq _ _ _ _ _ _).symm

/-! ## The per-graph means -/

theorem at12_relu2 : W12 m ρ c (Proc.devRef .tc main_v87)
    = val_main_v114 (F := Ideal) (a0 m c) (a1 m c) (a2 m c) (a3 m c) (a4 m c) (a5 m c) (a6 m c) := by
  refine (s5_relu (W11 m ρ c)).trans ?_
  rw [at11_out2 m ρ c hx]
  unfold val_main_v114
  rfl

theorem at13_cat : W13 m ρ c (Proc.devRef .tc main_v88)
    = val_main_v129 (F := Ideal) (a0 m c) (a1 m c) (a2 m c) (a3 m c) (a4 m c) (a5 m c) (a6 m c) := by
  have h68 : W12 m ρ c (Proc.devRef .tc main_v68)
      = val_main_v128 (F := Ideal) (a0 m c) (a1 m c) (a2 m c) (a3 m c) (a4 m c) := by
    walk_back
    exact at7_root2 m ρ c hx
  refine (s51_cat (W12 m ρ c)).trans ?_
  rw [at12_relu2 m ρ c hx, h68]
  unfold val_main_v129
  rfl

omit hx in
theorem at13_label : W13 m ρ c (Proc.devRef .tc main_v89) = shapeCast S100000x1 (a2 m c) shapeCasts_S100000_S100000x1 := by
  refine (s51_label (W12 m ρ c)).trans ?_
  walk_back

/-- The per-graph sums (region 5). -/
theorem at14_sums : W14 m ρ c (Proc.devRef .tc main_v90)
    = val_main_v132 (F := Ideal) (a0 m c) (a1 m c) (a2 m c) (a3 m c) (a4 m c) (a5 m c) (a6 m c) := by
  refine (W14_arr m ρ c 2).trans ?_
  rw [region5 (V13 m ρ) c]
  show Gcn.segsum (W13 m ρ c (Proc.devRef .tc main_v89)) (W13 m ρ c (Proc.devRef .tc main_v88)) = _
  rw [at13_label, at13_cat m ρ c hx]
  unfold val_main_v132
  exact (Cert.RefValue.segsum_eq _ _ _).symm

/-- THE RESULT: the per-graph means, as the reference's last stage of the argument arrays. -/
theorem result_eq : W15 m ρ c (Proc.devRef .tc main_v99)
    = val_main_v141 (F := Ideal) (a0 m c) (a1 m c) (a2 m c) (a3 m c) (a4 m c) (a5 m c) (a6 m c) := by
  refine (s6_result (W14 m ρ c)).trans ?_
  rw [at14_sums m ρ c hx]
  walk_back
  unfold val_main_v141
  rfl

end Cert.KernelValue

end
-- ==== Proof.PreRange.lean ====
import proofs.«426131_j12824772345978_2_alg».proof.Pre_finite_inputs
import proofs.«426131_j12824772345978_2_alg».proof.Proof.Gen.Pre_finite_inputs
import proofs.«426131_j12824772345978_2_alg».proof.Proof.LibTakeMask
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs

/-- What the precondition says of the labels: every one of them, read as a number, is below 128 (the number of graphs). -/
theorem inRange_of_pre [Cert.Pre_finite_inputs.Facts]
    (a0 : FVec Ideal S100000x128 .f32) (a1 : IVec S2x3200000 32) (x2 : IVec S100000 32) (a3 : FVec Ideal S128x64 .f32)
    (a4 : FVec Ideal S64 .f32) (a5 : FVec Ideal S192x64 .f32) (a6 : FVec Ideal S64 .f32)
    (h : Cert.Pre_finite_inputs.fn (F := Ideal) a0 a1 x2 a3 a4 a5 a6 = fun _ => 1#1) :
    ∀ n : Fin 100000, (x2 (ix1 n)).toNat < 128 := by
  intro n
  -- the predicate at its one index: a conjunction whose last conjunct is the "all" over the labels
  have h0 := congrFun h ix0
  dsimp only [Cert.Pre_finite_inputs.fn, Cert.Pre_finite_inputs.fn_part1] at h0
  obtain ⟨-, hall⟩ := IntOp.andi_eq_one.1 h0
  -- an "and"-reduction into a single result that is 1 had a 1 at every label
  haveI : Subsingleton S_.Idx := ⟨fun a b => funext fun d => d.elim0⟩
  have hn := Host.reduce_andi_all _ _ _ _ ix0 hall (ix1 n)
  -- at label n the entry is the conjunction of the two signed comparisons, against 0 and against 128
  obtain ⟨hge, hlt⟩ := IntOp.andi_eq_one.1 hn
  have hge' : IntOp.cmpi .sge (x2 (ix1 n)) 0#32 = 1#1 := hge
  have hlt' : IntOp.cmpi .slt (x2 (ix1 n)) (BitVec.ofNat 32 128) = 1#1 := hlt
  exact Cert.TakeMask.toNat_lt_of_cmp 128 (by norm_num) _ hge' hlt'

end Cert.PreRange

end
-- ==== Proof.lean ====
/-
  The certificate of a two-layer graph convolution with root features and per-graph mean pooling, against its reference.

  The kernel's program computes, on 100000 nodes with 3200000 edges and 128 graphs: the symmetric edge weights from the
  degrees; a first convolution (a matrix product in a kernel region, the message passing by host gathers and a scatter
  sum, the combination aggregate + features * squared inverse root degree + bias in a second region); each graph's root
  row of the input features and of the first layer's output, sent back to every node of the graph by a one-hot matrix
  product (a third region); a second convolution on the rectified concatenation (two more regions); and the per-graph
  sums of the rectified output joined with the root rows, by a transposed one-hot product accumulated over twenty row
  blocks (a sixth region), divided by the graph sizes. The reference does the same with plain array operations, the
  root rows by a take at the labels. At the ideal values a change of float format is the identity and a product into a
  zero accumulator is a plain sum, so every stage of the kernel is the reference's stage of the same arrays; the take
  and the one-hot product agree because every label is in its range, which is what the precondition adds to the
  finiteness of the float inputs. No finiteness is used: 0 * x = 0 and 1 * x = x hold for every extended real, and the
  sums are only regrouped.

  The three frames are the generated ones (the reference's is its run with the result dropped); nothing was rewritten
  by the ideal pass, so `preserves` is trivial; `algebraic` pairs the kernel's run, its result named and read stage by
  stage, with the reference's run.
-/
import proofs.«426131_j12824772345978_2_alg».proof.Defs
import proofs.«426131_j12824772345978_2_alg».proof.Proof.Gen.Kernel
import proofs.«426131_j12824772345978_2_alg».proof.Proof.Gen.Kernel.Skeleton
import proofs.«426131_j12824772345978_2_alg».proof.Proof.Gen.Kernel.Launch
import proofs.«426131_j12824772345978_2_alg».proof.Proof.Gen.Kernel.Points
import proofs.«426131_j12824772345978_2_alg».proof.Proof.Gen.Kernel.Frame
import proofs.«426131_j12824772345978_2_alg».proof.Proof.Gen.KernelIdeal
import proofs.«426131_j12824772345978_2_alg».proof.Proof.Gen.KernelIdeal.Skeleton
import proofs.«426131_j12824772345978_2_alg».proof.Proof.Gen.KernelIdeal.Launch
import proofs.«426131_j12824772345978_2_alg».proof.Proof.Gen.KernelIdeal.Points
import proofs.«426131_j12824772345978_2_alg».proof.Proof.Gen.KernelIdeal.Frame
import proofs.«426131_j12824772345978_2_alg».proof.Proof.Gen.ReferenceIdeal
import proofs.«426131_j12824772345978_2_alg».proof.Proof.Gen.Pre_finite_inputs
import proofs.«426131_j12824772345978_2_alg».proof.Proof.RefRunStaged
import proofs.«426131_j12824772345978_2_alg».proof.Proof.KernelRun
import proofs.«426131_j12824772345978_2_alg».proof.Proof.KernelValue
import proofs.«426131_j12824772345978_2_alg».proof.Proof.PreRange
import Idealize.ShloMosaic.Adequacy
import Idealize.ShloMosaic.Init

set_option maxRecDepth 16384

noncomputable section

namespace Cert.Proof

open Idealize.ShloMosaic Idealize.SL.Sem

/-- Every label of a memory the precondition holds of is in its range. -/
theorem labels_in_range [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) : Cert.RefValue.InRange (Cert.KernelValue.a2 m c) :=
  Cert.PreRange.inRange_of_pre _ _ _ _ _ _ _ (h c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.RefValue.ref_run (F := Ideal) m ρ),
  trivial,
  fun m ρ m' ρ' hpre hagree =>
    ⟨fun c => Cert.ReferenceIdeal.ReadP.val_main_v141 (F := Ideal) (Cert.KernelValue.a0 m c) (Cert.KernelValue.a1 m c) (Cert.KernelValue.a2 m c)
        (Cert.KernelValue.a3 m c) (Cert.KernelValue.a4 m c) (Cert.KernelValue.a5 m c) (Cert.KernelValue.a6 m c),
      (θ_run Cert.KernelIdeal.defs _ _).mono
        (fun _ h c => ⟨(h c).1.trans (Cert.KernelValue.result_eq m ρ c (labels_in_range m hpre c)), (h c).2⟩)
        (Cert.KernelValue.run_result (F := Ideal) m ρ),
      (θ_run Cert.ReferenceIdeal.defs _ _).mono
        (fun _ h c => ⟨by
            rw [(h c).1, (hagree c).1, (hagree c).2.1, (hagree c).2.2.1, (hagree c).2.2.2.1,
              (hagree c).2.2.2.2.1, (hagree c).2.2.2.2.2.1, (hagree c).2.2.2.2.2.2], (h c).2⟩)
        (Cert.RefValue.ref_run (F := Ideal) m' ρ')⟩⟩

end Cert.Proof

end
